-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S3000x768 .f32 .bf16
  ∧ IdealRules.truncf_extf.Statement Cert.KernelIdeal.S3000x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x768 : Shape := ⟨2, ![300000, 768]⟩
abbrev S256x768 : Shape := ⟨2, ![256, 768]⟩
abbrev S300000 : Shape := ⟨1, ![300000]⟩
abbrev S768x768 : Shape := ⟨2, ![768, 768]⟩
abbrev S768 : Shape := ⟨1, ![768]⟩
abbrev S2304x768 : Shape := ⟨2, ![2304, 768]⟩
abbrev S768x3129 : Shape := ⟨2, ![768, 3129]⟩
abbrev S3129 : Shape := ⟨1, ![3129]⟩
abbrev S_ : Shape := ⟨0, ![]⟩

class Facts : Prop where
  bcast_S_S300000x768 : S_.BroadcastsInDim S300000x768 (![] : Fin 0 → Fin S300000x768.rank)
  reducesTo_S300000x768_S_d0_1 : S300000x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_
  bcast_S_S768x3129 : S_.BroadcastsInDim S768x3129 (![] : Fin 0 → Fin S768x3129.rank)
  reducesTo_S768x3129_S_d0_1 : S768x3129.ReducesTo [0, 1] S_
  bcast_S_S3129 : S_.BroadcastsInDim S3129 (![] : Fin 0 → Fin S3129.rank)
  reducesTo_S3129_S_d0 : S3129.ReducesTo [0] S_

variable [Facts]

def fn_part3 {F : FTy → Type} [FloatOps F] (main_v48 : IVec S_ 1) (main_v49 : FVec F S3129 .f32) (main_v50 : FVec F S3129 .f32) : IVec S_ 1 :=
  let main_v51 : IVec S3129 1 := cmpf .olt main_v49 main_v50
  let main_c_19 : IVec S_ 1 := constantI S_ 1 1#1
  let main_v52 : IVec S_ 1 := (fun x v => Host.reduce IntOp.andi x v reducesTo_S3129_S_d0 h_S_) main_v51 main_c_19
  let main_v53 : IVec S_ 1 := andi main_v48 main_v52
  main_v53

def fn_part2 {F : FTy → Type} [FloatOps F] (main_arg9 : FVec F S768x768 .f32) (main_arg10 : FVec F S768 .f32) (main_arg11 : FVec F S768x3129 .f32) (main_arg12 : FVec F S3129 .f32) (main_v33 : IVec S_ 1) : IVec S_ 1 :=
  let main_v34 : FVec F S768x768 .f32 := Host.absf main_arg9
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg10
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x3129 .f32 := Host.absf main_arg11
  let main_cst_16 : FVec F S_ .f32 := constant S_ .f32 0x7F800000#32
  let main_v45 : FVec F S768x3129 .f32 := broadcastInDim S768x3129 ![] bcast_S_S768x3129 main_cst_16
  let main_v46 : IVec S768x3129 1 := cmpf .olt main_v44 main_v45
  let main_c_17 : IVec S_ 1 := constantI S_ 1 1#1
  let main_v47 : IVec S_ 1 := (fun x v => Host.reduce IntOp.andi x v reducesTo_S768x3129_S_d0_1 h_S_) main_v46 main_c_17
  let main_v48 : IVec S_ 1 := andi main_v43 main_v47
  let main_v49 : FVec F S3129 .f32 := Host.absf main_arg12
  let main_cst_18 : FVec F S_ .f32 := constant S_ .f32 0x7F800000#32
  let main_v50 : FVec F S3129 .f32 := broadcastInDim S3129 ![] bcast_S_S3129 main_cst_18
  fn_part3 (F := F) main_v48 main_v49 main_v50

def fn_part1 {F : FTy → Type} [FloatOps F] (main_arg6 : FVec F S768 .f32) (main_arg7 : FVec F S2304x768 .f32) (main_arg8 : FVec F S768 .f32) (main_arg9 : FVec F S768x768 .f32) (main_arg10 : FVec F S768 .f32) (main_arg11 : FVec F S768x3129 .f32) (main_arg12 : FVec F S3129 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S2304x768 .f32 := Host.absf main_arg7
  let main_cst_8 : FVec F S_ .f32 := constant S_ .f32 0x7F800000#32
  let main_v25 : FVec F S2304x768 .f32 := broadcastInDim S2304x768 ![] bcast_S_S2304x768 main_cst_8
  let main_v26 : IVec S2304x768 1 := cmpf .olt main_v24 main_v25
  let main_c_9 : IVec S_ 1 := constantI S_ 1 1#1
  let main_v27 : IVec S_ 1 := (fun x v => Host.reduce IntOp.andi x v reducesTo_S2304x768_S_d0_1 h_S_) main_v26 main_c_9
  let main_v28 : IVec S_ 1 := andi main_v23 main_v27
  let main_v29 : FVec F S768 .f32 := Host.absf main_arg8
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S300000x768 .f32) (main_arg1 : FVec F S300000x768 .f32) (main_arg2 : FVec F S256x768 .f32) (main_arg3 : IVec S300000 32) (main_arg4 : IVec S300000 32) (main_arg5 : FVec F S768x768 .f32) (main_arg6 : FVec F S768 .f32) (main_arg7 : FVec F S2304x768 .f32) (main_arg8 : FVec F S768 .f32) (main_arg9 : FVec F S768x768 .f32) (main_arg10 : FVec F S768 .f32) (main_arg11 : FVec F S768x3129 .f32) (main_arg12 : FVec F S3129 .f32) : IVec S_ 1 :=
  let main_v0 : FVec F S300000x768 .f32 := Host.absf main_arg0
  let main_cst : FVec F S_ .f32 := constant S_ .f32 0x7F800000#32
  let main_v1 : FVec F S300000x768 .f32 := broadcastInDim S300000x768 ![] bcast_S_S300000x768 main_cst
  let main_v2 : IVec S300000x768 1 := cmpf .olt main_v0 main_v1
  let main_c : IVec S_ 1 := constantI S_ 1 1#1
  let main_v3 : IVec S_ 1 := (fun x v => Host.reduce IntOp.andi x v reducesTo_S300000x768_S_d0_1 h_S_) main_v2 main_c
  let main_v4 : FVec F S300000x768 .f32 := Host.absf main_arg1
  let main_cst_0 : FVec F S_ .f32 := constant S_ .f32 0x7F800000#32
  let main_v5 : FVec F S300000x768 .f32 := broadcastInDim S300000x768 ![] bcast_S_S300000x768 main_cst_0
  let main_v6 : IVec S300000x768 1 := cmpf .olt main_v4 main_v5
  let main_c_1 : IVec S_ 1 := constantI S_ 1 1#1
  let main_v7 : IVec S_ 1 := (fun x v => Host.reduce IntOp.andi x v reducesTo_S300000x768_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S768x768 .f32 := Host.absf main_arg5
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg6 main_arg7 main_arg8 main_arg9 main_arg10 main_arg11 main_arg12 main_v13 main_v16
-- ==== Kernel.lean ====
abbrev S300000x768 : Shape := ⟨2, ![300000, 768]⟩
abbrev S256x768 : Shape := ⟨2, ![256, 768]⟩
abbrev S300000 : Shape := ⟨1, ![300000]⟩
abbrev S768x768 : Shape := ⟨2, ![768, 768]⟩
abbrev S768 : Shape := ⟨1, ![768]⟩
abbrev S2304x768 : Shape := ⟨2, ![2304, 768]⟩
abbrev S768x3129 : Shape := ⟨2, ![768, 3129]⟩
abbrev S3129 : Shape := ⟨1, ![3129]⟩
abbrev S300000x1 : Shape := ⟨2, ![300000, 1]⟩
abbrev S2x256x768 : Shape := ⟨3, ![2, 256, 768]⟩
abbrev S3000x1 : Shape := ⟨2, ![3000, 1]⟩
abbrev S3000x768 : Shape := ⟨2, ![3000, 768]⟩
abbrev S1x256x768 : Shape := ⟨3, ![1, 256, 768]⟩
abbrev S3000x256 : Shape := ⟨2, ![3000, 256]⟩
abbrev S_ : Shape := ⟨0, ![]⟩
abbrev S1x768 : Shape := ⟨2, ![1, 768]⟩
abbrev S256x2304 : Shape := ⟨2, ![256, 2304]⟩
abbrev S256x3129 : Shape := ⟨2, ![256, 3129]⟩
abbrev S1x3129 : Shape := ⟨2, ![1, 3129]⟩

abbrev nBuf : Space → Nat
  | .hbm => 44
  | .vmem => 14
  | .smem => 0
  | _ => 0

abbrev bufTy : (tb : Table) → Fin (tcTables nBuf tb) → BufTy
  | .hbm, ⟨0, _⟩ => ⟨S300000x768, .f32⟩
  | .hbm, ⟨1, _⟩ => ⟨S300000x768, .f32⟩
  | .hbm, ⟨2, _⟩ => ⟨S256x768, .f32⟩
  | .hbm, ⟨3, _⟩ => ⟨S300000, .i32⟩
  | .hbm, ⟨4, _⟩ => ⟨S300000, .i32⟩
  | .hbm, ⟨5, _⟩ => ⟨S768x768, .f32⟩
  | .hbm, ⟨6, _⟩ => ⟨S768, .f32⟩
  | .hbm, ⟨7, _⟩ => ⟨S2304x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768x3129, .f32⟩
  | .hbm, ⟨12, _⟩ => ⟨S3129, .f32⟩
  | .hbm, ⟨13, _⟩ => ⟨S300000x1, .i32⟩
  | .hbm, ⟨14, _⟩ => ⟨S2x256x768, .f32⟩
  | .hbm, ⟨15, _⟩ => ⟨S_, .f32⟩
  | .hbm, ⟨16, _⟩ => ⟨S256x768, .f32⟩
  | .hbm, ⟨17, _⟩ => ⟨S300000x1, .i32⟩
  | .hbm, ⟨18, _⟩ => ⟨S2x256x768, .f32⟩
  | .hbm, ⟨19, _⟩ => ⟨S_, .f32⟩
  | .hbm, ⟨20, _⟩ => ⟨S256x768, .f32⟩
  | .hbm, ⟨21, _⟩ => ⟨S256x768, .f32⟩
  | .hbm, ⟨22, _⟩ => ⟨S1x768, .f32⟩
  | .hbm, ⟨23, _⟩ => ⟨S256x768, .f32⟩
  | .hbm, ⟨24, _⟩ => ⟨S256x768, .f32⟩
  | .hbm, ⟨25, _⟩ => ⟨S256x2304, .f32⟩
  | .hbm, ⟨26, _⟩ => ⟨S256x768, .f32⟩
  | .hbm, ⟨27, _⟩ => ⟨S1x768, .f32⟩
  | .hbm, ⟨28, _⟩ => ⟨S256x768, .f32⟩
  | .hbm, ⟨29, _⟩ => ⟨S256x768, .f32⟩
  | .hbm, ⟨30, _⟩ => ⟨S_, .f32⟩
  | .hbm, ⟨31, _⟩ => ⟨S256x768, .f32⟩
  | .hbm, ⟨32, _⟩ => ⟨S256x768, .f32⟩
  | .hbm, ⟨33, _⟩ => ⟨S256x768, .f32⟩
  | .hbm, ⟨34, _⟩ => ⟨S1x768, .f32⟩
  | .hbm, ⟨35, _⟩ => ⟨S256x768, .f32⟩
  | .hbm, ⟨36, _⟩ => ⟨S256x768, .f32⟩
  | .hbm, ⟨37, _⟩ => ⟨S_, .f32⟩
  | .hbm, ⟨38, _⟩ => ⟨S256x768, .f32⟩
  | .hbm, ⟨39, _⟩ => ⟨S256x768, .f32⟩
  | .hbm, ⟨40, _⟩ => ⟨S256x3129, .f32⟩
  | .hbm, ⟨41, _⟩ => ⟨S1x3129, .f32⟩
  | .hbm, ⟨42, _⟩ => ⟨S256x3129, .f32⟩
  | .hbm, ⟨43, _⟩ => ⟨S256x3129, .f32⟩
  | .local _ .vmem, ⟨0, _⟩ => ⟨S3000x1, .i32⟩
  | .local _ .vmem, ⟨1, _⟩ => ⟨S3000x1, .i32⟩
  | .local _ .vmem, ⟨2, _⟩ => ⟨S3000x768, .f32⟩
  | .local _ .vmem, ⟨3, _⟩ => ⟨S3000x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S3000x1, .i32⟩
  | .local _ .vmem, ⟨8, _⟩ => ⟨S3000x1, .i32⟩
  | .local _ .vmem, ⟨9, _⟩ => ⟨S3000x768, .f32⟩
  | .local _ .vmem, ⟨10, _⟩ => ⟨S3000x768, .f32⟩
  | .local _ .vmem, ⟨11, _⟩ => ⟨S1x256x768, .f32⟩
  | .local _ .vmem, ⟨12, _⟩ => ⟨S1x256x768, .f32⟩
  | .local _ .vmem, ⟨13, _⟩ => ⟨S256x768, .f32⟩
  | _, _ => ⟨S300000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_cst : Ref sig .tc := ⟨.hbm, 37, rfl⟩
abbrev main_call1_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_9 : BitVec 32 := 0#32
  let v26 : BitVec 1 := Scalar.cmpi .ne v25 c0_i32_9
  v26

def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3000x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S300000_S300000x1 : S300000.ShapeCasts S300000x1
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  iota_S3000x256_d1_w32 : S3000x256.Iotas .tc 32 [1]
  broadcasts_S3000x1_S3000x256 : S3000x1.Broadcasts S3000x256
  natLt_1_32 : 1 < 32
  bitsLt_bf16_f32 : FTy.bits .bf16 < FTy.bits .f32
  inb_S3000x768_S3000x768_0_0 : ∀ a, (![0, 0] : Fin 2 → Nat) a + S3000x768.size a ≤ S3000x768.size a
  h_S3000x768 : 0 < S3000x768.numel
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S256x768_S1x256x768 : S256x768.ShapeCasts S1x256x768
  reducesTo_S2x256x768_S256x768_d0 : S2x256x768.ReducesTo [0] S256x768
  h_S_ : 0 < S_.numel
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  concatenates_S256x768_S256x768_S256x768_S256x2304_d1 : Shape.Concatenates [S256x768, S256x768, S256x768] S256x2304 1
  bcast_S_S256x768 : S_.BroadcastsInDim S256x768 (![] : Fin 0 → Fin S256x768.rank)
  bcast_S3129_S1x3129_1 : S3129.BroadcastsInDim S1x3129 (![1] : Fin 1 → Fin S1x3129.rank)
  bcast_S1x3129_S256x3129_0_1 : S1x3129.BroadcastsInDim S256x3129 (![0, 1] : Fin 2 → Fin S256x3129.rank)
  dot_S3000x256_S3000x768_S256x768_0_0_1_1_n_n_wf : DotDims.WF S3000x256 S3000x768 S256x768 [0] [0] [1] [1] [] []
  dot_S256x768_S768x768_S256x768_1_0_0_1_n_n_wf : DotDims.WF S256x768 S768x768 S256x768 [1] [0] [0] [1] [] []
  dot_S256x2304_S2304x768_S256x768_1_0_0_1_n_n_wf : DotDims.WF S256x2304 S2304x768 S256x768 [1] [0] [0] [1] [] []
  dot_S256x768_S768x3129_S256x3129_1_0_0_1_n_n_wf : DotDims.WF S256x768 S768x3129 S256x3129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x1.size a ≤ S300000x1.size a
  hwx0_0 : ∀ i : grid0.Coords, EltTy.bits .i32 = 32 ∨ (Rect.block (s := S300000x1) S3000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x768.size a ≤ S300000x768.size a
  hwx0_1 : ∀ i : grid0.Coords, EltTy.bits .f32 = 32 ∨ (Rect.block (s := S300000x768) S3000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x768.size a ≤ S2x256x768.size a
  hwx0_2 : ∀ i : grid0.Coords, EltTy.bits .f32 = 32 ∨ (Rect.block (s := S2x256x768) S1x256x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x1.size a ≤ S300000x1.size a
  hwx1_0 : ∀ i : grid1.Coords, EltTy.bits .i32 = 32 ∨ (Rect.block (s := S300000x1) S3000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x768.size a ≤ S300000x768.size a
  hwx1_1 : ∀ i : grid1.Coords, EltTy.bits .f32 = 32 ∨ (Rect.block (s := S300000x768) S3000x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x768.size a ≤ S2x256x768.size a
  hwx1_2 : ∀ i : grid1.Coords, EltTy.bits .f32 = 32 ∨ (Rect.block (s := S2x256x768) S1x256x768.size (cc1_transform_2 i) (hinb1_2 i)).WholeWords (EltTy.packing .f32)

variable [Facts₀]

def dot_S3000x256_S3000x768_S256x768_0_0_1_1_n_n : DotDims S3000x256 S3000x768 S256x768 where
  lhsContracting := [0]
  rhsContracting := [0]
  lhsNonContracting := [1]
  rhsNonContracting := [1]
  lhsBatch := []
  rhsBatch := []
  wf := dot_S3000x256_S3000x768_S256x768_0_0_1_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x2304_S2304x768_S256x768_1_0_0_1_n_n : DotDims S256x2304 S2304x768 S256x768 where
  lhsContracting := [1]
  rhsContracting := [0]
  lhsNonContracting := [0]
  rhsNonContracting := [1]
  lhsBatch := []
  rhsBatch := []
  wf := dot_S256x2304_S2304x768_S256x768_1_0_0_1_n_n_wf
def dot_S256x768_S768x3129_S256x3129_1_0_0_1_n_n : DotDims S256x768 S768x3129 S256x3129 where
  lhsContracting := [1]
  rhsContracting := [0]
  lhsNonContracting := [0]
  rhsNonContracting := [1]
  lhsBatch := []
  rhsBatch := []
  wf := dot_S256x768_S768x3129_S256x3129_1_0_0_1_n_n_wf

abbrev win0_0 : Pipeline.Window sig grid0 :=
  Pipeline.Window.ofSpec (Memref.whole main_v0) S3000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S3000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S3000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S3000x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S300000x768 : Shape := ⟨2, ![300000, 768]⟩
abbrev S256x768 : Shape := ⟨2, ![256, 768]⟩
abbrev S300000 : Shape := ⟨1, ![300000]⟩
abbrev S768x768 : Shape := ⟨2, ![768, 768]⟩
abbrev S768 : Shape := ⟨1, ![768]⟩
abbrev S2304x768 : Shape := ⟨2, ![2304, 768]⟩
abbrev S768x3129 : Shape := ⟨2, ![768, 3129]⟩
abbrev S3129 : Shape := ⟨1, ![3129]⟩
abbrev S_ : Shape := ⟨0, ![]⟩
abbrev S300000x1 : Shape := ⟨2, ![300000, 1]⟩
abbrev S1x768 : Shape := ⟨2, ![1, 768]⟩
abbrev S256x2304 : Shape := ⟨2, ![256, 2304]⟩
abbrev S256x3129 : Shape := ⟨2, ![256, 3129]⟩
abbrev S1x3129 : Shape := ⟨2, ![1, 3129]⟩

abbrev nBuf : Space → Nat
  | .hbm => 44
  | .vmem => 0
  | .smem => 0
  | _ => 0

abbrev bufTy : (tb : Table) → Fin (tcTables nBuf tb) → BufTy
  | .hbm, ⟨0, _⟩ => ⟨S300000x768, .f32⟩
  | .hbm, ⟨1, _⟩ => ⟨S300000x768, .f32⟩
  | .hbm, ⟨2, _⟩ => ⟨S256x768, .f32⟩
  | .hbm, ⟨3, _⟩ => ⟨S300000, .i32⟩
  | .hbm, ⟨4, _⟩ => ⟨S300000, .i32⟩
  | .hbm, ⟨5, _⟩ => ⟨S768x768, .f32⟩
  | .hbm, ⟨6, _⟩ => ⟨S768, .f32⟩
  | .hbm, ⟨7, _⟩ => ⟨S2304x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768x3129, .f32⟩
  | .hbm, ⟨12, _⟩ => ⟨S3129, .f32⟩
  | .hbm, ⟨13, _⟩ => ⟨S_, .f32⟩
  | .hbm, ⟨14, _⟩ => ⟨S256x768, .f32⟩
  | .hbm, ⟨15, _⟩ => ⟨S300000x1, .i32⟩
  | .hbm, ⟨16, _⟩ => ⟨S256x768, .f32⟩
  | .hbm, ⟨17, _⟩ => ⟨S_, .f32⟩
  | .hbm, ⟨18, _⟩ => ⟨S256x768, .f32⟩
  | .hbm, ⟨19, _⟩ => ⟨S300000x1, .i32⟩
  | .hbm, ⟨20, _⟩ => ⟨S256x768, .f32⟩
  | .hbm, ⟨21, _⟩ => ⟨S256x768, .f32⟩
  | .hbm, ⟨22, _⟩ => ⟨S1x768, .f32⟩
  | .hbm, ⟨23, _⟩ => ⟨S256x768, .f32⟩
  | .hbm, ⟨24, _⟩ => ⟨S256x768, .f32⟩
  | .hbm, ⟨25, _⟩ => ⟨S256x2304, .f32⟩
  | .hbm, ⟨26, _⟩ => ⟨S256x768, .f32⟩
  | .hbm, ⟨27, _⟩ => ⟨S1x768, .f32⟩
  | .hbm, ⟨28, _⟩ => ⟨S256x768, .f32⟩
  | .hbm, ⟨29, _⟩ => ⟨S256x768, .f32⟩
  | .hbm, ⟨30, _⟩ => ⟨S_, .f32⟩
  | .hbm, ⟨31, _⟩ => ⟨S256x768, .f32⟩
  | .hbm, ⟨32, _⟩ => ⟨S256x768, .f32⟩
  | .hbm, ⟨33, _⟩ => ⟨S256x768, .f32⟩
  | .hbm, ⟨34, _⟩ => ⟨S1x768, .f32⟩
  | .hbm, ⟨35, _⟩ => ⟨S256x768, .f32⟩
  | .hbm, ⟨36, _⟩ => ⟨S256x768, .f32⟩
  | .hbm, ⟨37, _⟩ => ⟨S_, .f32⟩
  | .hbm, ⟨38, _⟩ => ⟨S256x768, .f32⟩
  | .hbm, ⟨39, _⟩ => ⟨S256x768, .f32⟩
  | .hbm, ⟨40, _⟩ => ⟨S256x3129, .f32⟩
  | .hbm, ⟨41, _⟩ => ⟨S1x3129, .f32⟩
  | .hbm, ⟨42, _⟩ => ⟨S256x3129, .f32⟩
  | .hbm, ⟨43, _⟩ => ⟨S256x3129, .f32⟩
  | _, _ => ⟨S300000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_cst : Ref sig .tc := ⟨.hbm, 37, rfl⟩
abbrev main_call1_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]

class Facts₀ : Prop where
  bcast_S_S256x768 : S_.BroadcastsInDim S256x768 (![] : Fin 0 → Fin S256x768.rank)
  bcast_S300000_S300000x1_0 : S300000.BroadcastsInDim S300000x1 (![0] : Fin 1 → Fin S300000x1.rank)
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  concatenates_S256x768_S256x768_S256x768_S256x2304_d1 : Shape.Concatenates [S256x768, S256x768, S256x768] S256x2304 1
  bcast_S3129_S1x3129_1 : S3129.BroadcastsInDim S1x3129 (![1] : Fin 1 → Fin S1x3129.rank)
  bcast_S1x3129_S256x3129_0_1 : S1x3129.BroadcastsInDim S256x3129 (![0, 1] : Fin 2 → Fin S256x3129.rank)
  scatter_S256x768_S300000x1_S300000x768_1_0_0_1_wf : ScatterDims.WF S256x768 S300000x1 S300000x768 [1] [0] [0] 1
  dot_S256x768_S768x768_S256x768_1_0_0_1_n_n_wf : DotDims.WF S256x768 S768x768 S256x768 [1] [0] [0] [1] [] []
  dot_S256x2304_S2304x768_S256x768_1_0_0_1_n_n_wf : DotDims.WF S256x2304 S2304x768 S256x768 [1] [0] [0] [1] [] []
  dot_S256x768_S768x3129_S256x3129_1_0_0_1_n_n_wf : DotDims.WF S256x768 S768x3129 S256x3129 [1] [0] [0] [1] [] []

variable [Facts₀]

def scatter_S256x768_S300000x1_S300000x768_1_0_0_1 : ScatterDims S256x768 S300000x1 S300000x768 where
  updateWindowDims := [1]
  insertedWindowDims := [0]
  scatterDimsToOperandDims := [0]
  indexVectorDim := 1
  wf := scatter_S256x768_S300000x1_S300000x768_1_0_0_1_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x2304_S2304x768_S256x768_1_0_0_1_n_n : DotDims S256x2304 S2304x768 S256x768 where
  lhsContracting := [1]
  rhsContracting := [0]
  lhsNonContracting := [0]
  rhsNonContracting := [1]
  lhsBatch := []
  rhsBatch := []
  wf := dot_S256x2304_S2304x768_S256x768_1_0_0_1_n_n_wf
def dot_S256x768_S768x3129_S256x3129_1_0_0_1_n_n : DotDims S256x768 S768x3129 S256x3129 where
  lhsContracting := [1]
  rhsContracting := [0]
  lhsNonContracting := [0]
  rhsNonContracting := [1]
  lhsBatch := []
  rhsBatch := []
  wf := dot_S256x768_S768x3129_S256x3129_1_0_0_1_n_n_wf

class Facts : Prop extends Facts₀ where

variable [Facts]
-- ==== Proof.KernelR0Base.lean ====
/-
  The first segment-sum launch, seen from one grid point. The grid has 2 x 50 points; point t = 50 p + k works on
  rows 3000 t .. 3000 t + 2999 of the feature array and of the segment column, and on block p of the [2, 256, 768]
  array of partial sums. The body keeps a [256, 768] accumulator between points: it clears it where k = 0, adds the
  tile's contribution at every point, and copies it into the output block where k = 49. This module names what the
  three cases of the body share: a window's block at a point, the two conditions in closed form over the grid, where
  the output window is idle, the buffers the body is called with, and the launch's invariant opened at the accumulator.
-/
import proofs.«418325_j38482906972422_2_alg».proof.Proof.Gen.Kernel.Launch
import proofs.«418325_j38482906972422_2_alg».proof.Proof.Gen.Kernel.Skeleton
import proofs.«418325_j38482906972422_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the launch begins: a parameter, fixed by the run
variable (V : (c : Dev nD) → (b : Ref sig .tc) → Buf (Elt F) ((c : Thread nD τ).loc b))

/-! ## A window's block at a point -/

/-- Block `t` of window `w`, read off the window's array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The segment column's buffer holds its block at every point, for any proof data over `V` whose body leaves it there. -/
theorem seg_before {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the feature tile. -/
theorem feat_before {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body -/

/-- "This is the first tile of the half": the body's test `k = 0`, as the body computes it. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 50 = 0 :=
  (by decide +kernel : ∀ t : Fin grid0.N, isFirst (grid0.coords t) ↔ t.val % 50 = 0)

/-- "This is the last tile of the half": the body's test `k = 49`. -/
abbrev isLast (i : grid0.Coords) : Prop := k0_cond2 i = 1#1
theorem isLast_iff : ∀ t : Fin cfg0.N, isLast (grid0.coords t) ↔ t.val % 50 = 49 :=
  (by decide +kernel : ∀ t : Fin grid0.N, isLast (grid0.coords t) ↔ t.val % 50 = 49)

/-! ## Where the windows are idle -/

theorem seg_live : ∀ t : Fin cfg0.N, cfg0.idle 0 (grid0.coords t) = false := by decide +kernel
theorem feat_live : ∀ t : Fin cfg0.N, cfg0.idle 1 (grid0.coords t) = false := by decide +kernel
/-- Away from the last tile of a half the body stores nothing into the output block, -/
theorem out_idle : ∀ t : Fin cfg0.N, ¬isLast (grid0.coords t) → cfg0.idle 2 (grid0.coords t) = true := by decide +kernel
/-- and the block is not written back there; -/
theorem out_kept : ∀ t : Fin cfg0.N, ¬isLast (grid0.coords t) → (cfg0.win 2).flush t = false := by decide +kernel
/-- at the last tile it stores the block. -/
theorem out_live : ∀ t : Fin cfg0.N, isLast (grid0.coords t) → cfg0.idle 2 (grid0.coords t) = false := by decide +kernel

/-! ## The buffers the body is called with -/

abbrev segBuf (t : Fin cfg0.N) : Memref sig .tc .vmem S3000x1 .i32 := win0_0.stage (cfg0.slots t 0)
abbrev segBuf_whole (t : Fin cfg0.N) : (segBuf t).IsWhole := hstage0_0 ((cfg0.slots t 0).cast nbuf0_0)
abbrev featBuf (t : Fin cfg0.N) : Memref sig .tc .vmem S3000x768 .f32 := win0_1.stage (cfg0.slots t 1)
abbrev featBuf_whole (t : Fin cfg0.N) : (featBuf t).IsWhole := hstage0_1 ((cfg0.slots t 1).cast nbuf0_1)
abbrev outBuf (t : Fin cfg0.N) : Memref sig .tc .vmem S1x256x768 .f32 := win0_2.stage (cfg0.slots t 2)
abbrev outBuf_whole (t : Fin cfg0.N) : (outBuf t).IsWhole := hstage0_2 ((cfg0.slots t 2).cast nbuf0_2)
/-- The accumulator: a whole scoped buffer of the launch's own. -/
abbrev accBuf : Memref sig .tc .vmem S256x768 .f32 := Memref.whole cc0_scratch0
abbrev accView : View sig .tc .vmem S256x768 .f32 := accBuf.view
/-- One staging buffer of the output window, through which its contents are stated. -/
abbrev outView : View sig .tc .vmem S1x256x768 .f32 := (Memref.whole cc0_stg2_0 : Memref sig .tc .vmem S1x256x768 .f32).view

/-- Every scoped buffer other than the accumulator and this launch's staging buffers, at some contents each: the
    body never touches them. -/
abbrev others (c : Dev nD) : sProp 𝕄 :=
  Pipeline.scopedRestBut (Ix := Unit) (Name := ℕ) (U := UR sig nD τ) (Lvl := ℕ) (Val := Elt F) spec0 c [cc0_scratch0]

/-- The launch's invariant "every scoped buffer at some contents, the generator register at some state", opened at
    the accumulator. -/
theorem inv_eq (c : Dev nD) :
    (Pipeline.ΦA spec0 c : sProp 𝕄)
      = iprop(iprop((∃ d, owns (c : Thread nD τ) accBuf fullShare d) ∗ others c) ∗ (∃ r, prngReg c r)) := by
  unfold Pipeline.ΦA
  rw [Pipeline.scopedRest_split_of_list (win := spec0) (c := c) [cc0_scratch0] (by decide) (by decide)]
  simp only [accBuf, owns_whole, Idealize.SL.BI.bigSepL_singleton]
  try rfl

end Cert.Kernel.R0

end
-- ==== Proof.KernelR0RunFirst.lean ====
/-
  The body at the first tile of a half (k = 0, and 0 ≠ 49): the accumulator, at whatever it held, is cleared and then
  receives the tile's contribution; the output block is not touched. The stores into the accumulator are found by
  running the body, as a list of pieces, latest first.
-/
import proofs.«418325_j38482906972422_2_alg».proof.Proof.KernelR0Base

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The accumulator's pieces after the body at a first tile, with the body's run: the segment column at `x0`, the
    feature tile at `x1`, the output block at `xo` handed back as it was, the accumulator at anything. -/
noncomputable def runFirst (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) :
    Σ' (LO : List (View.Piece (Elt F) S1x256x768 .f32)), { LS : List (View.Piece (Elt F) S256x768 .f32) //
      ∀ (xo : Vec F S1x256x768 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨[], ?_, fun xo E K => ?run⟩
  case run =>
    simp only [cc0__segment_sum_kernel_eq_skeleton]; unfold cc0__segment_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.R0

end
-- ==== Proof.KernelR0RunMid.lean ====
/-
  The body at a middle tile of a half (k ≠ 0, k ≠ 49): the accumulator, at what the point before left, receives the
  tile's contribution; the output block is not touched.
-/
import proofs.«418325_j38482906972422_2_alg».proof.Proof.KernelR0RunFirst

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The accumulator's pieces after the body at a middle tile, with the body's run: the accumulator enters at `xs`. -/
noncomputable def runMid (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) :
    Σ' (LO : List (View.Piece (Elt F) S1x256x768 .f32)), { LS : List (View.Piece (Elt F) S256x768 .f32) //
      ∀ (xo : Vec F S1x256x768 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨[], ?_, fun xo E K => ?run⟩
  case run =>
    simp only [cc0__segment_sum_kernel_eq_skeleton]; unfold cc0__segment_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.R0

end
-- ==== Proof.KernelR0RunLast.lean ====
/-
  The body at the last tile of a half (k = 49, and 49 ≠ 0): the accumulator, at what the point before left, receives
  the tile's contribution and is then copied into the output block, which enters at anything.
-/
import proofs.«418325_j38482906972422_2_alg».proof.Proof.KernelR0RunMid

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The output block's and the accumulator's pieces after the body at a last tile, with the body's run. -/
noncomputable def runLast (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) :
    Σ' (LO : List (View.Piece (Elt F) S1x256x768 .f32)), { LS : List (View.Piece (Elt F) S256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.R0

end
-- ==== Proof.KernelR0Dat.lean ====
/-
  The first segment-sum launch, point by point. What the accumulator and the output block hold after the body at
  each of the 100 points (`stateAt`, by recursion on the point: a first tile starts afresh, a middle or last tile
  continues from what the point before left), the launch's invariant carrying the accumulator from one point to the
  next (`invAt`), the pipeline's proof data (`dat`) and the body's obligation at every point (`body_obligation`).
-/
import proofs.«418325_j38482906972422_2_alg».proof.Proof.KernelR0RunLast

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The output block where the body stores nothing into it: no piece, a placeholder nobody reads (the block is
    neither written back there nor read at the next point). -/
def idleOut : Vec F S1x256x768 .f32 := outView.read (Elt F) (outView.writes (Elt F) outView.junk [])

/-- The accumulator's pieces at a first tile cover it, -/
theorem accFirst_cover (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) (y : S256x768.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S256x768.size (by sl_kernel_rfl) y
/-- so this is what it holds afterwards. -/
def accAtFirst (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) : Vec F S256x768 .f32 :=
  accView.read (Elt F) (accView.writes (Elt F) accView.junk (runFirst c i arg2 harg2 arg3 harg3 arg4 harg4 arg5 harg5 hc0 hc1 x0 x1).2.1)

theorem accMid_cover (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) (y : S256x768.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S256x768.size (by sl_kernel_rfl) y
def accAtMid (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) : Vec F S256x768 .f32 :=
  accView.read (Elt F) (accView.writes (Elt F) accView.junk (runMid c i arg2 harg2 arg3 harg3 arg4 harg4 arg5 harg5 hc0 hc1 x0 x1 xs).2.1)

theorem accLast_cover (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) (y : S256x768.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S256x768.size (by sl_kernel_rfl) y
def accAtLast (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) : Vec F S256x768 .f32 :=
  accView.read (Elt F) (accView.writes (Elt F) accView.junk (runLast c i arg2 harg2 arg3 harg3 arg4 harg4 arg5 harg5 hc0 hc1 x0 x1 xs).2.1)

theorem outLast_cover (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) (y : S1x256x768.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x256x768.size (by sl_kernel_rfl) y
/-- The output block after a last tile. -/
def outAtLast (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) : Vec F S1x256x768 .f32 :=
  outView.read (Elt F) (outView.writes (Elt F) outView.junk (runLast c i arg2 harg2 arg3 harg3 arg4 harg4 arg5 harg5 hc0 hc1 x0 x1 xs).1)

/-! ## The contents after each point -/

/-- The output block's buffer and the accumulator after the body at point `n`: the case is read off `n % 50`. -/
def stateAt (c : Dev nD) : (n : ℕ) → n < cfg0.N → Vec F S1x256x768 .f32 × Vec F S256x768 .f32
  | 0, hn => (idleOut, accAtFirst c (grid0.coords ⟨0, hn⟩) (segBuf ⟨0, hn⟩) (segBuf_whole ⟨0, hn⟩) (featBuf ⟨0, hn⟩) (featBuf_whole ⟨0, hn⟩) (outBuf ⟨0, hn⟩) (outBuf_whole ⟨0, hn⟩) accBuf (Memref.isWhole_whole _) ((isFirst_iff ⟨0, hn⟩).mpr (Nat.zero_mod _)) (fun h => absurd ((isLast_iff ⟨0, hn⟩).mp h) (by show ¬ (0 % 50 = 49); decide)) (blockAt V c 0 ⟨0, hn⟩) (blockAt V c 1 ⟨0, hn⟩))
  | n + 1, hn =>
    if h0 : (n + 1) % 50 = 0 then
      if h1 : (n + 1) % 50 = 49 then
        False.elim (by omega)
      else
        (idleOut, accAtFirst c (grid0.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩))
    else
      if h1 : (n + 1) % 50 = 49 then
        (outAtLast c (grid0.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (stateAt c n (Nat.lt_of_succ_lt hn)).2,
         accAtLast c (grid0.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (stateAt c n (Nat.lt_of_succ_lt hn)).2)
      else
        (idleOut, accAtMid c (grid0.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (stateAt c n (Nat.lt_of_succ_lt hn)).2)

theorem stateAt_first (c : Dev nD) (t : Fin cfg0.N) (h0 : t.val % 50 = 0) (h1 : ¬t.val % 50 = 49) :
    stateAt V c t.val t.isLt = (idleOut, accAtFirst c (grid0.coords t) (segBuf t) (segBuf_whole t) (featBuf t) (featBuf_whole t) (outBuf t) (outBuf_whole t) accBuf (Memref.isWhole_whole _) ((isFirst_iff t).mpr h0) (fun h => h1 ((isLast_iff t).mp h)) (blockAt V c 0 t) (blockAt V c 1 t)) := by
  obtain ⟨n, hn⟩ := t
  cases n with
  | zero => exact rfl
  | succ n => exact (dif_pos h0).trans ((dif_neg h1).trans rfl)

theorem stateAt_mid (c : Dev nD) (t : Fin cfg0.N) (h0 : ¬t.val % 50 = 0) (h1 : ¬t.val % 50 = 49) :
    stateAt V c t.val t.isLt = (idleOut, accAtMid c (grid0.coords t) (segBuf t) (segBuf_whole t) (featBuf t) (featBuf_whole t) (outBuf t) (outBuf_whole t) accBuf (Memref.isWhole_whole _) (fun h => h0 ((isFirst_iff t).mp h)) (fun h => h1 ((isLast_iff t).mp h)) (blockAt V c 0 t) (blockAt V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 50 = 0) (h1 : t.val % 50 = 49) :
    stateAt V c t.val t.isLt = (outAtLast c (grid0.coords t) (segBuf t) (segBuf_whole t) (featBuf t) (featBuf_whole t) (outBuf t) (outBuf_whole t) accBuf (Memref.isWhole_whole _) (fun h => h0 ((isFirst_iff t).mp h)) ((isLast_iff t).mpr h1) (blockAt V c 0 t) (blockAt V c 1 t) (stateAt V c (t.val - 1) (Nat.lt_of_le_of_lt (Nat.sub_le _ _) t.isLt)).2,
      accAtLast c (grid0.coords t) (segBuf t) (segBuf_whole t) (featBuf t) (featBuf_whole t) (outBuf t) (outBuf_whole t) accBuf (Memref.isWhole_whole _) (fun h => h0 ((isFirst_iff t).mp h)) ((isLast_iff t).mpr h1) (blockAt V c 0 t) (blockAt V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point `n`: at the start every scoped buffer at anything; afterwards the accumulator at what point `n - 1`
    left, the other scoped buffers at anything, the generator register at some state. -/
def invAt (c : Dev nD) : (n : ℕ) → n ≤ cfg0.N → sProp 𝕄
  | 0, _ => Pipeline.ΦA spec0 c
  | n + 1, hn => iprop(iprop(owns (c : Thread nD τ) accBuf fullShare ((stateAt V c n hn).2) ∗ others c) ∗ (∃ r, prngReg c r))

theorem invAt_zero (c : Dev nD) (n : ℕ) (h : n ≤ cfg0.N) (hz : n = 0) : invAt V c n h = Pipeline.ΦA spec0 c := by
  subst hz; rfl

theorem invAt_succ (c : Dev nD) (n : ℕ) (hn : n < cfg0.N) :
    invAt V c (n + 1) hn = iprop(iprop(owns (c : Thread nD τ) accBuf fullShare ((stateAt V c n hn).2) ∗ others c) ∗ (∃ r, prngReg c r)) := rfl

theorem invAt_pos (c : Dev nD) (n : ℕ) (h : n ≤ cfg0.N) (hz : n ≠ 0) :
    invAt V c n h = iprop(iprop(owns (c : Thread nD τ) accBuf fullShare ((stateAt V c (n - 1) (by omega)).2) ∗ others c) ∗ (∃ r, prngReg c r)) := by
  cases n with
  | zero => exact absurd rfl hz
  | succ n => rfl

/-! ## The proof data -/

/-- The launch's proof data on core `c`: the arrays as the launch finds them; after the body each input's buffer at
    its block and the output's at `stateAt`; the invariant `invAt`; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => (stateAt V c t.val t.isLt).1
  Φ t := invAt V c t.val (Nat.le_of_lt_succ t.isLt)
  q _ := fullShare
  owed _ := 0

theorem dat_A (c : Dev nD) (w : Fin cfg0.W) : (dat V c).A w = V c (Pipeline.arrRef spec0 w) := by
  dsimp only [dat]

theorem inv_castSucc (c : Dev nD) (t : Fin cfg0.N) :
    (dat V c).Φ t.castSucc = invAt V c t.val (Nat.le_of_lt t.isLt) := by
  dsimp only [dat]; simp only [Fin.coe_castSucc]

theorem after_seg (c : Dev nD) (t : Fin cfg0.N) : (dat V c).after 0 t = blockAt V c 0 t := by dsimp only [dat]
theorem after_feat (c : Dev nD) (t : Fin cfg0.N) : (dat V c).after 1 t = blockAt V c 1 t := by dsimp only [dat]
theorem after_out (c : Dev nD) (t : Fin cfg0.N) : (dat V c).after 2 t = (stateAt V c t.val t.isLt).1 := by dsimp only [dat]

theorem before_seg (c : Dev nD) (t : Fin cfg0.N) (d) : (dat V c).before 0 t d = blockAt V c 0 t :=
  seg_before V (dat V c) (dat_A V c 0) (after_seg V c) t d
theorem before_feat (c : Dev nD) (t : Fin cfg0.N) (d) : (dat V c).before 1 t d = blockAt V c 1 t :=
  feat_before V (dat V c) (dat_A V c 1) (after_feat V c) t d

/-! ## The body's obligation -/

def bodyPre (c : Dev nD) (t : Fin cfg0.N) : sProp 𝕄 :=
  iprop((dat V c).Φ t.castSucc ∗ (dat V c).owesAt () t.castSucc
    ∗ (∃ d, owns (c : Thread nD τ) (segBuf t) fullShare ((dat V c).before 0 t d))
    ∗ (∃ d, owns (c : Thread nD τ) (featBuf t) fullShare ((dat V c).before 1 t d))
    ∗ (∃ d, owns (c : Thread nD τ) (outBuf t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; `t % 50` says which case the point is in; the
    invariant hands the body the accumulator (at anything before the very first point, else at what the point before
    left) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_seg, before_feat]
  rw [show (dat V c).owesAt () t.succ = (dat V c).owesAt () t.castSucc from rfl]
  rw [show (dat V c).Φ t.succ = invAt V c (t.val + 1) t.isLt from rfl, invAt_succ]
  have hN : t.val < 100 := lt_of_lt_of_eq t.isLt (show cfg0.N = 100 from N_0)
  rw [show (dat V c).leavesExact 0 t = owns (c : Thread nD τ) (segBuf t) fullShare ((dat V c).after 0 t) from by
    unfold Dat.leavesExact; rw [seg_live t], after_seg]
  rw [show (dat V c).leavesExact 1 t = owns (c : Thread nD τ) (featBuf t) fullShare ((dat V c).after 1 t) from by
    unfold Dat.leavesExact; rw [feat_live t], after_feat]
  by_cases h0 : t.val % 50 = 0
  · have h1 : ¬t.val % 50 = 49 := by omega
    have hl : ¬isLast (grid0.coords t) := fun h => h1 ((isLast_iff t).mp h)
    rw [Dat.leavesExact_idle (dat V c) 2 t (out_idle t hl) (out_kept t hl)]
    rw [stateAt_first V c t h0 h1]
    unfold accAtFirst; (try dsimp only)
    by_cases hz : t.val = 0
    · rw [inv_castSucc V c t, invAt_zero V c _ _ hz, inv_eq]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hl (blockAt V c 0 t) (blockAt V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
    · rw [inv_castSucc V c t, invAt_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hl (blockAt V c 0 t) (blockAt V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hf : ¬isFirst (grid0.coords t) := fun h => h0 ((isFirst_iff t).mp h)
    by_cases h1 : t.val % 50 = 49
    · rw [show (dat V c).leavesExact 2 t = owns (c : Thread nD τ) (outBuf t) fullShare ((dat V c).after 2 t) from by
        unfold Dat.leavesExact; rw [out_live t ((isLast_iff t).mpr h1)], after_out]
      rw [stateAt_last V c t h0 h1]
      unfold outAtLast accAtLast; (try dsimp only)
      rw [inv_castSucc V c t, invAt_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ hf ((isLast_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · have hl : ¬isLast (grid0.coords t) := fun h => h1 ((isLast_iff t).mp h)
      rw [Dat.leavesExact_idle (dat V c) 2 t (out_idle t hl) (out_kept t hl)]
      rw [stateAt_mid V c t h0 h1]
      unfold accAtMid; (try dsimp only)
      rw [inv_castSucc V c t, invAt_pos V c _ _ hz]
      iintro ⟨⟨⟨HS, Hoth⟩, Hg⟩, Ho, ⟨%d0, H0⟩, ⟨%d1, H1⟩, ⟨%d2, H2⟩⟩
      iapply ((runMid c (grid0.coords t) _ _ _ _ _ _ _ _ hf hl (blockAt V c 0 t) (blockAt V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accMid_cover c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the two ends -/

/-- What the launch hands the body is the invariant before the first point. -/
theorem inv_in (c : Dev nD) : Pipeline.ΦA spec0 c ⊢ (dat V c).Φ 0 := by
  rw [show (dat V c).Φ 0 = invAt V c 0 (Nat.zero_le _) from rfl, invAt_zero V c 0 _ rfl]
  try exact Idealize.SL.BI.Entails.refl _

/-- After the last point the invariant gives everything back: the accumulator's contents are forgotten. -/
theorem inv_out (c : Dev nD) : (dat V c).Φ (Fin.last cfg0.N) ⊢ Pipeline.ΦA spec0 c := by
  rw [show (dat V c).Φ (Fin.last cfg0.N) = invAt V c (Fin.last cfg0.N).val (Nat.le_of_lt_succ (Fin.last cfg0.N).isLt) from rfl,
    invAt_pos V c _ _ (by rw [Fin.val_last]; have : cfg0.N = 100 := N_0; omega), inv_eq]
  iintro ⟨⟨HS, Hoth⟩, Hg⟩
  isplitl [HS Hoth]
  · isplitl [HS]
    · iexists _; iexact HS
    iexact Hoth
  iexact Hg

end Cert.Kernel.R0

end
-- ==== Proof.KernelR1Base.lean ====
/-
  The second segment-sum launch, seen from one grid point. The grid has 2 x 50 points; point t = 50 p + k works on
  rows 3000 t .. 3000 t + 2999 of the feature array and of the segment column, and on block p of the [2, 256, 768]
  array of partial sums. The body keeps a [256, 768] accumulator between points: it clears it where k = 0, adds the
  tile's contribution at every point, and copies it into the output block where k = 49. This module names what the
  three cases of the body share: a window's block at a point, the two conditions in closed form over the grid, where
  the output window is idle, the buffers the body is called with, and the launch's invariant opened at the accumulator.
-/
import proofs.«418325_j38482906972422_2_alg».proof.Proof.Gen.Kernel.Launch
import proofs.«418325_j38482906972422_2_alg».proof.Proof.Gen.Kernel.Skeleton
import proofs.«418325_j38482906972422_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the launch begins: a parameter, fixed by the run
variable (V : (c : Dev nD) → (b : Ref sig .tc) → Buf (Elt F) ((c : Thread nD τ).loc b))

/-! ## A window's block at a point -/

/-- Block `t` of window `w`, read off the window's array as the launch finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The segment column's buffer holds its block at every point, for any proof data over `V` whose body leaves it there. -/
theorem seg_before {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the feature tile. -/
theorem feat_before {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body -/

/-- "This is the first tile of the half": the body's test `k = 0`, as the body computes it. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 50 = 0 :=
  (by decide +kernel : ∀ t : Fin grid1.N, isFirst (grid1.coords t) ↔ t.val % 50 = 0)

/-- "This is the last tile of the half": the body's test `k = 49`. -/
abbrev isLast (i : grid1.Coords) : Prop := k1_cond2 i = 1#1
theorem isLast_iff : ∀ t : Fin cfg1.N, isLast (grid1.coords t) ↔ t.val % 50 = 49 :=
  (by decide +kernel : ∀ t : Fin grid1.N, isLast (grid1.coords t) ↔ t.val % 50 = 49)

/-! ## Where the windows are idle -/

theorem seg_live : ∀ t : Fin cfg1.N, cfg1.idle 0 (grid1.coords t) = false := by decide +kernel
theorem feat_live : ∀ t : Fin cfg1.N, cfg1.idle 1 (grid1.coords t) = false := by decide +kernel
/-- Away from the last tile of a half the body stores nothing into the output block, -/
theorem out_idle : ∀ t : Fin cfg1.N, ¬isLast (grid1.coords t) → cfg1.idle 2 (grid1.coords t) = true := by decide +kernel
/-- and the block is not written back there; -/
theorem out_kept : ∀ t : Fin cfg1.N, ¬isLast (grid1.coords t) → (cfg1.win 2).flush t = false := by decide +kernel
/-- at the last tile it stores the block. -/
theorem out_live : ∀ t : Fin cfg1.N, isLast (grid1.coords t) → cfg1.idle 2 (grid1.coords t) = false := by decide +kernel

/-! ## The buffers the body is called with -/

abbrev segBuf (t : Fin cfg1.N) : Memref sig .tc .vmem S3000x1 .i32 := win1_0.stage (cfg1.slots t 0)
abbrev segBuf_whole (t : Fin cfg1.N) : (segBuf t).IsWhole := hstage1_0 ((cfg1.slots t 0).cast nbuf1_0)
abbrev featBuf (t : Fin cfg1.N) : Memref sig .tc .vmem S3000x768 .f32 := win1_1.stage (cfg1.slots t 1)
abbrev featBuf_whole (t : Fin cfg1.N) : (featBuf t).IsWhole := hstage1_1 ((cfg1.slots t 1).cast nbuf1_1)
abbrev outBuf (t : Fin cfg1.N) : Memref sig .tc .vmem S1x256x768 .f32 := win1_2.stage (cfg1.slots t 2)
abbrev outBuf_whole (t : Fin cfg1.N) : (outBuf t).IsWhole := hstage1_2 ((cfg1.slots t 2).cast nbuf1_2)
/-- The accumulator: a whole scoped buffer of the launch's own. -/
abbrev accBuf : Memref sig .tc .vmem S256x768 .f32 := Memref.whole cc1_scratch0
abbrev accView : View sig .tc .vmem S256x768 .f32 := accBuf.view
/-- One staging buffer of the output window, through which its contents are stated. -/
abbrev outView : View sig .tc .vmem S1x256x768 .f32 := (Memref.whole cc1_stg2_0 : Memref sig .tc .vmem S1x256x768 .f32).view

/-- Every scoped buffer other than the accumulator and this launch's staging buffers, at some contents each: the
    body never touches them. -/
abbrev others (c : Dev nD) : sProp 𝕄 :=
  Pipeline.scopedRestBut (Ix := Unit) (Name := ℕ) (U := UR sig nD τ) (Lvl := ℕ) (Val := Elt F) spec1 c [cc1_scratch0]

/-- The launch's invariant "every scoped buffer at some contents, the generator register at some state", opened at
    the accumulator. -/
theorem inv_eq (c : Dev nD) :
    (Pipeline.ΦA spec1 c : sProp 𝕄)
      = iprop(iprop((∃ d, owns (c : Thread nD τ) accBuf fullShare d) ∗ others c) ∗ (∃ r, prngReg c r)) := by
  unfold Pipeline.ΦA
  rw [Pipeline.scopedRest_split_of_list (win := spec1) (c := c) [cc1_scratch0] (by decide) (by decide)]
  simp only [accBuf, owns_whole, Idealize.SL.BI.bigSepL_singleton]
  try rfl

end Cert.Kernel.R1

end
-- ==== Proof.KernelR1RunFirst.lean ====
/-
  The body at the first tile of a half (k = 0, and 0 ≠ 49): the accumulator, at whatever it held, is cleared and then
  receives the tile's contribution; the output block is not touched. The stores into the accumulator are found by
  running the body, as a list of pieces, latest first.
-/
import proofs.«418325_j38482906972422_2_alg».proof.Proof.KernelR1Base

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The accumulator's pieces after the body at a first tile, with the body's run: the segment column at `x0`, the
    feature tile at `x1`, the output block at `xo` handed back as it was, the accumulator at anything. -/
noncomputable def runFirst (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) :
    Σ' (LO : List (View.Piece (Elt F) S1x256x768 .f32)), { LS : List (View.Piece (Elt F) S256x768 .f32) //
      ∀ (xo : Vec F S1x256x768 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨[], ?_, fun xo E K => ?run⟩
  case run =>
    simp only [cc1__segment_sum_kernel_eq_skeleton]; unfold cc1__segment_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.R1

end
-- ==== Proof.KernelR1RunMid.lean ====
/-
  The body at a middle tile of a half (k ≠ 0, k ≠ 49): the accumulator, at what the point before left, receives the
  tile's contribution; the output block is not touched.
-/
import proofs.«418325_j38482906972422_2_alg».proof.Proof.KernelR1RunFirst

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The accumulator's pieces after the body at a middle tile, with the body's run: the accumulator enters at `xs`. -/
noncomputable def runMid (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) :
    Σ' (LO : List (View.Piece (Elt F) S1x256x768 .f32)), { LS : List (View.Piece (Elt F) S256x768 .f32) //
      ∀ (xo : Vec F S1x256x768 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨[], ?_, fun xo E K => ?run⟩
  case run =>
    simp only [cc1__segment_sum_kernel_eq_skeleton]; unfold cc1__segment_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.R1

end
-- ==== Proof.KernelR1RunLast.lean ====
/-
  The body at the last tile of a half (k = 49, and 49 ≠ 0): the accumulator, at what the point before left, receives
  the tile's contribution and is then copied into the output block, which enters at anything.
-/
import proofs.«418325_j38482906972422_2_alg».proof.Proof.KernelR1RunMid

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The output block's and the accumulator's pieces after the body at a last tile, with the body's run. -/
noncomputable def runLast (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) :
    Σ' (LO : List (View.Piece (Elt F) S1x256x768 .f32)), { LS : List (View.Piece (Elt F) S256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨?_, ?_, fun E K => ?run⟩
  case run =>
    simp only [cc1__segment_sum_kernel_eq_skeleton]; unfold cc1__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.R1

end
-- ==== Proof.KernelR1Dat.lean ====
/-
  The second segment-sum launch, point by point. What the accumulator and the output block hold after the body at
  each of the 100 points (`stateAt`, by recursion on the point: a first tile starts afresh, a middle or last tile
  continues from what the point before left), the launch's invariant carrying the accumulator from one point to the
  next (`invAt`), the pipeline's proof data (`dat`) and the body's obligation at every point (`body_obligation`).
-/
import proofs.«418325_j38482906972422_2_alg».proof.Proof.KernelR1RunLast

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The output block where the body stores nothing into it: no piece, a placeholder nobody reads (the block is
    neither written back there nor read at the next point). -/
def idleOut : Vec F S1x256x768 .f32 := outView.read (Elt F) (outView.writes (Elt F) outView.junk [])

/-- The accumulator's pieces at a first tile cover it, -/
theorem accFirst_cover (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) (y : S256x768.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S256x768.size (by sl_kernel_rfl) y
/-- so this is what it holds afterwards. -/
def accAtFirst (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) : Vec F S256x768 .f32 :=
  accView.read (Elt F) (accView.writes (Elt F) accView.junk (runFirst c i arg2 harg2 arg3 harg3 arg4 harg4 arg5 harg5 hc0 hc1 x0 x1).2.1)

theorem accMid_cover (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) (y : S256x768.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S256x768.size (by sl_kernel_rfl) y
def accAtMid (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) : Vec F S256x768 .f32 :=
  accView.read (Elt F) (accView.writes (Elt F) accView.junk (runMid c i arg2 harg2 arg3 harg3 arg4 harg4 arg5 harg5 hc0 hc1 x0 x1 xs).2.1)

theorem accLast_cover (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) (y : S256x768.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S256x768.size (by sl_kernel_rfl) y
def accAtLast (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) : Vec F S256x768 .f32 :=
  accView.read (Elt F) (accView.writes (Elt F) accView.junk (runLast c i arg2 harg2 arg3 harg3 arg4 harg4 arg5 harg5 hc0 hc1 x0 x1 xs).2.1)

theorem outLast_cover (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) (y : S1x256x768.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x256x768.size (by sl_kernel_rfl) y
/-- The output block after a last tile. -/
def outAtLast (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) : Vec F S1x256x768 .f32 :=
  outView.read (Elt F) (outView.writes (Elt F) outView.junk (runLast c i arg2 harg2 arg3 harg3 arg4 harg4 arg5 harg5 hc0 hc1 x0 x1 xs).1)

/-! ## The contents after each point -/

/-- The output block's buffer and the accumulator after the body at point `n`: the case is read off `n % 50`. -/
def stateAt (c : Dev nD) : (n : ℕ) → n < cfg1.N → Vec F S1x256x768 .f32 × Vec F S256x768 .f32
  | 0, hn => (idleOut, accAtFirst c (grid1.coords ⟨0, hn⟩) (segBuf ⟨0, hn⟩) (segBuf_whole ⟨0, hn⟩) (featBuf ⟨0, hn⟩) (featBuf_whole ⟨0, hn⟩) (outBuf ⟨0, hn⟩) (outBuf_whole ⟨0, hn⟩) accBuf (Memref.isWhole_whole _) ((isFirst_iff ⟨0, hn⟩).mpr (Nat.zero_mod _)) (fun h => absurd ((isLast_iff ⟨0, hn⟩).mp h) (by show ¬ (0 % 50 = 49); decide)) (blockAt V c 0 ⟨0, hn⟩) (blockAt V c 1 ⟨0, hn⟩))
  | n + 1, hn =>
    if h0 : (n + 1) % 50 = 0 then
      if h1 : (n + 1) % 50 = 49 then
        False.elim (by omega)
      else
        (idleOut, accAtFirst c (grid1.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩))
    else
      if h1 : (n + 1) % 50 = 49 then
        (outAtLast c (grid1.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (stateAt c n (Nat.lt_of_succ_lt hn)).2,
         accAtLast c (grid1.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (stateAt c n (Nat.lt_of_succ_lt hn)).2)
      else
        (idleOut, accAtMid c (grid1.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (stateAt c n (Nat.lt_of_succ_lt hn)).2)

theorem stateAt_first (c : Dev nD) (t : Fin cfg1.N) (h0 : t.val % 50 = 0) (h1 : ¬t.val % 50 = 49) :
    stateAt V c t.val t.isLt = (idleOut, accAtFirst c (grid1.coords t) (segBuf t) (segBuf_whole t) (featBuf t) (featBuf_whole t) (outBuf t) (outBuf_whole t) accBuf (Memref.isWhole_whole _) ((isFirst_iff t).mpr h0) (fun h => h1 ((isLast_iff t).mp h)) (blockAt V c 0 t) (blockAt V c 1 t)) := by
  obtain ⟨n, hn⟩ := t
  cases n with
  | zero => exact rfl
  | succ n => exact (dif_pos h0).trans ((dif_neg h1).trans rfl)

theorem stateAt_mid (c : Dev nD) (t : Fin cfg1.N) (h0 : ¬t.val % 50 = 0) (h1 : ¬t.val % 50 = 49) :
    stateAt V c t.val t.isLt = (idleOut, accAtMid c (grid1.coords t) (segBuf t) (segBuf_whole t) (featBuf t) (featBuf_whole t) (outBuf t) (outBuf_whole t) accBuf (Memref.isWhole_whole _) (fun h => h0 ((isFirst_iff t).mp h)) (fun h => h1 ((isLast_iff t).mp h)) (blockAt V c 0 t) (blockAt V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg1.N) (h0 : ¬t.val % 50 = 0) (h1 : t.val % 50 = 49) :
    stateAt V c t.val t.isLt = (outAtLast c (grid1.coords t) (segBuf t) (segBuf_whole t) (featBuf t) (featBuf_whole t) (outBuf t) (outBuf_whole t) accBuf (Memref.isWhole_whole _) (fun h => h0 ((isFirst_iff t).mp h)) ((isLast_iff t).mpr h1) (blockAt V c 0 t) (blockAt V c 1 t) (stateAt V c (t.val - 1) (Nat.lt_of_le_of_lt (Nat.sub_le _ _) t.isLt)).2,
      accAtLast c (grid1.coords t) (segBuf t) (segBuf_whole t) (featBuf t) (featBuf_whole t) (outBuf t) (outBuf_whole t) accBuf (Memref.isWhole_whole _) (fun h => h0 ((isFirst_iff t).mp h)) ((isLast_iff t).mpr h1) (blockAt V c 0 t) (blockAt V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point `n`: at the start every scoped buffer at anything; afterwards the accumulator at what point `n - 1`
    left, the other scoped buffers at anything, the generator register at some state. -/
def invAt (c : Dev nD) : (n : ℕ) → n ≤ cfg1.N → sProp 𝕄
  | 0, _ => Pipeline.ΦA spec1 c
  | n + 1, hn => iprop(iprop(owns (c : Thread nD τ) accBuf fullShare ((stateAt V c n hn).2) ∗ others c) ∗ (∃ r, prngReg c r))

theorem invAt_zero (c : Dev nD) (n : ℕ) (h : n ≤ cfg1.N) (hz : n = 0) : invAt V c n h = Pipeline.ΦA spec1 c := by
  subst hz; rfl

theorem invAt_succ (c : Dev nD) (n : ℕ) (hn : n < cfg1.N) :
    invAt V c (n + 1) hn = iprop(iprop(owns (c : Thread nD τ) accBuf fullShare ((stateAt V c n hn).2) ∗ others c) ∗ (∃ r, prngReg c r)) := rfl

theorem invAt_pos (c : Dev nD) (n : ℕ) (h : n ≤ cfg1.N) (hz : n ≠ 0) :
    invAt V c n h = iprop(iprop(owns (c : Thread nD τ) accBuf fullShare ((stateAt V c (n - 1) (by omega)).2) ∗ others c) ∗ (∃ r, prngReg c r)) := by
  cases n with
  | zero => exact absurd rfl hz
  | succ n => rfl

/-! ## The proof data -/

/-- The launch's proof data on core `c`: the arrays as the launch finds them; after the body each input's buffer at
    its block and the output's at `stateAt`; the invariant `invAt`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (stateAt V c t.val t.isLt).1
  Φ t := invAt V c t.val (Nat.le_of_lt_succ t.isLt)
  q _ := fullShare
  owed _ := 0

theorem dat_A (c : Dev nD) (w : Fin cfg1.W) : (dat V c).A w = V c (Pipeline.arrRef spec1 w) := by
  dsimp only [dat]

theorem inv_castSucc (c : Dev nD) (t : Fin cfg1.N) :
    (dat V c).Φ t.castSucc = invAt V c t.val (Nat.le_of_lt t.isLt) := by
  dsimp only [dat]; simp only [Fin.coe_castSucc]

theorem after_seg (c : Dev nD) (t : Fin cfg1.N) : (dat V c).after 0 t = blockAt V c 0 t := by dsimp only [dat]
theorem after_feat (c : Dev nD) (t : Fin cfg1.N) : (dat V c).after 1 t = blockAt V c 1 t := by dsimp only [dat]
theorem after_out (c : Dev nD) (t : Fin cfg1.N) : (dat V c).after 2 t = (stateAt V c t.val t.isLt).1 := by dsimp only [dat]

theorem before_seg (c : Dev nD) (t : Fin cfg1.N) (d) : (dat V c).before 0 t d = blockAt V c 0 t :=
  seg_before V (dat V c) (dat_A V c 0) (after_seg V c) t d
theorem before_feat (c : Dev nD) (t : Fin cfg1.N) (d) : (dat V c).before 1 t d = blockAt V c 1 t :=
  feat_before V (dat V c) (dat_A V c 1) (after_feat V c) t d

/-! ## The body's obligation -/

def bodyPre (c : Dev nD) (t : Fin cfg1.N) : sProp 𝕄 :=
  iprop((dat V c).Φ t.castSucc ∗ (dat V c).owesAt () t.castSucc
    ∗ (∃ d, owns (c : Thread nD τ) (segBuf t) fullShare ((dat V c).before 0 t d))
    ∗ (∃ d, owns (c : Thread nD τ) (featBuf t) fullShare ((dat V c).before 1 t d))
    ∗ (∃ d, owns (c : Thread nD τ) (outBuf t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; `t % 50` says which case the point is in; the
    invariant hands the body the accumulator (at anything before the very first point, else at what the point before
    left) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_seg, before_feat]
  rw [show (dat V c).owesAt () t.succ = (dat V c).owesAt () t.castSucc from rfl]
  rw [show (dat V c).Φ t.succ = invAt V c (t.val + 1) t.isLt from rfl, invAt_succ]
  have hN : t.val < 100 := lt_of_lt_of_eq t.isLt (show cfg1.N = 100 from N_1)
  rw [show (dat V c).leavesExact 0 t = owns (c : Thread nD τ) (segBuf t) fullShare ((dat V c).after 0 t) from by
    unfold Dat.leavesExact; rw [seg_live t], after_seg]
  rw [show (dat V c).leavesExact 1 t = owns (c : Thread nD τ) (featBuf t) fullShare ((dat V c).after 1 t) from by
    unfold Dat.leavesExact; rw [feat_live t], after_feat]
  by_cases h0 : t.val % 50 = 0
  · have h1 : ¬t.val % 50 = 49 := by omega
    have hl : ¬isLast (grid1.coords t) := fun h => h1 ((isLast_iff t).mp h)
    rw [Dat.leavesExact_idle (dat V c) 2 t (out_idle t hl) (out_kept t hl)]
    rw [stateAt_first V c t h0 h1]
    unfold accAtFirst; (try dsimp only)
    by_cases hz : t.val = 0
    · rw [inv_castSucc V c t, invAt_zero V c _ _ hz, inv_eq]
      iintro ⟨⟨⟨HS, Hoth⟩, Hg⟩, Ho, ⟨%d0, H0⟩, ⟨%d1, H1⟩, ⟨%d2, H2⟩⟩
      iapply ((runFirst c (grid1.coords t) _ _ _ _ _ _ _ _ ((isFirst_iff t).mpr h0) hl (blockAt V c 0 t) (blockAt V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
    · rw [inv_castSucc V c t, invAt_pos V c _ _ hz]
      iintro ⟨⟨⟨HS, Hoth⟩, Hg⟩, Ho, ⟨%d0, H0⟩, ⟨%d1, H1⟩, ⟨%d2, H2⟩⟩
      iapply ((runFirst c (grid1.coords t) _ _ _ _ _ _ _ _ ((isFirst_iff t).mpr h0) hl (blockAt V c 0 t) (blockAt V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hf : ¬isFirst (grid1.coords t) := fun h => h0 ((isFirst_iff t).mp h)
    by_cases h1 : t.val % 50 = 49
    · rw [show (dat V c).leavesExact 2 t = owns (c : Thread nD τ) (outBuf t) fullShare ((dat V c).after 2 t) from by
        unfold Dat.leavesExact; rw [out_live t ((isLast_iff t).mpr h1)], after_out]
      rw [stateAt_last V c t h0 h1]
      unfold outAtLast accAtLast; (try dsimp only)
      rw [inv_castSucc V c t, invAt_pos V c _ _ hz]
      iintro ⟨⟨⟨HS, Hoth⟩, Hg⟩, Ho, ⟨%d0, H0⟩, ⟨%d1, H1⟩, ⟨%d2, H2⟩⟩
      iapply ((runLast c (grid1.coords t) _ _ _ _ _ _ _ _ hf ((isLast_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · have hl : ¬isLast (grid1.coords t) := fun h => h1 ((isLast_iff t).mp h)
      rw [Dat.leavesExact_idle (dat V c) 2 t (out_idle t hl) (out_kept t hl)]
      rw [stateAt_mid V c t h0 h1]
      unfold accAtMid; (try dsimp only)
      rw [inv_castSucc V c t, invAt_pos V c _ _ hz]
      iintro ⟨⟨⟨HS, Hoth⟩, Hg⟩, Ho, ⟨%d0, H0⟩, ⟨%d1, H1⟩, ⟨%d2, H2⟩⟩
      iapply ((runMid c (grid1.coords t) _ _ _ _ _ _ _ _ hf hl (blockAt V c 0 t) (blockAt V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accMid_cover c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the two ends -/

/-- What the launch hands the body is the invariant before the first point. -/
theorem inv_in (c : Dev nD) : Pipeline.ΦA spec1 c ⊢ (dat V c).Φ 0 := by
  rw [show (dat V c).Φ 0 = invAt V c 0 (Nat.zero_le _) from rfl, invAt_zero V c 0 _ rfl]
  try exact Idealize.SL.BI.Entails.refl _

/-- After the last point the invariant gives everything back: the accumulator's contents are forgotten. -/
theorem inv_out (c : Dev nD) : (dat V c).Φ (Fin.last cfg1.N) ⊢ Pipeline.ΦA spec1 c := by
  rw [show (dat V c).Φ (Fin.last cfg1.N) = invAt V c (Fin.last cfg1.N).val (Nat.le_of_lt_succ (Fin.last cfg1.N).isLt) from rfl,
    invAt_pos V c _ _ (by rw [Fin.val_last]; have : cfg1.N = 100 := N_1; omega), inv_eq]
  iintro ⟨⟨HS, Hoth⟩, Hg⟩
  isplitl [HS Hoth]
  · isplitl [HS]
    · iexists _; iexact HS
    iexact Hoth
  iexact Hg

end Cert.Kernel.R1

end
-- ==== Proof.KernelRun.lean ====
/-
  The run of @main: nine items, two of them the segment-sum launches, the other seven stretches of host operations.
  Between two items every unscoped buffer of the core is held at a known valuation: the launch memory, then the host
  operations' results, and after each launch the launch's arrays at what its write-backs leave. This module fixes
  those contents (`outs`), gives each launch its record over the thread state "every unscoped buffer at the current
  valuation, the generator register at some state, nothing owed", and runs the items in order: every weakly fair
  execution terminates and every unscoped buffer ends at the last valuation.
-/
import proofs.«418325_j38482906972422_2_alg».proof.Proof.Gen.Kernel.Regions
import proofs.«418325_j38482906972422_2_alg».proof.Proof.KernelR0Dat
import proofs.«418325_j38482906972422_2_alg».proof.Proof.KernelR1Dat
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! ## The run, given the launches' records: every unscoped buffer ends at the last valuation -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- For any rest states `E` the launch makes on every core at once and that end owing nothing, any contents the
    launches leave and any proof data: given, per launch, a record entered from the thread state before it and left
    at the one after it, every weakly fair execution of @main from memory `m` with zero counters terminates, and in
    every final memory each unscoped buffer of core `c` holds what the last valuation `V9` says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ) (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩
      (fun r => ∀ c : Dev nD, ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, .rfl, .rfl, .rfl, .rfl, sep_mono .rfl (hE2 c)⟩)
    (hinit := ?_)
    (QY := fun c s => ∀ b ∈ Pipeline.ucRefs τ sig, s.mem (((c : Thread nD τ)).1, b) = V9 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (V9 m outs c) s')
    isplitl [Hh] <;> iassumption

/-! ## What the launches leave -/

section Contents

variable (m : (ℓ : Loc nD τ sig) → Buf (Elt F) ℓ)

/-- The first launch's entry contents, read at the core's own references. -/
abbrev Vtc1 : (c : Dev nD) → (b : Ref sig .tc) → Buf (Elt F) ((c : Thread nD τ).loc b) := fun c b => V1 m c (Proc.devRef .tc b)

/-- At the first launch's exit: its arrays at what the write-backs leave, every other buffer as entered. -/
def W2 (c : Dev nD) : Valuation τ sig (Elt F) :=
  Pipeline.withArrays spec0 c (V1 m c) fun w => (R0.dat (Vtc1 m) c).arrAt w cfg0.N
theorem W2_arr (c : Dev nD) (w : Fin cfg0.W) :
    W2 m c (Proc.devRef .tc (Pipeline.arrRef spec0 w)) = (R0.dat (Vtc1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb

/-- What the first launch leaves, as the unknowns the valuations are written over (read only at `main_v1`). -/
def outs0 : Outs (F := F) := fun _ r c => W2 m c (Proc.devRef .tc r)

/-- The second launch's entry contents, read at the core's own references. -/
abbrev Vtc3' : (c : Dev nD) → (b : Ref sig .tc) → Buf (Elt F) ((c : Thread nD τ).loc b) := fun c b => V3 m (outs0 m) c (Proc.devRef .tc b)

/-- At the second launch's exit: its arrays at what the write-backs leave, every other buffer as entered. -/
def W4 (c : Dev nD) : Valuation τ sig (Elt F) :=
  Pipeline.withArrays spec1 c (V3 m (outs0 m) c) fun w => (R1.dat (Vtc3' m) c).arrAt w cfg1.N
theorem W4_arr (c : Dev nD) (w : Fin cfg1.W) :
    W4 m c (Proc.devRef .tc (Pipeline.arrRef spec1 w)) = (R1.dat (Vtc3' m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = V3 m (outs0 m) c (Proc.devRef .tc b) := by
  unfold W4; exact Pipeline.withArrays_of_ne spec1 c _ _ b hb

/-- What the two launches leave: after item 1 the first launch's exit contents, after item 3 the second's. -/
def outs : Outs (F := F) := fun J r c =>
  match J with
  | 2 => W2 m c (Proc.devRef .tc r)
  | _ => W4 m c (Proc.devRef .tc r)

/-- The second launch's entry contents over `outs`: the same valuation, since the host operations between the launches
    read `outs` only at what the first launch leaves. -/
abbrev Vtc3 : (c : Dev nD) → (b : Ref sig .tc) → Buf (Elt F) ((c : Thread nD τ).loc b) := fun c b => V3 m (outs m) c (Proc.devRef .tc b)

theorem Vtc3_eq : Vtc3 m = Vtc3' m := rfl

theorem outs_main_v1 (c : Dev nD) : outs m 2 main_v1 c = (R0.dat (Vtc1 m) c).arrAt 2 cfg0.N := W2_arr m c 2
theorem outs_main_v4 (c : Dev nD) : outs m 4 main_v4 c = (R1.dat (Vtc3 m) c).arrAt 2 cfg1.N := W4_arr m c 2

end Contents

/-! ## The valuations over `outs` at the launches' exits -/

section Records

variable (m : (ℓ : Loc nD τ sig) → Buf (Elt F) ℓ)

/-- After the first launch each of its arrays holds what the write-backs leave: the output by the choice of `outs`,
    an input what it held (no block of an input is written back). -/
theorem hF0 (c : Dev nD) : ∀ w : Fin cfg0.W,
    (R0.dat (Vtc1 m) c).arrAt w cfg0.N = V2 m (outs m) c (Proc.devRef .tc (Pipeline.arrRef spec0 w))
  | 0 => ((R0.dat (Vtc1 m) c).arrAt_in 0 rfl _).trans ((R0.dat_A (Vtc1 m) c 0).trans (V2_of m (outs m) c main_v0 (by decide)).symm)
  | 1 => ((R0.dat (Vtc1 m) c).arrAt_in 1 rfl _).trans ((R0.dat_A (Vtc1 m) c 1).trans (V2_of m (outs m) c main_arg0 (by decide)).symm)
  | 2 => by
    show _ = Function.update (V1 m c) (Proc.devRef .tc main_v1) (outs m 2 main_v1 c) (Proc.devRef .tc main_v1)
    rw [Function.update_self]; exact (outs_main_v1 m c).symm
  | ⟨_ + 3, h⟩ => absurd h (Nat.not_lt.2 (Nat.le_add_left _ _))
/-- Every other buffer holds what it held at entry. -/
theorem hrest0 (c : Dev nD) : ∀ b : Ref sig .tc, b ∉ Finset.univ.image (Pipeline.arrRef spec0) →
    V2 m (outs m) c (Proc.devRef .tc b) = Vtc1 m c b :=
  fun b hb => V2_of m (outs m) c b fun h => hb (Finset.mem_image.mpr ⟨2, Finset.mem_univ _, (List.mem_singleton.mp h).symm⟩)

/-- The same after the second launch. -/
theorem hF1 (c : Dev nD) : ∀ w : Fin cfg1.W,
    (R1.dat (Vtc3 m) c).arrAt w cfg1.N = V4 m (outs m) c (Proc.devRef .tc (Pipeline.arrRef spec1 w))
  | 0 => ((R1.dat (Vtc3 m) c).arrAt_in 0 rfl _).trans ((R1.dat_A (Vtc3 m) c 0).trans (V4_of m (outs m) c main_v3 (by decide)).symm)
  | 1 => ((R1.dat (Vtc3 m) c).arrAt_in 1 rfl _).trans ((R1.dat_A (Vtc3 m) c 1).trans (V4_of m (outs m) c main_arg1 (by decide)).symm)
  | 2 => by
    show _ = Function.update (V3 m (outs m) c) (Proc.devRef .tc main_v4) (outs m 4 main_v4 c) (Proc.devRef .tc main_v4)
    rw [Function.update_self]; exact (outs_main_v4 m c).symm
  | ⟨_ + 3, h⟩ => absurd h (Nat.not_lt.2 (Nat.le_add_left _ _))
theorem hrest1 (c : Dev nD) : ∀ b : Ref sig .tc, b ∉ Finset.univ.image (Pipeline.arrRef spec1) →
    V4 m (outs m) c (Proc.devRef .tc b) = Vtc3 m c b :=
  fun b hb => V4_of m (outs m) c b fun h => hb (Finset.mem_image.mpr ⟨2, Finset.mem_univ _, (List.mem_singleton.mp h).symm⟩)

/-! ## The proof data family and the thread state -/

/-- Each launch's proof data at its entry contents. -/
def pdats : (p : Fin 2) → (c : Dev nD) → Dat τ (Elt F) Unit ℕ (UR sig nD τ) ℕ (cfgs p) c
  | ⟨0, _⟩ => fun c => R0.dat (Vtc1 m) c
  | ⟨1, _⟩ => fun c => R1.dat (Vtc3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a launch's
    invariant takes it in and gives it back) and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The launches as items -/

set_option backward.isDefEq.respectTransparency.types false in
/-- The first launch over the thread state: entered from every unscoped buffer at `V1`, left at `V2`. Its arrays are
    split out of the unscoped buffers and put back at the exit contents; the generator register goes into the
    launch's invariant and comes back; nothing is owed; the launch has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (Vtc1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vtc1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vtc1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.inv_in (Vtc1 m) c)
    unfold Pipeline.ΦA
    iintro ⟨Hp, -, Hr⟩
    isplitl [Hr]; · iexact Hr
    iexact Hp
  hout c := by
    refine (R0.inv_out (Vtc1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vtc1 m c) (fun b => V2 m (outs m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `V3`, left at `V4`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (Vtc3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vtc3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vtc3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.inv_in (Vtc3 m) c)
    unfold Pipeline.ΦA
    iintro ⟨Hp, -, Hr⟩
    isplitl [Hr]; · iexact Hr
    iexact Hp
  hout c := by
    refine (R1.inv_out (Vtc3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vtc3 m c) (fun b => V4 m (outs m) c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, and in every final memory each
    unscoped buffer of core `c` holds what the last valuation says: the launch memory taken through the seven stretches
    of host operations and the two launches' write-backs. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V9 m (outs m) c b) :=
  run_cond emb₁ () 𝒱₀ L lv (fun _ _ => rfl) m ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

/-- The arguments end as launched: no item writes one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (V9_main_arg0 m (outs m) c),
     (h c _ (mem_uc main_arg1 (by decide))).trans (V9_main_arg1 m (outs m) c),
     (h c _ (mem_uc main_arg2 (by decide))).trans (V9_main_arg2 m (outs m) c),
     (h c _ (mem_uc main_arg3 (by decide))).trans (V9_main_arg3 m (outs m) c),
     (h c _ (mem_uc main_arg4 (by decide))).trans (V9_main_arg4 m (outs m) c),
     (h c _ (mem_uc main_arg5 (by decide))).trans (V9_main_arg5 m (outs m) c),
     (h c _ (mem_uc main_arg6 (by decide))).trans (V9_main_arg6 m (outs m) c),
     (h c _ (mem_uc main_arg7 (by decide))).trans (V9_main_arg7 m (outs m) c),
     (h c _ (mem_uc main_arg8 (by decide))).trans (V9_main_arg8 m (outs m) c),
     (h c _ (mem_uc main_arg9 (by decide))).trans (V9_main_arg9 m (outs m) c),
     (h c _ (mem_uc main_arg10 (by decide))).trans (V9_main_arg10 m (outs m) c),
     (h c _ (mem_uc main_arg11 (by decide))).trans (V9_main_arg11 m (outs m) c),
     (h c _ (mem_uc main_arg12 (by decide))).trans (V9_main_arg12 m (outs m) c)⟩) (run_all m ρ)

/-- The result's buffer ends at what the last valuation says, and the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v24) = V9 m (outs m) c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v24 (by decide)),
     (h c _ (mem_uc main_arg0 (by decide))).trans (V9_main_arg0 m (outs m) c),
     (h c _ (mem_uc main_arg1 (by decide))).trans (V9_main_arg1 m (outs m) c),
     (h c _ (mem_uc main_arg2 (by decide))).trans (V9_main_arg2 m (outs m) c),
     (h c _ (mem_uc main_arg3 (by decide))).trans (V9_main_arg3 m (outs m) c),
     (h c _ (mem_uc main_arg4 (by decide))).trans (V9_main_arg4 m (outs m) c),
     (h c _ (mem_uc main_arg5 (by decide))).trans (V9_main_arg5 m (outs m) c),
     (h c _ (mem_uc main_arg6 (by decide))).trans (V9_main_arg6 m (outs m) c),
     (h c _ (mem_uc main_arg7 (by decide))).trans (V9_main_arg7 m (outs m) c),
     (h c _ (mem_uc main_arg8 (by decide))).trans (V9_main_arg8 m (outs m) c),
     (h c _ (mem_uc main_arg9 (by decide))).trans (V9_main_arg9 m (outs m) c),
     (h c _ (mem_uc main_arg10 (by decide))).trans (V9_main_arg10 m (outs m) c),
     (h c _ (mem_uc main_arg11 (by decide))).trans (V9_main_arg11 m (outs m) c),
     (h c _ (mem_uc main_arg12 (by decide))).trans (V9_main_arg12 m (outs m) c)⟩) (run_all m ρ)

end Records

end Cert.Kernel.Run

end
-- ==== Proof.KernelIdealR0Base.lean ====
/-
  The first segment-sum launch, seen from one grid point. The grid has 2 x 50 points; point t = 50 p + k works on
  rows 3000 t .. 3000 t + 2999 of the feature array and of the segment column, and on block p of the [2, 256, 768]
  array of partial sums. The body keeps a [256, 768] accumulator between points: it clears it where k = 0, adds the
  tile's contribution at every point, and copies it into the output block where k = 49. This module names what the
  three cases of the body share: a window's block at a point, the two conditions in closed form over the grid, where
  the output window is idle, the buffers the body is called with, and the launch's invariant opened at the accumulator.
-/
import proofs.«418325_j38482906972422_2_alg».proof.Proof.Gen.KernelIdeal.Launch
import proofs.«418325_j38482906972422_2_alg».proof.Proof.Gen.KernelIdeal.Skeleton
import proofs.«418325_j38482906972422_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the launch begins: a parameter, fixed by the run
variable (V : (c : Dev nD) → (b : Ref sig .tc) → Buf (Elt F) ((c : Thread nD τ).loc b))

/-! ## A window's block at a point -/

/-- Block `t` of window `w`, read off the window's array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The segment column's buffer holds its block at every point, for any proof data over `V` whose body leaves it there. -/
theorem seg_before {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the feature tile. -/
theorem feat_before {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body -/

/-- "This is the first tile of the half": the body's test `k = 0`, as the body computes it. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 50 = 0 :=
  (by decide +kernel : ∀ t : Fin grid0.N, isFirst (grid0.coords t) ↔ t.val % 50 = 0)

/-- "This is the last tile of the half": the body's test `k = 49`. -/
abbrev isLast (i : grid0.Coords) : Prop := k0_cond2 i = 1#1
theorem isLast_iff : ∀ t : Fin cfg0.N, isLast (grid0.coords t) ↔ t.val % 50 = 49 :=
  (by decide +kernel : ∀ t : Fin grid0.N, isLast (grid0.coords t) ↔ t.val % 50 = 49)

/-! ## Where the windows are idle -/

theorem seg_live : ∀ t : Fin cfg0.N, cfg0.idle 0 (grid0.coords t) = false := by decide +kernel
theorem feat_live : ∀ t : Fin cfg0.N, cfg0.idle 1 (grid0.coords t) = false := by decide +kernel
/-- Away from the last tile of a half the body stores nothing into the output block, -/
theorem out_idle : ∀ t : Fin cfg0.N, ¬isLast (grid0.coords t) → cfg0.idle 2 (grid0.coords t) = true := by decide +kernel
/-- and the block is not written back there; -/
theorem out_kept : ∀ t : Fin cfg0.N, ¬isLast (grid0.coords t) → (cfg0.win 2).flush t = false := by decide +kernel
/-- at the last tile it stores the block. -/
theorem out_live : ∀ t : Fin cfg0.N, isLast (grid0.coords t) → cfg0.idle 2 (grid0.coords t) = false := by decide +kernel

/-! ## The buffers the body is called with -/

abbrev segBuf (t : Fin cfg0.N) : Memref sig .tc .vmem S3000x1 .i32 := win0_0.stage (cfg0.slots t 0)
abbrev segBuf_whole (t : Fin cfg0.N) : (segBuf t).IsWhole := hstage0_0 ((cfg0.slots t 0).cast nbuf0_0)
abbrev featBuf (t : Fin cfg0.N) : Memref sig .tc .vmem S3000x768 .f32 := win0_1.stage (cfg0.slots t 1)
abbrev featBuf_whole (t : Fin cfg0.N) : (featBuf t).IsWhole := hstage0_1 ((cfg0.slots t 1).cast nbuf0_1)
abbrev outBuf (t : Fin cfg0.N) : Memref sig .tc .vmem S1x256x768 .f32 := win0_2.stage (cfg0.slots t 2)
abbrev outBuf_whole (t : Fin cfg0.N) : (outBuf t).IsWhole := hstage0_2 ((cfg0.slots t 2).cast nbuf0_2)
/-- The accumulator: a whole scoped buffer of the launch's own. -/
abbrev accBuf : Memref sig .tc .vmem S256x768 .f32 := Memref.whole cc0_scratch0
abbrev accView : View sig .tc .vmem S256x768 .f32 := accBuf.view
/-- One staging buffer of the output window, through which its contents are stated. -/
abbrev outView : View sig .tc .vmem S1x256x768 .f32 := (Memref.whole cc0_stg2_0 : Memref sig .tc .vmem S1x256x768 .f32).view

/-- Every scoped buffer other than the accumulator and this launch's staging buffers, at some contents each: the
    body never touches them. -/
abbrev others (c : Dev nD) : sProp 𝕄 :=
  Pipeline.scopedRestBut (Ix := Unit) (Name := ℕ) (U := UR sig nD τ) (Lvl := ℕ) (Val := Elt F) spec0 c [cc0_scratch0]

/-- The launch's invariant "every scoped buffer at some contents, the generator register at some state", opened at
    the accumulator. -/
theorem inv_eq (c : Dev nD) :
    (Pipeline.ΦA spec0 c : sProp 𝕄)
      = iprop(iprop((∃ d, owns (c : Thread nD τ) accBuf fullShare d) ∗ others c) ∗ (∃ r, prngReg c r)) := by
  unfold Pipeline.ΦA
  rw [Pipeline.scopedRest_split_of_list (win := spec0) (c := c) [cc0_scratch0] (by decide) (by decide)]
  simp only [accBuf, owns_whole, Idealize.SL.BI.bigSepL_singleton]
  try rfl

end Cert.KernelIdeal.R0

end
-- ==== Proof.KernelIdealR0RunFirst.lean ====
/-
  The body at the first tile of a half (k = 0, and 0 ≠ 49): the accumulator, at whatever it held, is cleared and then
  receives the tile's contribution; the output block is not touched. The stores into the accumulator are found by
  running the body, as a list of pieces, latest first.
-/
import proofs.«418325_j38482906972422_2_alg».proof.Proof.KernelIdealR0Base

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The accumulator's pieces after the body at a first tile, with the body's run: the segment column at `x0`, the
    feature tile at `x1`, the output block at `xo` handed back as it was, the accumulator at anything. -/
noncomputable def runFirst (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) :
    Σ' (LO : List (View.Piece (Elt F) S1x256x768 .f32)), { LS : List (View.Piece (Elt F) S256x768 .f32) //
      ∀ (xo : Vec F S1x256x768 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨[], ?_, fun xo E K => ?run⟩
  case run =>
    simp only [cc0__segment_sum_kernel_eq_skeleton]; unfold cc0__segment_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.R0

end
-- ==== Proof.KernelIdealR0RunMid.lean ====
/-
  The body at a middle tile of a half (k ≠ 0, k ≠ 49): the accumulator, at what the point before left, receives the
  tile's contribution; the output block is not touched.
-/
import proofs.«418325_j38482906972422_2_alg».proof.Proof.KernelIdealR0RunFirst

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The accumulator's pieces after the body at a middle tile, with the body's run: the accumulator enters at `xs`. -/
noncomputable def runMid (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) :
    Σ' (LO : List (View.Piece (Elt F) S1x256x768 .f32)), { LS : List (View.Piece (Elt F) S256x768 .f32) //
      ∀ (xo : Vec F S1x256x768 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨[], ?_, fun xo E K => ?run⟩
  case run =>
    simp only [cc0__segment_sum_kernel_eq_skeleton]; unfold cc0__segment_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.R0

end
-- ==== Proof.KernelIdealR0RunLast.lean ====
/-
  The body at the last tile of a half (k = 49, and 49 ≠ 0): the accumulator, at what the point before left, receives
  the tile's contribution and is then copied into the output block, which enters at anything.
-/
import proofs.«418325_j38482906972422_2_alg».proof.Proof.KernelIdealR0RunMid

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The output block's and the accumulator's pieces after the body at a last tile, with the body's run. -/
noncomputable def runLast (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) :
    Σ' (LO : List (View.Piece (Elt F) S1x256x768 .f32)), { LS : List (View.Piece (Elt F) S256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R0

end
-- ==== Proof.KernelIdealR0Dat.lean ====
/-
  The first segment-sum launch, point by point. What the accumulator and the output block hold after the body at
  each of the 100 points (`stateAt`, by recursion on the point: a first tile starts afresh, a middle or last tile
  continues from what the point before left), the launch's invariant carrying the accumulator from one point to the
  next (`invAt`), the pipeline's proof data (`dat`) and the body's obligation at every point (`body_obligation`).
-/
import proofs.«418325_j38482906972422_2_alg».proof.Proof.KernelIdealR0RunLast

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The output block where the body stores nothing into it: no piece, a placeholder nobody reads (the block is
    neither written back there nor read at the next point). -/
def idleOut : Vec F S1x256x768 .f32 := outView.read (Elt F) (outView.writes (Elt F) outView.junk [])

/-- The accumulator's pieces at a first tile cover it, -/
theorem accFirst_cover (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) (y : S256x768.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S256x768.size (by sl_kernel_rfl) y
/-- so this is what it holds afterwards. -/
def accAtFirst (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) : Vec F S256x768 .f32 :=
  accView.read (Elt F) (accView.writes (Elt F) accView.junk (runFirst c i arg2 harg2 arg3 harg3 arg4 harg4 arg5 harg5 hc0 hc1 x0 x1).2.1)

theorem accMid_cover (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) (y : S256x768.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S256x768.size (by sl_kernel_rfl) y
def accAtMid (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) : Vec F S256x768 .f32 :=
  accView.read (Elt F) (accView.writes (Elt F) accView.junk (runMid c i arg2 harg2 arg3 harg3 arg4 harg4 arg5 harg5 hc0 hc1 x0 x1 xs).2.1)

theorem accLast_cover (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) (y : S256x768.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S256x768.size (by sl_kernel_rfl) y
def accAtLast (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) : Vec F S256x768 .f32 :=
  accView.read (Elt F) (accView.writes (Elt F) accView.junk (runLast c i arg2 harg2 arg3 harg3 arg4 harg4 arg5 harg5 hc0 hc1 x0 x1 xs).2.1)

theorem outLast_cover (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) (y : S1x256x768.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x256x768.size (by sl_kernel_rfl) y
/-- The output block after a last tile. -/
def outAtLast (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) : Vec F S1x256x768 .f32 :=
  outView.read (Elt F) (outView.writes (Elt F) outView.junk (runLast c i arg2 harg2 arg3 harg3 arg4 harg4 arg5 harg5 hc0 hc1 x0 x1 xs).1)

/-! ## The contents after each point -/

/-- The output block's buffer and the accumulator after the body at point `n`: the case is read off `n % 50`. -/
def stateAt (c : Dev nD) : (n : ℕ) → n < cfg0.N → Vec F S1x256x768 .f32 × Vec F S256x768 .f32
  | 0, hn => (idleOut, accAtFirst c (grid0.coords ⟨0, hn⟩) (segBuf ⟨0, hn⟩) (segBuf_whole ⟨0, hn⟩) (featBuf ⟨0, hn⟩) (featBuf_whole ⟨0, hn⟩) (outBuf ⟨0, hn⟩) (outBuf_whole ⟨0, hn⟩) accBuf (Memref.isWhole_whole _) ((isFirst_iff ⟨0, hn⟩).mpr (Nat.zero_mod _)) (fun h => absurd ((isLast_iff ⟨0, hn⟩).mp h) (by show ¬ (0 % 50 = 49); decide)) (blockAt V c 0 ⟨0, hn⟩) (blockAt V c 1 ⟨0, hn⟩))
  | n + 1, hn =>
    if h0 : (n + 1) % 50 = 0 then
      if h1 : (n + 1) % 50 = 49 then
        False.elim (by omega)
      else
        (idleOut, accAtFirst c (grid0.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩))
    else
      if h1 : (n + 1) % 50 = 49 then
        (outAtLast c (grid0.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (stateAt c n (Nat.lt_of_succ_lt hn)).2,
         accAtLast c (grid0.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (stateAt c n (Nat.lt_of_succ_lt hn)).2)
      else
        (idleOut, accAtMid c (grid0.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (stateAt c n (Nat.lt_of_succ_lt hn)).2)

theorem stateAt_first (c : Dev nD) (t : Fin cfg0.N) (h0 : t.val % 50 = 0) (h1 : ¬t.val % 50 = 49) :
    stateAt V c t.val t.isLt = (idleOut, accAtFirst c (grid0.coords t) (segBuf t) (segBuf_whole t) (featBuf t) (featBuf_whole t) (outBuf t) (outBuf_whole t) accBuf (Memref.isWhole_whole _) ((isFirst_iff t).mpr h0) (fun h => h1 ((isLast_iff t).mp h)) (blockAt V c 0 t) (blockAt V c 1 t)) := by
  obtain ⟨n, hn⟩ := t
  cases n with
  | zero => exact rfl
  | succ n => exact (dif_pos h0).trans ((dif_neg h1).trans rfl)

theorem stateAt_mid (c : Dev nD) (t : Fin cfg0.N) (h0 : ¬t.val % 50 = 0) (h1 : ¬t.val % 50 = 49) :
    stateAt V c t.val t.isLt = (idleOut, accAtMid c (grid0.coords t) (segBuf t) (segBuf_whole t) (featBuf t) (featBuf_whole t) (outBuf t) (outBuf_whole t) accBuf (Memref.isWhole_whole _) (fun h => h0 ((isFirst_iff t).mp h)) (fun h => h1 ((isLast_iff t).mp h)) (blockAt V c 0 t) (blockAt V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 50 = 0) (h1 : t.val % 50 = 49) :
    stateAt V c t.val t.isLt = (outAtLast c (grid0.coords t) (segBuf t) (segBuf_whole t) (featBuf t) (featBuf_whole t) (outBuf t) (outBuf_whole t) accBuf (Memref.isWhole_whole _) (fun h => h0 ((isFirst_iff t).mp h)) ((isLast_iff t).mpr h1) (blockAt V c 0 t) (blockAt V c 1 t) (stateAt V c (t.val - 1) (Nat.lt_of_le_of_lt (Nat.sub_le _ _) t.isLt)).2,
      accAtLast c (grid0.coords t) (segBuf t) (segBuf_whole t) (featBuf t) (featBuf_whole t) (outBuf t) (outBuf_whole t) accBuf (Memref.isWhole_whole _) (fun h => h0 ((isFirst_iff t).mp h)) ((isLast_iff t).mpr h1) (blockAt V c 0 t) (blockAt V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point `n`: at the start every scoped buffer at anything; afterwards the accumulator at what point `n - 1`
    left, the other scoped buffers at anything, the generator register at some state. -/
def invAt (c : Dev nD) : (n : ℕ) → n ≤ cfg0.N → sProp 𝕄
  | 0, _ => Pipeline.ΦA spec0 c
  | n + 1, hn => iprop(iprop(owns (c : Thread nD τ) accBuf fullShare ((stateAt V c n hn).2) ∗ others c) ∗ (∃ r, prngReg c r))

theorem invAt_zero (c : Dev nD) (n : ℕ) (h : n ≤ cfg0.N) (hz : n = 0) : invAt V c n h = Pipeline.ΦA spec0 c := by
  subst hz; rfl

theorem invAt_succ (c : Dev nD) (n : ℕ) (hn : n < cfg0.N) :
    invAt V c (n + 1) hn = iprop(iprop(owns (c : Thread nD τ) accBuf fullShare ((stateAt V c n hn).2) ∗ others c) ∗ (∃ r, prngReg c r)) := rfl

theorem invAt_pos (c : Dev nD) (n : ℕ) (h : n ≤ cfg0.N) (hz : n ≠ 0) :
    invAt V c n h = iprop(iprop(owns (c : Thread nD τ) accBuf fullShare ((stateAt V c (n - 1) (by omega)).2) ∗ others c) ∗ (∃ r, prngReg c r)) := by
  cases n with
  | zero => exact absurd rfl hz
  | succ n => rfl

/-! ## The proof data -/

/-- The launch's proof data on core `c`: the arrays as the launch finds them; after the body each input's buffer at
    its block and the output's at `stateAt`; the invariant `invAt`; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => (stateAt V c t.val t.isLt).1
  Φ t := invAt V c t.val (Nat.le_of_lt_succ t.isLt)
  q _ := fullShare
  owed _ := 0

theorem dat_A (c : Dev nD) (w : Fin cfg0.W) : (dat V c).A w = V c (Pipeline.arrRef spec0 w) := by
  dsimp only [dat]

theorem inv_castSucc (c : Dev nD) (t : Fin cfg0.N) :
    (dat V c).Φ t.castSucc = invAt V c t.val (Nat.le_of_lt t.isLt) := by
  dsimp only [dat]; simp only [Fin.coe_castSucc]

theorem after_seg (c : Dev nD) (t : Fin cfg0.N) : (dat V c).after 0 t = blockAt V c 0 t := by dsimp only [dat]
theorem after_feat (c : Dev nD) (t : Fin cfg0.N) : (dat V c).after 1 t = blockAt V c 1 t := by dsimp only [dat]
theorem after_out (c : Dev nD) (t : Fin cfg0.N) : (dat V c).after 2 t = (stateAt V c t.val t.isLt).1 := by dsimp only [dat]

theorem before_seg (c : Dev nD) (t : Fin cfg0.N) (d) : (dat V c).before 0 t d = blockAt V c 0 t :=
  seg_before V (dat V c) (dat_A V c 0) (after_seg V c) t d
theorem before_feat (c : Dev nD) (t : Fin cfg0.N) (d) : (dat V c).before 1 t d = blockAt V c 1 t :=
  feat_before V (dat V c) (dat_A V c 1) (after_feat V c) t d

/-! ## The body's obligation -/

def bodyPre (c : Dev nD) (t : Fin cfg0.N) : sProp 𝕄 :=
  iprop((dat V c).Φ t.castSucc ∗ (dat V c).owesAt () t.castSucc
    ∗ (∃ d, owns (c : Thread nD τ) (segBuf t) fullShare ((dat V c).before 0 t d))
    ∗ (∃ d, owns (c : Thread nD τ) (featBuf t) fullShare ((dat V c).before 1 t d))
    ∗ (∃ d, owns (c : Thread nD τ) (outBuf t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; `t % 50` says which case the point is in; the
    invariant hands the body the accumulator (at anything before the very first point, else at what the point before
    left) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_seg, before_feat]
  rw [show (dat V c).owesAt () t.succ = (dat V c).owesAt () t.castSucc from rfl]
  rw [show (dat V c).Φ t.succ = invAt V c (t.val + 1) t.isLt from rfl, invAt_succ]
  have hN : t.val < 100 := lt_of_lt_of_eq t.isLt (show cfg0.N = 100 from N_0)
  rw [show (dat V c).leavesExact 0 t = owns (c : Thread nD τ) (segBuf t) fullShare ((dat V c).after 0 t) from by
    unfold Dat.leavesExact; rw [seg_live t], after_seg]
  rw [show (dat V c).leavesExact 1 t = owns (c : Thread nD τ) (featBuf t) fullShare ((dat V c).after 1 t) from by
    unfold Dat.leavesExact; rw [feat_live t], after_feat]
  by_cases h0 : t.val % 50 = 0
  · have h1 : ¬t.val % 50 = 49 := by omega
    have hl : ¬isLast (grid0.coords t) := fun h => h1 ((isLast_iff t).mp h)
    rw [Dat.leavesExact_idle (dat V c) 2 t (out_idle t hl) (out_kept t hl)]
    rw [stateAt_first V c t h0 h1]
    unfold accAtFirst; (try dsimp only)
    by_cases hz : t.val = 0
    · rw [inv_castSucc V c t, invAt_zero V c _ _ hz, inv_eq]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hl (blockAt V c 0 t) (blockAt V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
    · rw [inv_castSucc V c t, invAt_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hl (blockAt V c 0 t) (blockAt V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hf : ¬isFirst (grid0.coords t) := fun h => h0 ((isFirst_iff t).mp h)
    by_cases h1 : t.val % 50 = 49
    · rw [show (dat V c).leavesExact 2 t = owns (c : Thread nD τ) (outBuf t) fullShare ((dat V c).after 2 t) from by
        unfold Dat.leavesExact; rw [out_live t ((isLast_iff t).mpr h1)], after_out]
      rw [stateAt_last V c t h0 h1]
      unfold outAtLast accAtLast; (try dsimp only)
      rw [inv_castSucc V c t, invAt_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ hf ((isLast_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · have hl : ¬isLast (grid0.coords t) := fun h => h1 ((isLast_iff t).mp h)
      rw [Dat.leavesExact_idle (dat V c) 2 t (out_idle t hl) (out_kept t hl)]
      rw [stateAt_mid V c t h0 h1]
      unfold accAtMid; (try dsimp only)
      rw [inv_castSucc V c t, invAt_pos V c _ _ hz]
      iintro ⟨⟨⟨HS, Hoth⟩, Hg⟩, Ho, ⟨%d0, H0⟩, ⟨%d1, H1⟩, ⟨%d2, H2⟩⟩
      iapply ((runMid c (grid0.coords t) _ _ _ _ _ _ _ _ hf hl (blockAt V c 0 t) (blockAt V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accMid_cover c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the two ends -/

/-- What the launch hands the body is the invariant before the first point. -/
theorem inv_in (c : Dev nD) : Pipeline.ΦA spec0 c ⊢ (dat V c).Φ 0 := by
  rw [show (dat V c).Φ 0 = invAt V c 0 (Nat.zero_le _) from rfl, invAt_zero V c 0 _ rfl]
  try exact Idealize.SL.BI.Entails.refl _

/-- After the last point the invariant gives everything back: the accumulator's contents are forgotten. -/
theorem inv_out (c : Dev nD) : (dat V c).Φ (Fin.last cfg0.N) ⊢ Pipeline.ΦA spec0 c := by
  rw [show (dat V c).Φ (Fin.last cfg0.N) = invAt V c (Fin.last cfg0.N).val (Nat.le_of_lt_succ (Fin.last cfg0.N).isLt) from rfl,
    invAt_pos V c _ _ (by rw [Fin.val_last]; have : cfg0.N = 100 := N_0; omega), inv_eq]
  iintro ⟨⟨HS, Hoth⟩, Hg⟩
  isplitl [HS Hoth]
  · isplitl [HS]
    · iexists _; iexact HS
    iexact Hoth
  iexact Hg

end Cert.KernelIdeal.R0

end
-- ==== Proof.KernelIdealR1Base.lean ====
/-
  The second segment-sum launch, seen from one grid point. The grid has 2 x 50 points; point t = 50 p + k works on
  rows 3000 t .. 3000 t + 2999 of the feature array and of the segment column, and on block p of the [2, 256, 768]
  array of partial sums. The body keeps a [256, 768] accumulator between points: it clears it where k = 0, adds the
  tile's contribution at every point, and copies it into the output block where k = 49. This module names what the
  three cases of the body share: a window's block at a point, the two conditions in closed form over the grid, where
  the output window is idle, the buffers the body is called with, and the launch's invariant opened at the accumulator.
-/
import proofs.«418325_j38482906972422_2_alg».proof.Proof.Gen.KernelIdeal.Launch
import proofs.«418325_j38482906972422_2_alg».proof.Proof.Gen.KernelIdeal.Skeleton
import proofs.«418325_j38482906972422_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the launch begins: a parameter, fixed by the run
variable (V : (c : Dev nD) → (b : Ref sig .tc) → Buf (Elt F) ((c : Thread nD τ).loc b))

/-! ## A window's block at a point -/

/-- Block `t` of window `w`, read off the window's array as the launch finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The segment column's buffer holds its block at every point, for any proof data over `V` whose body leaves it there. -/
theorem seg_before {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the feature tile. -/
theorem feat_before {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body -/

/-- "This is the first tile of the half": the body's test `k = 0`, as the body computes it. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 50 = 0 :=
  (by decide +kernel : ∀ t : Fin grid1.N, isFirst (grid1.coords t) ↔ t.val % 50 = 0)

/-- "This is the last tile of the half": the body's test `k = 49`. -/
abbrev isLast (i : grid1.Coords) : Prop := k1_cond2 i = 1#1
theorem isLast_iff : ∀ t : Fin cfg1.N, isLast (grid1.coords t) ↔ t.val % 50 = 49 :=
  (by decide +kernel : ∀ t : Fin grid1.N, isLast (grid1.coords t) ↔ t.val % 50 = 49)

/-! ## Where the windows are idle -/

theorem seg_live : ∀ t : Fin cfg1.N, cfg1.idle 0 (grid1.coords t) = false := by decide +kernel
theorem feat_live : ∀ t : Fin cfg1.N, cfg1.idle 1 (grid1.coords t) = false := by decide +kernel
/-- Away from the last tile of a half the body stores nothing into the output block, -/
theorem out_idle : ∀ t : Fin cfg1.N, ¬isLast (grid1.coords t) → cfg1.idle 2 (grid1.coords t) = true := by decide +kernel
/-- and the block is not written back there; -/
theorem out_kept : ∀ t : Fin cfg1.N, ¬isLast (grid1.coords t) → (cfg1.win 2).flush t = false := by decide +kernel
/-- at the last tile it stores the block. -/
theorem out_live : ∀ t : Fin cfg1.N, isLast (grid1.coords t) → cfg1.idle 2 (grid1.coords t) = false := by decide +kernel

/-! ## The buffers the body is called with -/

abbrev segBuf (t : Fin cfg1.N) : Memref sig .tc .vmem S3000x1 .i32 := win1_0.stage (cfg1.slots t 0)
abbrev segBuf_whole (t : Fin cfg1.N) : (segBuf t).IsWhole := hstage1_0 ((cfg1.slots t 0).cast nbuf1_0)
abbrev featBuf (t : Fin cfg1.N) : Memref sig .tc .vmem S3000x768 .f32 := win1_1.stage (cfg1.slots t 1)
abbrev featBuf_whole (t : Fin cfg1.N) : (featBuf t).IsWhole := hstage1_1 ((cfg1.slots t 1).cast nbuf1_1)
abbrev outBuf (t : Fin cfg1.N) : Memref sig .tc .vmem S1x256x768 .f32 := win1_2.stage (cfg1.slots t 2)
abbrev outBuf_whole (t : Fin cfg1.N) : (outBuf t).IsWhole := hstage1_2 ((cfg1.slots t 2).cast nbuf1_2)
/-- The accumulator: a whole scoped buffer of the launch's own. -/
abbrev accBuf : Memref sig .tc .vmem S256x768 .f32 := Memref.whole cc1_scratch0
abbrev accView : View sig .tc .vmem S256x768 .f32 := accBuf.view
/-- One staging buffer of the output window, through which its contents are stated. -/
abbrev outView : View sig .tc .vmem S1x256x768 .f32 := (Memref.whole cc1_stg2_0 : Memref sig .tc .vmem S1x256x768 .f32).view

/-- Every scoped buffer other than the accumulator and this launch's staging buffers, at some contents each: the
    body never touches them. -/
abbrev others (c : Dev nD) : sProp 𝕄 :=
  Pipeline.scopedRestBut (Ix := Unit) (Name := ℕ) (U := UR sig nD τ) (Lvl := ℕ) (Val := Elt F) spec1 c [cc1_scratch0]

/-- The launch's invariant "every scoped buffer at some contents, the generator register at some state", opened at
    the accumulator. -/
theorem inv_eq (c : Dev nD) :
    (Pipeline.ΦA spec1 c : sProp 𝕄)
      = iprop(iprop((∃ d, owns (c : Thread nD τ) accBuf fullShare d) ∗ others c) ∗ (∃ r, prngReg c r)) := by
  unfold Pipeline.ΦA
  rw [Pipeline.scopedRest_split_of_list (win := spec1) (c := c) [cc1_scratch0] (by decide) (by decide)]
  simp only [accBuf, owns_whole, Idealize.SL.BI.bigSepL_singleton]
  try rfl

end Cert.KernelIdeal.R1

end
-- ==== Proof.KernelIdealR1RunFirst.lean ====
/-
  The body at the first tile of a half (k = 0, and 0 ≠ 49): the accumulator, at whatever it held, is cleared and then
  receives the tile's contribution; the output block is not touched. The stores into the accumulator are found by
  running the body, as a list of pieces, latest first.
-/
import proofs.«418325_j38482906972422_2_alg».proof.Proof.KernelIdealR1Base

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The accumulator's pieces after the body at a first tile, with the body's run: the segment column at `x0`, the
    feature tile at `x1`, the output block at `xo` handed back as it was, the accumulator at anything. -/
noncomputable def runFirst (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) :
    Σ' (LO : List (View.Piece (Elt F) S1x256x768 .f32)), { LS : List (View.Piece (Elt F) S256x768 .f32) //
      ∀ (xo : Vec F S1x256x768 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨[], ?_, fun xo E K => ?run⟩
  case run =>
    simp only [cc1__segment_sum_kernel_eq_skeleton]; unfold cc1__segment_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.R1

end
-- ==== Proof.KernelIdealR1RunMid.lean ====
/-
  The body at a middle tile of a half (k ≠ 0, k ≠ 49): the accumulator, at what the point before left, receives the
  tile's contribution; the output block is not touched.
-/
import proofs.«418325_j38482906972422_2_alg».proof.Proof.KernelIdealR1RunFirst

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The accumulator's pieces after the body at a middle tile, with the body's run: the accumulator enters at `xs`. -/
noncomputable def runMid (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) :
    Σ' (LO : List (View.Piece (Elt F) S1x256x768 .f32)), { LS : List (View.Piece (Elt F) S256x768 .f32) //
      ∀ (xo : Vec F S1x256x768 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨[], ?_, fun xo E K => ?run⟩
  case run =>
    simp only [cc1__segment_sum_kernel_eq_skeleton]; unfold cc1__segment_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.R1

end
-- ==== Proof.KernelIdealR1RunLast.lean ====
/-
  The body at the last tile of a half (k = 49, and 49 ≠ 0): the accumulator, at what the point before left, receives
  the tile's contribution and is then copied into the output block, which enters at anything.
-/
import proofs.«418325_j38482906972422_2_alg».proof.Proof.KernelIdealR1RunMid

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The output block's and the accumulator's pieces after the body at a last tile, with the body's run. -/
noncomputable def runLast (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) :
    Σ' (LO : List (View.Piece (Elt F) S1x256x768 .f32)), { LS : List (View.Piece (Elt F) S256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨?_, ?_, fun E K => ?run⟩
  case run =>
    simp only [cc1__segment_sum_kernel_eq_skeleton]; unfold cc1__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R1

end
-- ==== Proof.KernelIdealR1Dat.lean ====
/-
  The second segment-sum launch, point by point. What the accumulator and the output block hold after the body at
  each of the 100 points (`stateAt`, by recursion on the point: a first tile starts afresh, a middle or last tile
  continues from what the point before left), the launch's invariant carrying the accumulator from one point to the
  next (`invAt`), the pipeline's proof data (`dat`) and the body's obligation at every point (`body_obligation`).
-/
import proofs.«418325_j38482906972422_2_alg».proof.Proof.KernelIdealR1RunLast

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The output block where the body stores nothing into it: no piece, a placeholder nobody reads (the block is
    neither written back there nor read at the next point). -/
def idleOut : Vec F S1x256x768 .f32 := outView.read (Elt F) (outView.writes (Elt F) outView.junk [])

/-- The accumulator's pieces at a first tile cover it, -/
theorem accFirst_cover (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) (y : S256x768.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S256x768.size (by sl_kernel_rfl) y
/-- so this is what it holds afterwards. -/
def accAtFirst (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) : Vec F S256x768 .f32 :=
  accView.read (Elt F) (accView.writes (Elt F) accView.junk (runFirst c i arg2 harg2 arg3 harg3 arg4 harg4 arg5 harg5 hc0 hc1 x0 x1).2.1)

theorem accMid_cover (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) (y : S256x768.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S256x768.size (by sl_kernel_rfl) y
def accAtMid (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) : Vec F S256x768 .f32 :=
  accView.read (Elt F) (accView.writes (Elt F) accView.junk (runMid c i arg2 harg2 arg3 harg3 arg4 harg4 arg5 harg5 hc0 hc1 x0 x1 xs).2.1)

theorem accLast_cover (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) (y : S256x768.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S256x768.size (by sl_kernel_rfl) y
def accAtLast (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) : Vec F S256x768 .f32 :=
  accView.read (Elt F) (accView.writes (Elt F) accView.junk (runLast c i arg2 harg2 arg3 harg3 arg4 harg4 arg5 harg5 hc0 hc1 x0 x1 xs).2.1)

theorem outLast_cover (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) (y : S1x256x768.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x256x768.size (by sl_kernel_rfl) y
/-- The output block after a last tile. -/
def outAtLast (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) : Vec F S1x256x768 .f32 :=
  outView.read (Elt F) (outView.writes (Elt F) outView.junk (runLast c i arg2 harg2 arg3 harg3 arg4 harg4 arg5 harg5 hc0 hc1 x0 x1 xs).1)

/-! ## The contents after each point -/

/-- The output block's buffer and the accumulator after the body at point `n`: the case is read off `n % 50`. -/
def stateAt (c : Dev nD) : (n : ℕ) → n < cfg1.N → Vec F S1x256x768 .f32 × Vec F S256x768 .f32
  | 0, hn => (idleOut, accAtFirst c (grid1.coords ⟨0, hn⟩) (segBuf ⟨0, hn⟩) (segBuf_whole ⟨0, hn⟩) (featBuf ⟨0, hn⟩) (featBuf_whole ⟨0, hn⟩) (outBuf ⟨0, hn⟩) (outBuf_whole ⟨0, hn⟩) accBuf (Memref.isWhole_whole _) ((isFirst_iff ⟨0, hn⟩).mpr (Nat.zero_mod _)) (fun h => absurd ((isLast_iff ⟨0, hn⟩).mp h) (by show ¬ (0 % 50 = 49); decide)) (blockAt V c 0 ⟨0, hn⟩) (blockAt V c 1 ⟨0, hn⟩))
  | n + 1, hn =>
    if h0 : (n + 1) % 50 = 0 then
      if h1 : (n + 1) % 50 = 49 then
        False.elim (by omega)
      else
        (idleOut, accAtFirst c (grid1.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩))
    else
      if h1 : (n + 1) % 50 = 49 then
        (outAtLast c (grid1.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (stateAt c n (Nat.lt_of_succ_lt hn)).2,
         accAtLast c (grid1.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (stateAt c n (Nat.lt_of_succ_lt hn)).2)
      else
        (idleOut, accAtMid c (grid1.coords ⟨n + 1, hn⟩) (segBuf ⟨n + 1, hn⟩) (segBuf_whole ⟨n + 1, hn⟩) (featBuf ⟨n + 1, hn⟩) (featBuf_whole ⟨n + 1, hn⟩) (outBuf ⟨n + 1, hn⟩) (outBuf_whole ⟨n + 1, hn⟩) accBuf (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (stateAt c n (Nat.lt_of_succ_lt hn)).2)

theorem stateAt_first (c : Dev nD) (t : Fin cfg1.N) (h0 : t.val % 50 = 0) (h1 : ¬t.val % 50 = 49) :
    stateAt V c t.val t.isLt = (idleOut, accAtFirst c (grid1.coords t) (segBuf t) (segBuf_whole t) (featBuf t) (featBuf_whole t) (outBuf t) (outBuf_whole t) accBuf (Memref.isWhole_whole _) ((isFirst_iff t).mpr h0) (fun h => h1 ((isLast_iff t).mp h)) (blockAt V c 0 t) (blockAt V c 1 t)) := by
  obtain ⟨n, hn⟩ := t
  cases n with
  | zero => exact rfl
  | succ n => exact (dif_pos h0).trans ((dif_neg h1).trans rfl)

theorem stateAt_mid (c : Dev nD) (t : Fin cfg1.N) (h0 : ¬t.val % 50 = 0) (h1 : ¬t.val % 50 = 49) :
    stateAt V c t.val t.isLt = (idleOut, accAtMid c (grid1.coords t) (segBuf t) (segBuf_whole t) (featBuf t) (featBuf_whole t) (outBuf t) (outBuf_whole t) accBuf (Memref.isWhole_whole _) (fun h => h0 ((isFirst_iff t).mp h)) (fun h => h1 ((isLast_iff t).mp h)) (blockAt V c 0 t) (blockAt V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg1.N) (h0 : ¬t.val % 50 = 0) (h1 : t.val % 50 = 49) :
    stateAt V c t.val t.isLt = (outAtLast c (grid1.coords t) (segBuf t) (segBuf_whole t) (featBuf t) (featBuf_whole t) (outBuf t) (outBuf_whole t) accBuf (Memref.isWhole_whole _) (fun h => h0 ((isFirst_iff t).mp h)) ((isLast_iff t).mpr h1) (blockAt V c 0 t) (blockAt V c 1 t) (stateAt V c (t.val - 1) (Nat.lt_of_le_of_lt (Nat.sub_le _ _) t.isLt)).2,
      accAtLast c (grid1.coords t) (segBuf t) (segBuf_whole t) (featBuf t) (featBuf_whole t) (outBuf t) (outBuf_whole t) accBuf (Memref.isWhole_whole _) (fun h => h0 ((isFirst_iff t).mp h)) ((isLast_iff t).mpr h1) (blockAt V c 0 t) (blockAt V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point `n`: at the start every scoped buffer at anything; afterwards the accumulator at what point `n - 1`
    left, the other scoped buffers at anything, the generator register at some state. -/
def invAt (c : Dev nD) : (n : ℕ) → n ≤ cfg1.N → sProp 𝕄
  | 0, _ => Pipeline.ΦA spec1 c
  | n + 1, hn => iprop(iprop(owns (c : Thread nD τ) accBuf fullShare ((stateAt V c n hn).2) ∗ others c) ∗ (∃ r, prngReg c r))

theorem invAt_zero (c : Dev nD) (n : ℕ) (h : n ≤ cfg1.N) (hz : n = 0) : invAt V c n h = Pipeline.ΦA spec1 c := by
  subst hz; rfl

theorem invAt_succ (c : Dev nD) (n : ℕ) (hn : n < cfg1.N) :
    invAt V c (n + 1) hn = iprop(iprop(owns (c : Thread nD τ) accBuf fullShare ((stateAt V c n hn).2) ∗ others c) ∗ (∃ r, prngReg c r)) := rfl

theorem invAt_pos (c : Dev nD) (n : ℕ) (h : n ≤ cfg1.N) (hz : n ≠ 0) :
    invAt V c n h = iprop(iprop(owns (c : Thread nD τ) accBuf fullShare ((stateAt V c (n - 1) (by omega)).2) ∗ others c) ∗ (∃ r, prngReg c r)) := by
  cases n with
  | zero => exact absurd rfl hz
  | succ n => rfl

/-! ## The proof data -/

/-- The launch's proof data on core `c`: the arrays as the launch finds them; after the body each input's buffer at
    its block and the output's at `stateAt`; the invariant `invAt`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (stateAt V c t.val t.isLt).1
  Φ t := invAt V c t.val (Nat.le_of_lt_succ t.isLt)
  q _ := fullShare
  owed _ := 0

theorem dat_A (c : Dev nD) (w : Fin cfg1.W) : (dat V c).A w = V c (Pipeline.arrRef spec1 w) := by
  dsimp only [dat]

theorem inv_castSucc (c : Dev nD) (t : Fin cfg1.N) :
    (dat V c).Φ t.castSucc = invAt V c t.val (Nat.le_of_lt t.isLt) := by
  dsimp only [dat]; simp only [Fin.coe_castSucc]

theorem after_seg (c : Dev nD) (t : Fin cfg1.N) : (dat V c).after 0 t = blockAt V c 0 t := by dsimp only [dat]
theorem after_feat (c : Dev nD) (t : Fin cfg1.N) : (dat V c).after 1 t = blockAt V c 1 t := by dsimp only [dat]
theorem after_out (c : Dev nD) (t : Fin cfg1.N) : (dat V c).after 2 t = (stateAt V c t.val t.isLt).1 := by dsimp only [dat]

theorem before_seg (c : Dev nD) (t : Fin cfg1.N) (d) : (dat V c).before 0 t d = blockAt V c 0 t :=
  seg_before V (dat V c) (dat_A V c 0) (after_seg V c) t d
theorem before_feat (c : Dev nD) (t : Fin cfg1.N) (d) : (dat V c).before 1 t d = blockAt V c 1 t :=
  feat_before V (dat V c) (dat_A V c 1) (after_feat V c) t d

/-! ## The body's obligation -/

def bodyPre (c : Dev nD) (t : Fin cfg1.N) : sProp 𝕄 :=
  iprop((dat V c).Φ t.castSucc ∗ (dat V c).owesAt () t.castSucc
    ∗ (∃ d, owns (c : Thread nD τ) (segBuf t) fullShare ((dat V c).before 0 t d))
    ∗ (∃ d, owns (c : Thread nD τ) (featBuf t) fullShare ((dat V c).before 1 t d))
    ∗ (∃ d, owns (c : Thread nD τ) (outBuf t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; `t % 50` says which case the point is in; the
    invariant hands the body the accumulator (at anything before the very first point, else at what the point before
    left) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_seg, before_feat]
  rw [show (dat V c).owesAt () t.succ = (dat V c).owesAt () t.castSucc from rfl]
  rw [show (dat V c).Φ t.succ = invAt V c (t.val + 1) t.isLt from rfl, invAt_succ]
  have hN : t.val < 100 := lt_of_lt_of_eq t.isLt (show cfg1.N = 100 from N_1)
  rw [show (dat V c).leavesExact 0 t = owns (c : Thread nD τ) (segBuf t) fullShare ((dat V c).after 0 t) from by
    unfold Dat.leavesExact; rw [seg_live t], after_seg]
  rw [show (dat V c).leavesExact 1 t = owns (c : Thread nD τ) (featBuf t) fullShare ((dat V c).after 1 t) from by
    unfold Dat.leavesExact; rw [feat_live t], after_feat]
  by_cases h0 : t.val % 50 = 0
  · have h1 : ¬t.val % 50 = 49 := by omega
    have hl : ¬isLast (grid1.coords t) := fun h => h1 ((isLast_iff t).mp h)
    rw [Dat.leavesExact_idle (dat V c) 2 t (out_idle t hl) (out_kept t hl)]
    rw [stateAt_first V c t h0 h1]
    unfold accAtFirst; (try dsimp only)
    by_cases hz : t.val = 0
    · rw [inv_castSucc V c t, invAt_zero V c _ _ hz, inv_eq]
      iintro ⟨⟨⟨HS, Hoth⟩, Hg⟩, Ho, ⟨%d0, H0⟩, ⟨%d1, H1⟩, ⟨%d2, H2⟩⟩
      iapply ((runFirst c (grid1.coords t) _ _ _ _ _ _ _ _ ((isFirst_iff t).mpr h0) hl (blockAt V c 0 t) (blockAt V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
    · rw [inv_castSucc V c t, invAt_pos V c _ _ hz]
      iintro ⟨⟨⟨HS, Hoth⟩, Hg⟩, Ho, ⟨%d0, H0⟩, ⟨%d1, H1⟩, ⟨%d2, H2⟩⟩
      iapply ((runFirst c (grid1.coords t) _ _ _ _ _ _ _ _ ((isFirst_iff t).mpr h0) hl (blockAt V c 0 t) (blockAt V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hf : ¬isFirst (grid1.coords t) := fun h => h0 ((isFirst_iff t).mp h)
    by_cases h1 : t.val % 50 = 49
    · rw [show (dat V c).leavesExact 2 t = owns (c : Thread nD τ) (outBuf t) fullShare ((dat V c).after 2 t) from by
        unfold Dat.leavesExact; rw [out_live t ((isLast_iff t).mpr h1)], after_out]
      rw [stateAt_last V c t h0 h1]
      unfold outAtLast accAtLast; (try dsimp only)
      rw [inv_castSucc V c t, invAt_pos V c _ _ hz]
      iintro ⟨⟨⟨HS, Hoth⟩, Hg⟩, Ho, ⟨%d0, H0⟩, ⟨%d1, H1⟩, ⟨%d2, H2⟩⟩
      iapply ((runLast c (grid1.coords t) _ _ _ _ _ _ _ _ hf ((isLast_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · have hl : ¬isLast (grid1.coords t) := fun h => h1 ((isLast_iff t).mp h)
      rw [Dat.leavesExact_idle (dat V c) 2 t (out_idle t hl) (out_kept t hl)]
      rw [stateAt_mid V c t h0 h1]
      unfold accAtMid; (try dsimp only)
      rw [inv_castSucc V c t, invAt_pos V c _ _ hz]
      iintro ⟨⟨⟨HS, Hoth⟩, Hg⟩, Ho, ⟨%d0, H0⟩, ⟨%d1, H1⟩, ⟨%d2, H2⟩⟩
      iapply ((runMid c (grid1.coords t) _ _ _ _ _ _ _ _ hf hl (blockAt V c 0 t) (blockAt V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accMid_cover c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the two ends -/

/-- What the launch hands the body is the invariant before the first point. -/
theorem inv_in (c : Dev nD) : Pipeline.ΦA spec1 c ⊢ (dat V c).Φ 0 := by
  rw [show (dat V c).Φ 0 = invAt V c 0 (Nat.zero_le _) from rfl, invAt_zero V c 0 _ rfl]
  try exact Idealize.SL.BI.Entails.refl _

/-- After the last point the invariant gives everything back: the accumulator's contents are forgotten. -/
theorem inv_out (c : Dev nD) : (dat V c).Φ (Fin.last cfg1.N) ⊢ Pipeline.ΦA spec1 c := by
  rw [show (dat V c).Φ (Fin.last cfg1.N) = invAt V c (Fin.last cfg1.N).val (Nat.le_of_lt_succ (Fin.last cfg1.N).isLt) from rfl,
    invAt_pos V c _ _ (by rw [Fin.val_last]; have : cfg1.N = 100 := N_1; omega), inv_eq]
  iintro ⟨⟨HS, Hoth⟩, Hg⟩
  isplitl [HS Hoth]
  · isplitl [HS]
    · iexists _; iexact HS
    iexact Hoth
  iexact Hg

end Cert.KernelIdeal.R1

end
-- ==== Proof.KernelIdealRun.lean ====
/-
  The run of @main: nine items, two of them the segment-sum launches, the other seven stretches of host operations.
  Between two items every unscoped buffer of the core is held at a known valuation: the launch memory, then the host
  operations' results, and after each launch the launch's arrays at what its write-backs leave. This module fixes
  those contents (`outs`), gives each launch its record over the thread state "every unscoped buffer at the current
  valuation, the generator register at some state, nothing owed", and runs the items in order: every weakly fair
  execution terminates and every unscoped buffer ends at the last valuation.
-/
import proofs.«418325_j38482906972422_2_alg».proof.Proof.Gen.KernelIdeal.Regions
import proofs.«418325_j38482906972422_2_alg».proof.Proof.KernelIdealR0Dat
import proofs.«418325_j38482906972422_2_alg».proof.Proof.KernelIdealR1Dat
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

/-! ## The run, given the launches' records: every unscoped buffer ends at the last valuation -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- For any rest states `E` the launch makes on every core at once and that end owing nothing, any contents the
    launches leave and any proof data: given, per launch, a record entered from the thread state before it and left
    at the one after it, every weakly fair execution of @main from memory `m` with zero counters terminates, and in
    every final memory each unscoped buffer of core `c` holds what the last valuation `V9` says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ) (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩
      (fun r => ∀ c : Dev nD, ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, .rfl, .rfl, .rfl, .rfl, sep_mono .rfl (hE2 c)⟩)
    (hinit := ?_)
    (QY := fun c s => ∀ b ∈ Pipeline.ucRefs τ sig, s.mem (((c : Thread nD τ)).1, b) = V9 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (V9 m outs c) s')
    isplitl [Hh] <;> iassumption

/-! ## What the launches leave -/

section Contents

variable (m : (ℓ : Loc nD τ sig) → Buf (Elt F) ℓ)

/-- The first launch's entry contents, read at the core's own references. -/
abbrev Vtc1 : (c : Dev nD) → (b : Ref sig .tc) → Buf (Elt F) ((c : Thread nD τ).loc b) := fun c b => V1 m c (Proc.devRef .tc b)

/-- At the first launch's exit: its arrays at what the write-backs leave, every other buffer as entered. -/
def W2 (c : Dev nD) : Valuation τ sig (Elt F) :=
  Pipeline.withArrays spec0 c (V1 m c) fun w => (R0.dat (Vtc1 m) c).arrAt w cfg0.N
theorem W2_arr (c : Dev nD) (w : Fin cfg0.W) :
    W2 m c (Proc.devRef .tc (Pipeline.arrRef spec0 w)) = (R0.dat (Vtc1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb

/-- What the first launch leaves, as the unknowns the valuations are written over (read only at `main_v1`). -/
def outs0 : Outs (F := F) := fun _ r c => W2 m c (Proc.devRef .tc r)

/-- The second launch's entry contents, read at the core's own references. -/
abbrev Vtc3' : (c : Dev nD) → (b : Ref sig .tc) → Buf (Elt F) ((c : Thread nD τ).loc b) := fun c b => V3 m (outs0 m) c (Proc.devRef .tc b)

/-- At the second launch's exit: its arrays at what the write-backs leave, every other buffer as entered. -/
def W4 (c : Dev nD) : Valuation τ sig (Elt F) :=
  Pipeline.withArrays spec1 c (V3 m (outs0 m) c) fun w => (R1.dat (Vtc3' m) c).arrAt w cfg1.N
theorem W4_arr (c : Dev nD) (w : Fin cfg1.W) :
    W4 m c (Proc.devRef .tc (Pipeline.arrRef spec1 w)) = (R1.dat (Vtc3' m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = V3 m (outs0 m) c (Proc.devRef .tc b) := by
  unfold W4; exact Pipeline.withArrays_of_ne spec1 c _ _ b hb

/-- What the two launches leave: after item 1 the first launch's exit contents, after item 3 the second's. -/
def outs : Outs (F := F) := fun J r c =>
  match J with
  | 2 => W2 m c (Proc.devRef .tc r)
  | _ => W4 m c (Proc.devRef .tc r)

/-- The second launch's entry contents over `outs`: the same valuation, since the host operations between the launches
    read `outs` only at what the first launch leaves. -/
abbrev Vtc3 : (c : Dev nD) → (b : Ref sig .tc) → Buf (Elt F) ((c : Thread nD τ).loc b) := fun c b => V3 m (outs m) c (Proc.devRef .tc b)

theorem Vtc3_eq : Vtc3 m = Vtc3' m := rfl

theorem outs_main_v1 (c : Dev nD) : outs m 2 main_v1 c = (R0.dat (Vtc1 m) c).arrAt 2 cfg0.N := W2_arr m c 2
theorem outs_main_v4 (c : Dev nD) : outs m 4 main_v4 c = (R1.dat (Vtc3 m) c).arrAt 2 cfg1.N := W4_arr m c 2

end Contents

/-! ## The valuations over `outs` at the launches' exits -/

section Records

variable (m : (ℓ : Loc nD τ sig) → Buf (Elt F) ℓ)

/-- After the first launch each of its arrays holds what the write-backs leave: the output by the choice of `outs`,
    an input what it held (no block of an input is written back). -/
theorem hF0 (c : Dev nD) : ∀ w : Fin cfg0.W,
    (R0.dat (Vtc1 m) c).arrAt w cfg0.N = V2 m (outs m) c (Proc.devRef .tc (Pipeline.arrRef spec0 w))
  | 0 => ((R0.dat (Vtc1 m) c).arrAt_in 0 rfl _).trans ((R0.dat_A (Vtc1 m) c 0).trans (V2_of m (outs m) c main_v0 (by decide)).symm)
  | 1 => ((R0.dat (Vtc1 m) c).arrAt_in 1 rfl _).trans ((R0.dat_A (Vtc1 m) c 1).trans (V2_of m (outs m) c main_arg0 (by decide)).symm)
  | 2 => by
    show _ = Function.update (V1 m c) (Proc.devRef .tc main_v1) (outs m 2 main_v1 c) (Proc.devRef .tc main_v1)
    rw [Function.update_self]; exact (outs_main_v1 m c).symm
  | ⟨_ + 3, h⟩ => absurd h (Nat.not_lt.2 (Nat.le_add_left _ _))
/-- Every other buffer holds what it held at entry. -/
theorem hrest0 (c : Dev nD) : ∀ b : Ref sig .tc, b ∉ Finset.univ.image (Pipeline.arrRef spec0) →
    V2 m (outs m) c (Proc.devRef .tc b) = Vtc1 m c b :=
  fun b hb => V2_of m (outs m) c b fun h => hb (Finset.mem_image.mpr ⟨2, Finset.mem_univ _, (List.mem_singleton.mp h).symm⟩)

/-- The same after the second launch. -/
theorem hF1 (c : Dev nD) : ∀ w : Fin cfg1.W,
    (R1.dat (Vtc3 m) c).arrAt w cfg1.N = V4 m (outs m) c (Proc.devRef .tc (Pipeline.arrRef spec1 w))
  | 0 => ((R1.dat (Vtc3 m) c).arrAt_in 0 rfl _).trans ((R1.dat_A (Vtc3 m) c 0).trans (V4_of m (outs m) c main_v3 (by decide)).symm)
  | 1 => ((R1.dat (Vtc3 m) c).arrAt_in 1 rfl _).trans ((R1.dat_A (Vtc3 m) c 1).trans (V4_of m (outs m) c main_arg1 (by decide)).symm)
  | 2 => by
    show _ = Function.update (V3 m (outs m) c) (Proc.devRef .tc main_v4) (outs m 4 main_v4 c) (Proc.devRef .tc main_v4)
    rw [Function.update_self]; exact (outs_main_v4 m c).symm
  | ⟨_ + 3, h⟩ => absurd h (Nat.not_lt.2 (Nat.le_add_left _ _))
theorem hrest1 (c : Dev nD) : ∀ b : Ref sig .tc, b ∉ Finset.univ.image (Pipeline.arrRef spec1) →
    V4 m (outs m) c (Proc.devRef .tc b) = Vtc3 m c b :=
  fun b hb => V4_of m (outs m) c b fun h => hb (Finset.mem_image.mpr ⟨2, Finset.mem_univ _, (List.mem_singleton.mp h).symm⟩)

/-! ## The proof data family and the thread state -/

/-- Each launch's proof data at its entry contents. -/
def pdats : (p : Fin 2) → (c : Dev nD) → Dat τ (Elt F) Unit ℕ (UR sig nD τ) ℕ (cfgs p) c
  | ⟨0, _⟩ => fun c => R0.dat (Vtc1 m) c
  | ⟨1, _⟩ => fun c => R1.dat (Vtc3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a launch's
    invariant takes it in and gives it back) and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The launches as items -/

set_option backward.isDefEq.respectTransparency.types false in
/-- The first launch over the thread state: entered from every unscoped buffer at `V1`, left at `V2`. Its arrays are
    split out of the unscoped buffers and put back at the exit contents; the generator register goes into the
    launch's invariant and comes back; nothing is owed; the launch has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (Vtc1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vtc1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vtc1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.inv_in (Vtc1 m) c)
    unfold Pipeline.ΦA
    iintro ⟨Hp, -, Hr⟩
    isplitl [Hr]; · iexact Hr
    iexact Hp
  hout c := by
    refine (R0.inv_out (Vtc1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vtc1 m c) (fun b => V2 m (outs m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `V3`, left at `V4`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (Vtc3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vtc3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vtc3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.inv_in (Vtc3 m) c)
    unfold Pipeline.ΦA
    iintro ⟨Hp, -, Hr⟩
    isplitl [Hr]; · iexact Hr
    iexact Hp
  hout c := by
    refine (R1.inv_out (Vtc3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vtc3 m c) (fun b => V4 m (outs m) c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, and in every final memory each
    unscoped buffer of core `c` holds what the last valuation says: the launch memory taken through the seven stretches
    of host operations and the two launches' write-backs. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V9 m (outs m) c b) :=
  run_cond emb₁ () 𝒱₀ L lv (fun _ _ => rfl) m ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

/-- The arguments end as launched: no item writes one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (V9_main_arg0 m (outs m) c),
     (h c _ (mem_uc main_arg1 (by decide))).trans (V9_main_arg1 m (outs m) c),
     (h c _ (mem_uc main_arg2 (by decide))).trans (V9_main_arg2 m (outs m) c),
     (h c _ (mem_uc main_arg3 (by decide))).trans (V9_main_arg3 m (outs m) c),
     (h c _ (mem_uc main_arg4 (by decide))).trans (V9_main_arg4 m (outs m) c),
     (h c _ (mem_uc main_arg5 (by decide))).trans (V9_main_arg5 m (outs m) c),
     (h c _ (mem_uc main_arg6 (by decide))).trans (V9_main_arg6 m (outs m) c),
     (h c _ (mem_uc main_arg7 (by decide))).trans (V9_main_arg7 m (outs m) c),
     (h c _ (mem_uc main_arg8 (by decide))).trans (V9_main_arg8 m (outs m) c),
     (h c _ (mem_uc main_arg9 (by decide))).trans (V9_main_arg9 m (outs m) c),
     (h c _ (mem_uc main_arg10 (by decide))).trans (V9_main_arg10 m (outs m) c),
     (h c _ (mem_uc main_arg11 (by decide))).trans (V9_main_arg11 m (outs m) c),
     (h c _ (mem_uc main_arg12 (by decide))).trans (V9_main_arg12 m (outs m) c)⟩) (run_all m ρ)

/-- The result's buffer ends at what the last valuation says, and the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v24) = V9 m (outs m) c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v24 (by decide)),
     (h c _ (mem_uc main_arg0 (by decide))).trans (V9_main_arg0 m (outs m) c),
     (h c _ (mem_uc main_arg1 (by decide))).trans (V9_main_arg1 m (outs m) c),
     (h c _ (mem_uc main_arg2 (by decide))).trans (V9_main_arg2 m (outs m) c),
     (h c _ (mem_uc main_arg3 (by decide))).trans (V9_main_arg3 m (outs m) c),
     (h c _ (mem_uc main_arg4 (by decide))).trans (V9_main_arg4 m (outs m) c),
     (h c _ (mem_uc main_arg5 (by decide))).trans (V9_main_arg5 m (outs m) c),
     (h c _ (mem_uc main_arg6 (by decide))).trans (V9_main_arg6 m (outs m) c),
     (h c _ (mem_uc main_arg7 (by decide))).trans (V9_main_arg7 m (outs m) c),
     (h c _ (mem_uc main_arg8 (by decide))).trans (V9_main_arg8 m (outs m) c),
     (h c _ (mem_uc main_arg9 (by decide))).trans (V9_main_arg9 m (outs m) c),
     (h c _ (mem_uc main_arg10 (by decide))).trans (V9_main_arg10 m (outs m) c),
     (h c _ (mem_uc main_arg11 (by decide))).trans (V9_main_arg11 m (outs m) c),
     (h c _ (mem_uc main_arg12 (by decide))).trans (V9_main_arg12 m (outs m) c)⟩) (run_all m ρ)

end Records

end Cert.KernelIdeal.Run

end
-- ==== Proof.LibNary3.lean ====
import Idealize.ShloMosaic.Lib.StableHlo.Run

/-!
# An operation over a literal family of three references

`StableHlo.nary` over a literal family `![x, a, b]` — a concatenate of three operands — leaves in its result buffer its
function applied to the three operands' contents, each read at its own reference: the family of contents is
`Fin.cons (F ↑x) (Fin.cons (F ↑a) (Fin.cons (F ↑b) _))`, which is `fun k => F ↑(![x, a, b] k)` entry by entry. The library
states this for four references (`StableHlo.nary4_result`); this is the same statement for three.
-/

noncomputable section

namespace Idealize.ShloMosaic.StableHlo

variable {τ : Topo} {sig : RefSig} {Val : EltTy → Type}
variable {x a b y : Ref sig .tc}

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same equation, its left side not keyed on the result reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LibReadBack.lean ====
import proofs.«418325_j38482906972422_2_alg».proof.Proof.LibNary3
import Idealize.ShloMosaic.Lib.StableHlo.Run
import Idealize.ShloMosaic.PureOps
import Mathlib.Data.Fin.Tuple.Basic

/-!
# Reading a buffer back through a long line of host operations

`StableHlo.after ops V b` — buffer `b` after the operations `ops`, in order, from contents `V` — is a fold; for a literal list of
the builders' operations over literal references it is the composed term of the operations that feed `b`, over `V` at the
buffers none of them writes. `read_back` computes that term in one simplification pass, as the library's
`after_results_simp` does, with the result lemma for an operation over three literal references (a three-piece concatenate)
in the place of the library's for any family: its operands' contents then stand as the entries of a `Fin.cons` tuple, each at
a literal reference, and the tuple's entries at the literal positions 0, 1, 2 are read off (`Fin.cons_zero`, `Fin.cons_one`,
`cons3_two`), so that the pass goes on into them. The typed references of an inlined callee's operations cast contents along
equations between a buffer's type and itself: the casts are removed last.
-/

namespace Idealize.ShloMosaic.StableHlo

/-- The entry of a three-entry dependent tuple at position 2. -/
theorem cons3_two {α : Fin 3 → Sort _} (x : α 0) (p : (i : Fin 2) → α i.succ) :
    (Fin.cons x p : (i : Fin 3) → α i) 2 = p 1 := rfl

/-- A concatenate is rewritten in its list of pieces, its evidence — which speaks of the pieces' shapes only — carried along: so that
    a simplification pass goes into the pieces (the evidence's type mentions the list, which by itself keeps the pass out). -/
@[congr] theorem concatenate_congr {α : Type} (t : Shape) (a : Fin t.rank) {xs xs' : List ((s : Shape) × (s.Idx → α))}
    (e : xs = xs') (h : Shape.Concatenates (xs.map (·.1)) t a) :
    concatenate t a xs h = concatenate t a xs' (e ▸ h) := by
  subst e; rfl

/-- Reads a buffer back through a literal line of host operations (see the module's header). -/
macro "read_back" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, Fin.cons_one, cons3_two]
             try simp only [TRef.ofBuf, TRef.toBuf, cast_eq]))

end Idealize.ShloMosaic.StableHlo
-- ==== Proof.KernelIdealTail.lean ====
import proofs.«418325_j38482906972422_2_alg».proof.Proof.Gen.KernelIdeal.Regions
import proofs.«418325_j38482906972422_2_alg».proof.Proof.LibReadBack
import proofs.«418325_j38482906972422_2_alg».proof.ReferenceIdeal
import proofs.«418325_j38482906972422_2_alg».proof.Proof.Gen.ReferenceIdeal
import Idealize.ShloMosaic.Lib.StableHlo.Run

/-!
# The result buffer as a function of the two pooled arrays

After its two regions the program reduces each region's array of partial sums over its leading axis, joins the two
pooled arrays with a third (a product of two arguments plus a broadcast row) along the second axis, and sends the joined
array through three dense layers, the first two followed by a maximum with zero. mlp is that last part as a function
of the two pooled arrays and the arguments; the result buffer holds it at the two reduced arrays, and the reference
program's result is it at the reference's two scatter sums.
-/

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

/-- A row broadcast to 256 rows of width 768. -/
abbrev row768 (x : FVec F S768 .f32) : FVec F S256x768 .f32 :=
  broadcastInDim S256x768 ![0, 1] bcast_S1x768_S256x768_0_1 (broadcastInDim S1x768 ![1] bcast_S768_S1x768_1 x)

/-- The zero array a maximum is taken with. -/
abbrev zero768 : FVec F S256x768 .f32 :=
  broadcastInDim S256x768 ![] bcast_S_S256x768 (constant (F := F) S_ .f32 0x00000000#32)

/-- The program after its two reductions: the join of the two pooled arrays with the third piece, then the three dense layers. -/
def mlp (a b : FVec F S256x768 .f32) (x2 : FVec F S256x768 .f32) (x5 : FVec F S768x768 .f32) (x6 : FVec F S768 .f32)
    (x7 : FVec F S2304x768 .f32) (x8 : FVec F S768 .f32) (x9 : FVec F S768x768 .f32) (x10 : FVec F S768 .f32)
    (x11 : FVec F S768x3129 .f32) (x12 : FVec F S3129 .f32) : FVec F S256x3129 .f32 :=
  addf (Host.dotGeneral (F := F) dot_S256x768_S768x3129_S256x3129_1_0_0_1_n_n none
      (maximumf (addf (Host.dotGeneral (F := F) dot_S256x768_S768x768_S256x768_1_0_0_1_n_n none
          (maximumf (addf (Host.dotGeneral (F := F) dot_S256x2304_S2304x768_S256x768_1_0_0_1_n_n none
              (concatenate S256x2304 1 [⟨S256x768, a⟩, ⟨S256x768, b⟩,
                ⟨S256x768, addf (Host.dotGeneral (F := F) dot_S256x768_S768x768_S256x768_1_0_0_1_n_n none x2 x5) (row768 x6)⟩]
                concatenates_S256x768_S256x768_S256x768_S256x2304_d1) x7) (row768 x8)) zero768) x9) (row768 x10)) zero768) x11)
    (broadcastInDim S256x3129 ![0, 1] bcast_S1x3129_S256x3129_0_1 (broadcastInDim S1x3129 ![1] bcast_S3129_S1x3129_1 x12))

variable (m : (ℓ : Loc nD τ sig) → Buf (Elt F) ℓ) (outs : Outs (F := F))

/-! ## A buffer no later item writes -/

theorem V8_keep (c : Dev nD) (r : Ref sig .tc) (h9 : r ∉ hostOps2_4_W) : V8 m outs c r = V9 m outs c r :=
  (V9_of m outs c r h9).symm
theorem V6_keep (c : Dev nD) (r : Ref sig .tc) (h7 : r ∉ hostOps2_2_W) (h8 : r ∉ hostOps2_3_W) (h9 : r ∉ hostOps2_4_W) :
    V6 m outs c r = V9 m outs c r :=
  ((V7_of m outs c r h7).symm.trans (V8_of m outs c r h8).symm).trans (V9_of m outs c r h9).symm
theorem V4_keep (c : Dev nD) (r : Ref sig .tc) (h5 : r ∉ hostOps2_W) (h6 : r ∉ hostOps2_1_W) (h7 : r ∉ hostOps2_2_W)
    (h8 : r ∉ hostOps2_3_W) (h9 : r ∉ hostOps2_4_W) : V4 m outs c r = V9 m outs c r :=
  ((V5_of m outs c r h5).symm.trans (V6_of m outs c r h6).symm).trans (V6_keep m outs c r h7 h8 h9)

/-! ## The host stretches, last to first -/

/-- The last stretch: the third dense layer. -/
theorem V9_v24 (c : Dev nD) : V9 m outs c (Proc.devRef .tc main_v24)
    = addf (Host.dotGeneral (F := F) dot_S256x768_S768x3129_S256x3129_1_0_0_1_n_n none
        (V8 m outs c (Proc.devRef .tc main_v20)) (V8 m outs c (Proc.devRef .tc main_arg11)))
        (broadcastInDim S256x3129 ![0, 1] bcast_S1x3129_S256x3129_0_1 (broadcastInDim S1x3129 ![1] bcast_S3129_S1x3129_1 (V8 m outs c (Proc.devRef .tc main_arg12)))) := by
  show StableHlo.after hostOps2_4 (V8 m outs c) (Proc.devRef .tc main_v24) = _
  read_back

/-- The second maximum with zero. -/
theorem V8_v20 (c : Dev nD) : V8 m outs c (Proc.devRef .tc main_v20)
    = maximumf (V7 m outs c (Proc.devRef .tc main_v19)) (zero768 (F := F)) := by
  show StableHlo.after hostOps2_3 (V7 m outs c) (Proc.devRef .tc main_v20) = _
  read_back

/-- The second dense layer. -/
theorem V7_v19 (c : Dev nD) : V7 m outs c (Proc.devRef .tc main_v19)
    = addf (Host.dotGeneral (F := F) dot_S256x768_S768x768_S256x768_1_0_0_1_n_n none
        (V6 m outs c (Proc.devRef .tc main_v15)) (V6 m outs c (Proc.devRef .tc main_arg9)))
        (row768 (V6 m outs c (Proc.devRef .tc main_arg10))) := by
  show StableHlo.after hostOps2_2 (V6 m outs c) (Proc.devRef .tc main_v19) = _
  read_back

/-- The first maximum with zero. -/
theorem V6_v15 (c : Dev nD) : V6 m outs c (Proc.devRef .tc main_v15)
    = maximumf (V5 m outs c (Proc.devRef .tc main_v14)) (zero768 (F := F)) := by
  show StableHlo.after hostOps2_1 (V5 m outs c) (Proc.devRef .tc main_v15) = _
  read_back

/-- The long stretch: the second reduction, the third piece, the join, the first dense layer. -/
theorem V5_v14 (c : Dev nD) : V5 m outs c (Proc.devRef .tc main_v14)
    = addf (Host.dotGeneral (F := F) dot_S256x2304_S2304x768_S256x768_1_0_0_1_n_n none
        (concatenate S256x2304 1 [⟨S256x768, V4 m outs c (Proc.devRef .tc main_v2)⟩,
          ⟨S256x768, Host.reduceAdd (F := F) (V4 m outs c (Proc.devRef .tc main_v4)) (constant (F := F) S_ .f32 0x00000000#32) reducesTo_S2x256x768_S256x768_d0 h_S_⟩,
          ⟨S256x768, addf (Host.dotGeneral (F := F) dot_S256x768_S768x768_S256x768_1_0_0_1_n_n none
              (V4 m outs c (Proc.devRef .tc main_arg2)) (V4 m outs c (Proc.devRef .tc main_arg5)))
            (row768 (V4 m outs c (Proc.devRef .tc main_arg6)))⟩]
          concatenates_S256x768_S256x768_S256x768_S256x2304_d1)
        (V4 m outs c (Proc.devRef .tc main_arg7)))
        (row768 (V4 m outs c (Proc.devRef .tc main_arg8))) := by
  show StableHlo.after hostOps2 (V4 m outs c) (Proc.devRef .tc main_v14) = _
  read_back
  rfl

/-- The first reduction. -/
theorem V3_v2 (c : Dev nD) : V3 m outs c (Proc.devRef .tc main_v2)
    = Host.reduceAdd (F := F) (V2 m outs c (Proc.devRef .tc main_v1)) (constant (F := F) S_ .f32 0x00000000#32) reducesTo_S2x256x768_S256x768_d0 h_S_ := by
  show StableHlo.after hostOps1 (V2 m outs c) (Proc.devRef .tc main_v2) = _
  read_back

/-- What the regions leave, read at their own buffers. -/
theorem V2_v1 (c : Dev nD) : V2 m outs c (Proc.devRef .tc main_v1) = outs 2 main_v1 c := Function.update_self ..
theorem V4_v4 (c : Dev nD) : V4 m outs c (Proc.devRef .tc main_v4) = outs 4 main_v4 c := Function.update_self ..

/-! ## The result buffer -/

/-- The result buffer after the last item: mlp at the two regions' arrays of partial sums, each reduced over its
    leading axis, and the arguments as launched. -/
theorem V9_main_v24 (c : Dev nD) : V9 m outs c (Proc.devRef .tc main_v24)
    = mlp (F := F)
        (Host.reduceAdd (F := F) (outs 2 main_v1 c) (constant (F := F) S_ .f32 0x00000000#32) reducesTo_S2x256x768_S256x768_d0 h_S_)
        (Host.reduceAdd (F := F) (outs 4 main_v4 c) (constant (F := F) S_ .f32 0x00000000#32) reducesTo_S2x256x768_S256x768_d0 h_S_)
        (m ((c : Thread nD τ).loc main_arg2)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) := by
  rw [V9_v24, V8_v20, V7_v19, V6_v15, V5_v14, V4_v4, V4_of m outs c main_v2 (by decide), V3_v2, V2_v1,
    V8_keep m outs c main_arg11 (by decide), V9_main_arg11,
    V8_keep m outs c main_arg12 (by decide), V9_main_arg12,
    V6_keep m outs c main_arg9 (by decide) (by decide) (by decide), V9_main_arg9,
    V6_keep m outs c main_arg10 (by decide) (by decide) (by decide), V9_main_arg10,
    V4_keep m outs c main_arg2 (by decide) (by decide) (by decide) (by decide) (by decide), V9_main_arg2,
    V4_keep m outs c main_arg5 (by decide) (by decide) (by decide) (by decide) (by decide), V9_main_arg5,
    V4_keep m outs c main_arg6 (by decide) (by decide) (by decide) (by decide) (by decide), V9_main_arg6,
    V4_keep m outs c main_arg7 (by decide) (by decide) (by decide) (by decide) (by decide), V9_main_arg7,
    V4_keep m outs c main_arg8 (by decide) (by decide) (by decide) (by decide) (by decide), V9_main_arg8]
  rfl

/-! ## The reference program's result -/

/-- The reference program's result term, its thirteen arguments named: mlp at the reference's two scatter sums (its two
    pooled arrays). The two programs' shapes, dimension records and shape facts are the same literals under two names. -/
theorem ref_eq_mlp (x0 x1 : FVec F Cert.ReferenceIdeal.S300000x768 .f32) (x2 : FVec F Cert.ReferenceIdeal.S256x768 .f32)
    (x3 x4 : IVec Cert.ReferenceIdeal.S300000 32) (x5 : FVec F Cert.ReferenceIdeal.S768x768 .f32) (x6 : FVec F Cert.ReferenceIdeal.S768 .f32)
    (x7 : FVec F Cert.ReferenceIdeal.S2304x768 .f32) (x8 : FVec F Cert.ReferenceIdeal.S768 .f32) (x9 : FVec F Cert.ReferenceIdeal.S768x768 .f32)
    (x10 : FVec F Cert.ReferenceIdeal.S768 .f32) (x11 : FVec F Cert.ReferenceIdeal.S768x3129 .f32) (x12 : FVec F Cert.ReferenceIdeal.S3129 .f32) :
    addf (Host.dotGeneral (F := F) Cert.ReferenceIdeal.dot_S256x768_S768x3129_S256x3129_1_0_0_1_n_n none (maximumf (addf (Host.dotGeneral (F := F) Cert.ReferenceIdeal.dot_S256x768_S768x768_S256x768_1_0_0_1_n_n none (maximumf (addf (Host.dotGeneral (F := F) Cert.ReferenceIdeal.dot_S256x2304_S2304x768_S256x768_1_0_0_1_n_n none (concatenate Cert.ReferenceIdeal.S256x2304 1 [⟨Cert.ReferenceIdeal.S256x768, (Host.scatterAdd (F := F) Cert.ReferenceIdeal.scatter_S256x768_S300000x1_S300000x768_1_0_0_1 (broadcastInDim Cert.ReferenceIdeal.S256x768 ![] Cert.ReferenceIdeal.Gen.bcast_S_S256x768 (constant (F := F) Cert.ReferenceIdeal.S_ .f32 0x00000000#32)) (broadcastInDim Cert.ReferenceIdeal.S300000x1 ![0] Cert.ReferenceIdeal.Gen.bcast_S300000_S300000x1_0 x3) x0)⟩, ⟨Cert.ReferenceIdeal.S256x768, (Host.scatterAdd (F := F) Cert.ReferenceIdeal.scatter_S256x768_S300000x1_S300000x768_1_0_0_1 (broadcastInDim Cert.ReferenceIdeal.S256x768 ![] Cert.ReferenceIdeal.Gen.bcast_S_S256x768 (constant (F := F) Cert.ReferenceIdeal.S_ .f32 0x00000000#32)) (broadcastInDim Cert.ReferenceIdeal.S300000x1 ![0] Cert.ReferenceIdeal.Gen.bcast_S300000_S300000x1_0 x4) x1)⟩, ⟨Cert.ReferenceIdeal.S256x768, (addf (Host.dotGeneral (F := F) Cert.ReferenceIdeal.dot_S256x768_S768x768_S256x768_1_0_0_1_n_n none x2 x5) (broadcastInDim Cert.ReferenceIdeal.S256x768 ![0, 1] Cert.ReferenceIdeal.Gen.bcast_S1x768_S256x768_0_1 (broadcastInDim Cert.ReferenceIdeal.S1x768 ![1] Cert.ReferenceIdeal.Gen.bcast_S768_S1x768_1 x6)))⟩] Cert.ReferenceIdeal.Gen.concatenates_S256x768_S256x768_S256x768_S256x2304_d1) x7) (broadcastInDim Cert.ReferenceIdeal.S256x768 ![0, 1] Cert.ReferenceIdeal.Gen.bcast_S1x768_S256x768_0_1 (broadcastInDim Cert.ReferenceIdeal.S1x768 ![1] Cert.ReferenceIdeal.Gen.bcast_S768_S1x768_1 x8))) (broadcastInDim Cert.ReferenceIdeal.S256x768 ![] Cert.ReferenceIdeal.Gen.bcast_S_S256x768 (constant (F := F) Cert.ReferenceIdeal.S_ .f32 0x00000000#32))) x9) (broadcastInDim Cert.ReferenceIdeal.S256x768 ![0, 1] Cert.ReferenceIdeal.Gen.bcast_S1x768_S256x768_0_1 (broadcastInDim Cert.ReferenceIdeal.S1x768 ![1] Cert.ReferenceIdeal.Gen.bcast_S768_S1x768_1 x10))) (broadcastInDim Cert.ReferenceIdeal.S256x768 ![] Cert.ReferenceIdeal.Gen.bcast_S_S256x768 (constant (F := F) Cert.ReferenceIdeal.S_ .f32 0x00000000#32))) x11) (broadcastInDim Cert.ReferenceIdeal.S256x3129 ![0, 1] Cert.ReferenceIdeal.Gen.bcast_S1x3129_S256x3129_0_1 (broadcastInDim Cert.ReferenceIdeal.S1x3129 ![1] Cert.ReferenceIdeal.Gen.bcast_S3129_S1x3129_1 x12))
    = mlp (F := F)
        (Host.scatterAdd (F := F) Cert.ReferenceIdeal.scatter_S256x768_S300000x1_S300000x768_1_0_0_1 (broadcastInDim Cert.ReferenceIdeal.S256x768 ![] Cert.ReferenceIdeal.Gen.bcast_S_S256x768 (constant (F := F) Cert.ReferenceIdeal.S_ .f32 0x00000000#32)) (broadcastInDim Cert.ReferenceIdeal.S300000x1 ![0] Cert.ReferenceIdeal.Gen.bcast_S300000_S300000x1_0 x3) x0)
        (Host.scatterAdd (F := F) Cert.ReferenceIdeal.scatter_S256x768_S300000x1_S300000x768_1_0_0_1 (broadcastInDim Cert.ReferenceIdeal.S256x768 ![] Cert.ReferenceIdeal.Gen.bcast_S_S256x768 (constant (F := F) Cert.ReferenceIdeal.S_ .f32 0x00000000#32)) (broadcastInDim Cert.ReferenceIdeal.S300000x1 ![0] Cert.ReferenceIdeal.Gen.bcast_S300000_S300000x1_0 x4) x1)
        x2 x5 x6 x7 x8 x9 x10 x11 x12 := rfl

end Cert.KernelIdeal.Tail

end
-- ==== Proof.KernelIdealR0Pieces.lean ====
/-
  The first segment-sum launch: what the three cases of the body leave, in terms of the body's own arithmetic, and
  the accumulator after each point as a chain of accumulation steps. `k0_pay1` is the cleared accumulator, `k0_pay2 s x a`
  the accumulator `a` after the tile with segment column `s` and features `x`, `k0_pay3` the accumulator laid out as
  an output block.
-/
import proofs.«418325_j38482906972422_2_alg».proof.Proof.KernelIdealR0Dat
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off2 : (![0, 0] : Fin 2 → Nat) = fun _ => 0 := funext fun a => by fin_cases a <;> rfl
theorem off3 : (![0, 0, 0] : Fin 3 → Nat) = fun _ => 0 := funext fun a => by fin_cases a <;> rfl

/-- A first tile: the cleared accumulator, stepped once. -/
theorem accAtFirst_eq (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) :
    accAtFirst c i arg2 harg2 arg3 harg3 arg4 harg4 arg5 harg5 hc0 hc1 x0 x1 = k0_pay2 x0 x1 (k0_pay1 (F := F)) := by
  unfold accAtFirst
  rw [View.read_writes_eq_canon _ _ _ (accFirst_cover c i arg2 harg2 arg3 harg3 arg4 harg4 arg5 harg5 hc0 hc1 x0 x1)]
  unfold runFirst
  dsimp only
  sl_unfold_words
  rw [View.canon_cons_unit_zero (S := S256x768) off2, View.readCov_unit_zero (S := S256x768) _ off2]
  simp only [View.readAt_eq_ld, harg2.read_unread, harg3.read_unread, View.ld_unit_zero (S := S3000x1) off2,
    View.ld_unit_zero (S := S3000x768) off2, View.ld_unit_zero (S := S256x768) off2]

/-- A middle tile: what the point before left, stepped once. -/
theorem accAtMid_eq (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) :
    accAtMid c i arg2 harg2 arg3 harg3 arg4 harg4 arg5 harg5 hc0 hc1 x0 x1 xs = k0_pay2 x0 x1 xs := by
  unfold accAtMid
  rw [View.read_writes_eq_canon _ _ _ (accMid_cover c i arg2 harg2 arg3 harg3 arg4 harg4 arg5 harg5 hc0 hc1 x0 x1 xs)]
  unfold runMid
  dsimp only
  sl_unfold_words
  rw [View.canon_unit_zero off2]
  simp only [View.readAt_eq_ld, harg2.read_unread, harg3.read_unread, harg5.read_unread, View.ld_unit_zero (S := S3000x1) off2,
    View.ld_unit_zero (S := S3000x768) off2, View.ld_unit_zero (S := S256x768) off2]

/-- A last tile leaves the same in the accumulator, -/
theorem accAtLast_eq (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) :
    accAtLast c i arg2 harg2 arg3 harg3 arg4 harg4 arg5 harg5 hc0 hc1 x0 x1 xs = k0_pay2 x0 x1 xs := by
  unfold accAtLast
  rw [View.read_writes_eq_canon _ _ _ (accLast_cover c i arg2 harg2 arg3 harg3 arg4 harg4 arg5 harg5 hc0 hc1 x0 x1 xs)]
  unfold runLast
  dsimp only
  sl_unfold_words
  rw [View.canon_unit_zero off2]
  simp only [View.readAt_eq_ld, harg2.read_unread, harg3.read_unread, harg5.read_unread, View.ld_unit_zero (S := S3000x1) off2,
    View.ld_unit_zero (S := S3000x768) off2, View.ld_unit_zero (S := S256x768) off2]

/-- and that, laid out as a block, in the output. -/
theorem outAtLast_eq (c : Dev nD) (i : grid0.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) :
    outAtLast c i arg2 harg2 arg3 harg3 arg4 harg4 arg5 harg5 hc0 hc1 x0 x1 xs = k0_pay3 (k0_pay2 x0 x1 xs) := by
  unfold outAtLast
  rw [View.read_writes_eq_canon _ _ _ (outLast_cover c i arg2 harg2 arg3 harg3 arg4 harg4 arg5 harg5 hc0 hc1 x0 x1 xs)]
  unfold runLast
  dsimp only
  sl_unfold_words
  rw [View.canon_unit_zero off3]
  simp only [View.readAt_eq_ld, harg2.read_unread, harg3.read_unread, harg5.read_unread, View.ld_unit_zero (S := S3000x1) off2,
    View.ld_unit_zero (S := S3000x768) off2, View.ld_unit_zero (S := S256x768) off2, View.readCov_unit_zero (S := S256x768) _ off2]

/-! ## The accumulator after each point -/

/-- The accumulator after point `n`, as accumulation steps from the last clearing. -/
def accChain (c : Dev nD) : (n : ℕ) → n < cfg0.N → Vec F S256x768 .f32
  | 0, h => k0_pay2 (blockAt V c 0 ⟨0, h⟩) (blockAt V c 1 ⟨0, h⟩) (k0_pay1 (F := F))
  | n + 1, h =>
    if (n + 1) % 50 = 0 then k0_pay2 (blockAt V c 0 ⟨n + 1, h⟩) (blockAt V c 1 ⟨n + 1, h⟩) (k0_pay1 (F := F))
    else k0_pay2 (blockAt V c 0 ⟨n + 1, h⟩) (blockAt V c 1 ⟨n + 1, h⟩) (accChain c n (Nat.lt_of_succ_lt h))

/-- It is what the proof data's recursion holds in the accumulator. -/
theorem stateAt_acc (c : Dev nD) : ∀ (n : ℕ) (h : n < cfg0.N), (stateAt V c n h).2 = accChain V c n h
  | 0, h => by
    rw [stateAt_first V c ⟨0, h⟩ rfl (by show ¬ (0 % 50 = 49); decide)]
    dsimp only
    rw [accAtFirst_eq]
    rfl
  | n + 1, h => by
    have hN : cfg0.N = 100 := N_0
    have ih := stateAt_acc c n (Nat.lt_of_succ_lt h)
    by_cases h0 : (n + 1) % 50 = 0
    · have h1 : ¬(n + 1) % 50 = 49 := by omega
      rw [stateAt_first V c ⟨n + 1, h⟩ h0 h1]
      dsimp only
      rw [accAtFirst_eq]
      conv_rhs => unfold accChain
      rw [if_pos h0]
    · by_cases h1 : (n + 1) % 50 = 49
      · rw [stateAt_last V c ⟨n + 1, h⟩ h0 h1]
        dsimp only
        rw [accAtLast_eq]
        show k0_pay2 _ _ (stateAt V c n _).2 = _
        rw [ih]
        conv_rhs => unfold accChain
        rw [if_neg h0]
      · rw [stateAt_mid V c ⟨n + 1, h⟩ h0 h1]
        dsimp only
        rw [accAtMid_eq]
        show k0_pay2 _ _ (stateAt V c n _).2 = _
        rw [ih]
        conv_rhs => unfold accChain
        rw [if_neg h0]

/-- At the last tile of a half the output block's buffer holds the accumulator, laid out as a block. -/
theorem stateAt_out (c : Dev nD) : ∀ (n : ℕ) (h : n < cfg0.N), n % 50 = 49 →
    (stateAt V c n h).1 = k0_pay3 (accChain V c n h)
  | 0, h, h1 => absurd h1 (by decide)
  | n + 1, h, h1 => by
    have h0 : ¬(n + 1) % 50 = 0 := by omega
    rw [stateAt_last V c ⟨n + 1, h⟩ h0 h1]
    dsimp only
    rw [outAtLast_eq]
    show k0_pay3 (k0_pay2 _ _ (stateAt V c n _).2) = _
    rw [stateAt_acc V c n]
    conv_rhs => unfold accChain
    rw [if_neg h0]

end Cert.KernelIdeal.R0

end
-- ==== Proof.PayValue.lean ====
import proofs.«418325_j38482906972422_2_alg».proof.KernelIdeal
import proofs.«418325_j38482906972422_2_alg».proof.Proof.Gen.KernelIdeal
import proofs.«418325_j38482906972422_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KernelIdeal.PayValue

open Idealize.ShloMosaic Idealize.ShloMosaic.ValueIdx Cert.KernelIdeal Cert.KernelIdeal.Gen

/-! ## The contraction's operand indices

The matmul contracts axis 0 of both operands: at output index (b, h) and contraction position k the left
operand is read at (k, b) and the right operand at (k, h). -/

theorem lhs_dot_0 (i : S256x768.Idx) (q : dot_S3000x256_S3000x768_S256x768_0_0_1_1_n_n.contr.Idx) :
    (dot_S3000x256_S3000x768_S256x768_0_0_1_1_n_n.lhsIdx i q 0).val = (q ⟨0, by decide⟩).val :=
  dot_S3000x256_S3000x768_S256x768_0_0_1_1_n_n.lhsIdx_val_of_single rfl i q
theorem lhs_dot_1 (i : S256x768.Idx) (q : dot_S3000x256_S3000x768_S256x768_0_0_1_1_n_n.contr.Idx) :
    (dot_S3000x256_S3000x768_S256x768_0_0_1_1_n_n.lhsIdx i q 1).val = (i 0).val := by
  unfold DotDims.lhsIdx
  rw [dif_neg (show ¬(1 : Fin S3000x256.rank) ∈ dot_S3000x256_S3000x768_S256x768_0_0_1_1_n_n.lhsBatch by decide), dif_pos (show (1 : Fin S3000x256.rank) ∈ dot_S3000x256_S3000x768_S256x768_0_0_1_1_n_n.lhsNonContracting by decide)]
  rfl
theorem rhs_dot_0 (i : S256x768.Idx) (q : dot_S3000x256_S3000x768_S256x768_0_0_1_1_n_n.contr.Idx) :
    (dot_S3000x256_S3000x768_S256x768_0_0_1_1_n_n.rhsIdx i q 0).val = (q ⟨0, by decide⟩).val :=
  dot_S3000x256_S3000x768_S256x768_0_0_1_1_n_n.rhsIdx_val_of_single rfl i q
theorem rhs_dot_1 (i : S256x768.Idx) (q : dot_S3000x256_S3000x768_S256x768_0_0_1_1_n_n.contr.Idx) :
    (dot_S3000x256_S3000x768_S256x768_0_0_1_1_n_n.rhsIdx i q 1).val = (i 1).val := by
  unfold DotDims.rhsIdx
  rw [dif_neg (show ¬(1 : Fin S3000x768.rank) ∈ dot_S3000x256_S3000x768_S256x768_0_0_1_1_n_n.rhsBatch by decide), dif_pos (show (1 : Fin S3000x768.rank) ∈ dot_S3000x256_S3000x768_S256x768_0_0_1_1_n_n.rhsNonContracting by decide)]
  rfl

/-- The matmul into the zero accumulator, read at (b, h): the sum over the 3000 rows k of l (k, b) * r (k, h). -/
theorem matmul_zero_apply {φ₁ φ₂ : FTy} (l : FVec Ideal S3000x256 φ₁) (r : FVec Ideal S3000x768 φ₂) (b : Fin 256) (h : Fin 768) :
    FloatOps.matmul dot_S3000x256_S3000x768_S256x768_0_0_1_1_n_n none l r (constant (F := Ideal) S256x768 .f32 0x00000000#32) (ix2 b h)
      = ∑ k : Fin 3000, l (ix2 k b) * r (ix2 k h) := by
  refine (Ideal.matmul_constant_zero_apply dot_S3000x256_S3000x768_S256x768_0_0_1_1_n_n none l r (ix2 b h)).trans ?_
  rw [← Equiv.sum_comp (contrEquiv1 dot_S3000x256_S3000x768_S256x768_0_0_1_1_n_n 3000 rfl rfl).symm]
  refine Finset.sum_congr rfl fun k _ => ?_
  have hk := contrEquiv1_symm_val dot_S3000x256_S3000x768_S256x768_0_0_1_1_n_n 3000 rfl rfl k
  have el : dot_S3000x256_S3000x768_S256x768_0_0_1_1_n_n.lhsIdx (ix2 b h) ((contrEquiv1 dot_S3000x256_S3000x768_S256x768_0_0_1_1_n_n 3000 rfl rfl).symm k) = ix2 k b := funext fun a => Fin.ext (by
    match a with
    | ⟨0, _⟩ => exact (lhs_dot_0 _ _).trans hk
    | ⟨1, _⟩ => exact lhs_dot_1 _ _)
  have er : dot_S3000x256_S3000x768_S256x768_0_0_1_1_n_n.rhsIdx (ix2 b h) ((contrEquiv1 dot_S3000x256_S3000x768_S256x768_0_0_1_1_n_n 3000 rfl rfl).symm k) = ix2 k h := funext fun a => Fin.ext (by
    match a with
    | ⟨0, _⟩ => exact (rhs_dot_0 _ _).trans hk
    | ⟨1, _⟩ => exact rhs_dot_1 _ _)
  rw [el, er]

/-! ## The one-hot operand

Row r, column b of the left operand is 1 when the segment id of row r is b, and 0 otherwise: the comparison's
bit widened to a 32-bit word and converted exactly. -/

/-- The one-hot operand built from the segment column. -/
abbrev onehot (v3 : Vec Ideal S3000x1 .i32) : FVec Ideal S3000x256 .bf16 :=
  truncf .bf16
    (sitofp (F := Ideal) .f32
      (extui 32
        (cmpi .eq
          (broadcastTo S3000x256 (shapeCast S3000x1 v3 shapeCasts_S3000x1_S3000x1) broadcasts_S3000x1_S3000x256)
          (iota .tc S3000x256 32 [1] iota_S3000x256_d1_w32))
        natLt_1_32))
    bitsLt_bf16_f32

theorem onehot_apply (v3 : Vec Ideal S3000x1 .i32) (r : Fin 3000) (b : Fin 256) :
    onehot v3 (ix2 r b) = if v3 (ix2 r (0 : Fin 1)) = BitVec.ofNat 32 b.val then 1 else 0 := by
  have hb : broadcastTo S3000x256 (shapeCast S3000x1 v3 shapeCasts_S3000x1_S3000x1) broadcasts_S3000x1_S3000x256 (ix2 r b)
      = v3 (ix2 r (0 : Fin 1)) := by
    refine (broadcastTo_apply _ broadcasts_S3000x1_S3000x256 (ix2 r b) (ix2 r (0 : Fin 1)) (fun a => ?_)).trans ?_
    · match a with
      | ⟨0, _⟩ => show r.val = if (3000 : Nat) = 1 then 0 else r.val; rw [if_neg (by decide)]
      | ⟨1, _⟩ => show 0 = if (1 : Nat) = 1 then 0 else b.val; rw [if_pos rfl]
    · rw [shapeCast_self]
  have hi : iota .tc S3000x256 32 [1] iota_S3000x256_d1_w32 (ix2 r b) = BitVec.ofNat 32 b.val :=
    iota_single_apply .tc S3000x256 32 1 iota_S3000x256_d1_w32 (ix2 r b)
  show (((((IntOp.cmpi .eq
      (broadcastTo S3000x256 (shapeCast S3000x1 v3 shapeCasts_S3000x1_S3000x1) broadcasts_S3000x1_S3000x256 (ix2 r b))
      (iota .tc S3000x256 32 [1] iota_S3000x256_d1_w32 (ix2 r b))).setWidth 32).toInt : ℝ) : EReal)) = _
  rw [hb, hi]
  by_cases hc : v3 (ix2 r (0 : Fin 1)) = BitVec.ofNat 32 b.val
  · rw [if_pos hc, hc]
    have : IntOp.cmpi .eq (BitVec.ofNat 32 b.val) (BitVec.ofNat 32 b.val) = 1#1 := by
      simp [IntOp.cmpi]
    rw [this]
    have h1 : ((1#1).setWidth 32).toInt = 1 := by decide
    rw [h1]; simp
  · rw [if_neg hc]
    have hne : (v3 (ix2 r (0 : Fin 1)) == BitVec.ofNat 32 b.val) = false := beq_eq_false_iff_ne.mpr hc
    have : IntOp.cmpi .eq (v3 (ix2 r (0 : Fin 1))) (BitVec.ofNat 32 b.val) = 0#1 := by
      simp only [IntOp.cmpi]
      rw [hne]
      rfl
    rw [this]
    have h0 : ((0#1).setWidth 32).toInt = 0 := by decide
    rw [h0]; simp

/-! ## The accumulated block

The value is split as hi + lo with hi = x and lo = x - x. At a real x the low part is 0, so the second product
sum vanishes, and the first is the sum of the rows whose segment id is b. -/

theorem accum_apply (v3 : Vec Ideal S3000x1 .i32) (v11 : Vec Ideal S3000x768 .f32)
    (hfin : ∀ i, ∃ x : ℝ, v11 i = (x : EReal)) (b : Fin 256) (h : Fin 768) :
    addf
        (matmul dot_S3000x256_S3000x768_S256x768_0_0_1_1_n_n none (onehot v3)
          (truncf .bf16 v11 bitsLt_bf16_f32) (constant (F := Ideal) S256x768 .f32 0x00000000#32))
        (matmul dot_S3000x256_S3000x768_S256x768_0_0_1_1_n_n none (onehot v3)
          (truncf .bf16 (subf v11 v11) bitsLt_bf16_f32) (constant (F := Ideal) S256x768 .f32 0x00000000#32))
        (ix2 b h)
      = ∑ r : Fin 3000, if v3 (ix2 r (0 : Fin 1)) = BitVec.ofNat 32 b.val then v11 (ix2 r h) else 0 := by
  refine (congrArg₂ (· + ·) (matmul_zero_apply _ _ b h) (matmul_zero_apply _ _ b h)).trans ?_
  have hlo : ∑ k : Fin 3000, onehot v3 (ix2 k b) * (truncf .bf16 (subf v11 v11) bitsLt_bf16_f32 : FVec Ideal S3000x768 .bf16) (ix2 k h) = 0 := by
    refine Finset.sum_eq_zero fun k _ => ?_
    obtain ⟨x, hx⟩ := hfin (ix2 k h)
    show onehot v3 (ix2 k b) * (v11 (ix2 k h) - v11 (ix2 k h)) = 0
    rw [hx, ← EReal.coe_sub, sub_self, EReal.coe_zero, mul_zero]
  rw [hlo, add_zero]
  refine Finset.sum_congr rfl fun k _ => ?_
  show onehot v3 (ix2 k b) * v11 (ix2 k h) = _
  rw [onehot_apply]
  by_cases hc : v3 (ix2 k (0 : Fin 1)) = BitVec.ofNat 32 b.val
  · rw [if_pos hc, if_pos hc, one_mul]
  · rw [if_neg hc, if_neg hc, zero_mul]

/-! ## The three payloads of the first launch at an index

The first is the zero block, the second the accumulation step, the third the block stored with a leading
unit axis. -/

theorem pay1_apply (j : S256x768.Idx) : k0_pay1 (F := Ideal) j = 0 := by
  unfold k0_pay1
  rw [shapeCast_self]
  exact Ideal.ofBits_zero_f32

theorem pay2_apply (v3 : Vec Ideal S3000x1 .i32) (v11 : Vec Ideal S3000x768 .f32) (v19 : Vec Ideal S256x768 .f32)
    (hfin : ∀ i, ∃ x : ℝ, v11 i = (x : EReal)) (b : Fin 256) (h : Fin 768) :
    k0_pay2 (F := Ideal) v3 v11 v19 (ix2 b h)
      = v19 (ix2 b h) + ∑ r : Fin 3000, if v3 (ix2 r (0 : Fin 1)) = BitVec.ofNat 32 b.val then v11 (ix2 r h) else 0 := by
  unfold k0_pay2
  refine (congrFun (shapeCast_self _ shapeCasts_S256x768_S256x768) (ix2 b h)).trans ?_
  refine congrArg (v19 (ix2 b h) + ·) ?_
  exact accum_apply v3 v11 hfin b h

theorem pay3_apply (v27 : Vec Ideal S256x768 .f32) (b : Fin 256) (h : Fin 768) :
    k0_pay3 (F := Ideal) v27 (ix3 (0 : Fin 1) b h) = v27 (ix2 b h) := by
  unfold k0_pay3
  refine (shapeCast_addUnit_apply ![256, 768] v27 shapeCasts_S256x768_S1x256x768 (ix3 (0 : Fin 1) b h)).trans ?_
  exact congrArg v27 (funext fun a => by match a with | ⟨0, _⟩ => rfl | ⟨1, _⟩ => rfl)

/-! ## The same three payloads of the second launch -/

theorem pay1'_apply (j : S256x768.Idx) : k1_pay1 (F := Ideal) j = 0 := by
  unfold k1_pay1
  rw [shapeCast_self]
  exact Ideal.ofBits_zero_f32

theorem pay2'_apply (v3 : Vec Ideal S3000x1 .i32) (v11 : Vec Ideal S3000x768 .f32) (v19 : Vec Ideal S256x768 .f32)
    (hfin : ∀ i, ∃ x : ℝ, v11 i = (x : EReal)) (b : Fin 256) (h : Fin 768) :
    k1_pay2 (F := Ideal) v3 v11 v19 (ix2 b h)
      = v19 (ix2 b h) + ∑ r : Fin 3000, if v3 (ix2 r (0 : Fin 1)) = BitVec.ofNat 32 b.val then v11 (ix2 r h) else 0 := by
  unfold k1_pay2
  refine (congrFun (shapeCast_self _ shapeCasts_S256x768_S256x768) (ix2 b h)).trans ?_
  refine congrArg (v19 (ix2 b h) + ·) ?_
  exact accum_apply v3 v11 hfin b h

theorem pay3'_apply (v27 : Vec Ideal S256x768 .f32) (b : Fin 256) (h : Fin 768) :
    k1_pay3 (F := Ideal) v27 (ix3 (0 : Fin 1) b h) = v27 (ix2 b h) := by
  unfold k1_pay3
  refine (shapeCast_addUnit_apply ![256, 768] v27 shapeCasts_S256x768_S1x256x768 (ix3 (0 : Fin 1) b h)).trans ?_
  exact congrArg v27 (funext fun a => by match a with | ⟨0, _⟩ => rfl | ⟨1, _⟩ => rfl)

end Cert.KernelIdeal.PayValue

end
-- ==== Proof.LibBlockSum.lean ====
/-
  A filtered sum over the first `B * (t + 1)` positions of `Fin N`, split into the first `B * t` positions and
  the block of `B` positions after them.

  This is the arithmetic of an accumulator that visits an array block by block: after block `t` it holds the sum
  over the positions below `B * (t + 1)`; the positions of block `t` are `B * t + n` for `n < B`.
-/
import Mathlib.Algebra.BigOperators.Group.Finset.Basic
import Mathlib.Data.Fintype.Basic
import Mathlib.Data.Fin.Basic

open scoped BigOperators

namespace BlockSum

/-- Position `n` of block `t`, as a position of the whole array. -/
def pos {N B : Nat} (t : Nat) (hN : B * (t + 1) ≤ N) (n : Fin B) : Fin N :=
  ⟨B * t + n.val, by have := n.isLt; rw [Nat.mul_succ] at hN; omega⟩

/-- Nothing lies below position `B * 0`. -/
theorem sum_below_zero {M : Type} [AddCommMonoid M] {N B : Nat} (p : Fin N → Prop) [DecidablePred p] (f : Fin N → M) :
    ∑ e ∈ Finset.univ.filter (fun e : Fin N => e.val < B * 0 ∧ p e), f e = 0 := by
  have hempty : Finset.univ.filter (fun e : Fin N => e.val < B * 0 ∧ p e) = ∅ := by
    apply Finset.filter_eq_empty_iff.mpr
    intro e _ h
    have h1 := h.1
    rw [Nat.mul_zero] at h1
    exact Nat.not_lt_zero _ h1
  rw [hempty, Finset.sum_empty]

/-- The positions below `B * (t + 1)` are those below `B * t` and the block's. -/
theorem sum_below_succ {M : Type} [AddCommMonoid M] {N B : Nat} (t : Nat) (hN : B * (t + 1) ≤ N)
    (p : Fin N → Prop) [DecidablePred p] (f : Fin N → M) :
    ∑ e ∈ Finset.univ.filter (fun e : Fin N => e.val < B * (t + 1) ∧ p e), f e
      = ∑ e ∈ Finset.univ.filter (fun e : Fin N => e.val < B * t ∧ p e), f e
        + ∑ n ∈ Finset.univ.filter (fun n : Fin B => p (pos t hN n)), f (pos t hN n) := by
  -- split the positions below `B * (t + 1)` at `B * t`
  rw [← Finset.sum_filter_add_sum_filter_not
    (Finset.univ.filter (fun e : Fin N => e.val < B * (t + 1) ∧ p e)) (fun e : Fin N => e.val < B * t) f]
  rw [Finset.filter_filter, Finset.filter_filter]
  congr 1
  · -- below `B * t` the larger bound says nothing
    refine Finset.sum_congr (Finset.filter_congr fun e _ => ?_) fun _ _ => rfl
    constructor
    · rintro ⟨⟨_, hp⟩, hlt⟩
      exact ⟨hlt, hp⟩
    · rintro ⟨hlt, hp⟩
      exact ⟨⟨by rw [Nat.mul_succ]; omega, hp⟩, hlt⟩
  · -- the positions from `B * t` up to `B * (t + 1)` are the block's, one for each `n < B`
    symm
    refine Finset.sum_nbij (fun n => pos t hN n) ?_ ?_ ?_ ?_
    · intro n hn
      rw [Finset.mem_filter] at hn ⊢
      have hnB := n.isLt
      refine ⟨Finset.mem_univ _, ⟨?_, hn.2⟩, ?_⟩
      · show B * t + n.val < B * (t + 1)
        rw [Nat.mul_succ]
        omega
      · show ¬ (B * t + n.val < B * t)
        omega
    · intro a _ b _ hab
      have hv : B * t + a.val = B * t + b.val := congrArg Fin.val hab
      exact Fin.ext (by omega)
    · intro e he
      rw [Finset.mem_coe, Finset.mem_filter] at he
      obtain ⟨_, ⟨hlt, hp⟩, hge⟩ := he
      rw [Nat.mul_succ] at hlt
      have hback : pos t hN ⟨e.val - B * t, by omega⟩ = e :=
        Fin.ext (by show B * t + (e.val - B * t) = e.val; omega)
      refine ⟨⟨e.val - B * t, by omega⟩, ?_, hback⟩
      rw [Finset.mem_coe, Finset.mem_filter]
      exact ⟨Finset.mem_univ _, by rw [hback]; exact hp⟩
    · intro n _
      rfl

/-- Once every position is below the bound the bound says nothing. -/
theorem sum_below_all {M : Type} [AddCommMonoid M] {N B T : Nat} (hN : B * T = N)
    (p : Fin N → Prop) [DecidablePred p] (f : Fin N → M) :
    ∑ e ∈ Finset.univ.filter (fun e : Fin N => e.val < B * T ∧ p e), f e
      = ∑ e ∈ Finset.univ.filter (fun e : Fin N => p e), f e := by
  refine Finset.sum_congr (Finset.filter_congr fun e _ => ?_) fun _ _ => rfl
  exact ⟨fun h => h.2, fun h => ⟨by rw [hN]; exact e.isLt, h⟩⟩

end BlockSum
-- ==== Proof.Halves.lean ====
/-
  The arithmetic of the tiled accumulation. 300000 rows are cut into 100 tiles of 3000; an accumulator is cleared at
  tiles 0 and 50 and receives each tile's contribution — the sum of `feat e` over the tile's rows `e` whose segment
  word is `w`. What it holds after tile 49 plus what it holds after tile 99 is the sum over all rows with that word.
-/
import proofs.«418325_j38482906972422_2_alg».proof.Proof.LibBlockSum
import Mathlib.Data.EReal.Basic
import Mathlib.Algebra.BigOperators.Group.Finset.Basic

noncomputable section

open scoped BigOperators

namespace SegSum

/-- Row `r` of tile `t`, as a row of the whole array. -/
def row (t : ℕ) (ht : t < 100) (r : Fin 3000) : Fin 300000 := ⟨3000 * t + r.val, by have := r.isLt; omega⟩

/-- Tile `t`'s contribution to segment word `w`. -/
def tile (seg : Fin 300000 → BitVec 32) (feat : Fin 300000 → EReal) (w : BitVec 32) (t : ℕ) (ht : t < 100) : EReal :=
  ∑ r : Fin 3000, if seg (row t ht r) = w then feat (row t ht r) else 0

/-- The accumulator after tile `n`: cleared before tiles 0 and 50. -/
def accum (seg : Fin 300000 → BitVec 32) (feat : Fin 300000 → EReal) (w : BitVec 32) : (n : ℕ) → n < 100 → EReal
  | 0, h => 0 + tile seg feat w 0 h
  | n + 1, h => if (n + 1) % 50 = 0 then 0 + tile seg feat w (n + 1) h
      else accum seg feat w n (Nat.lt_of_succ_lt h) + tile seg feat w (n + 1) h

/-- A tile's contribution is the sum of `feat` over the positions of its block that carry the word `w`; the
lower bound `150000 * (t / 50)` holds at every position of tile `t`, since `50 * (t / 50) ≤ t`. -/
theorem tile_eq_block (seg : Fin 300000 → BitVec 32) (feat : Fin 300000 → EReal) (w : BitVec 32)
    (t : ℕ) (ht : t < 100) (hN : 3000 * (t + 1) ≤ 300000) :
    tile seg feat w t ht
      = ∑ r ∈ Finset.univ.filter (fun r : Fin 3000 =>
          150000 * (t / 50) ≤ (BlockSum.pos t hN r : Fin 300000).val ∧ seg (BlockSum.pos t hN r) = w),
          feat (BlockSum.pos t hN r) := by
  unfold tile
  rw [← Finset.sum_filter]
  refine Finset.sum_congr (Finset.filter_congr fun r _ => ?_) fun _ _ => rfl
  have hpos : (BlockSum.pos t hN r : Fin 300000).val = 3000 * t + r.val := rfl
  constructor
  · intro h
    exact ⟨by rw [hpos]; omega, h⟩
  · intro h
    exact h.2

/-- After tile `n` the accumulator holds the sum of `feat` over the rows with word `w` from the last clearing
(row `150000 * (n / 50)`) up to the end of tile `n` (row `3000 * (n + 1)`, excluded). -/
theorem accum_eq (seg : Fin 300000 → BitVec 32) (feat : Fin 300000 → EReal) (w : BitVec 32) :
    ∀ (n : ℕ) (h : n < 100),
      accum seg feat w n h
        = ∑ e ∈ Finset.univ.filter (fun e : Fin 300000 =>
            e.val < 3000 * (n + 1) ∧ (150000 * (n / 50) ≤ e.val ∧ seg e = w)), feat e := by
  intro n
  induction n with
  | zero =>
    intro h
    have hN : 3000 * (0 + 1) ≤ 300000 := by omega
    rw [BlockSum.sum_below_succ 0 hN (fun e : Fin 300000 => 150000 * (0 / 50) ≤ e.val ∧ seg e = w) feat,
      BlockSum.sum_below_zero, ← tile_eq_block seg feat w 0 h hN]
    rfl
  | succ n ih =>
    intro h
    have hN : 3000 * (n + 1 + 1) ≤ 300000 := by omega
    rw [BlockSum.sum_below_succ (n + 1) hN
      (fun e : Fin 300000 => 150000 * ((n + 1) / 50) ≤ e.val ∧ seg e = w) feat,
      ← tile_eq_block seg feat w (n + 1) h hN, accum]
    by_cases hr : (n + 1) % 50 = 0
    · -- a clearing tile: no row lies below the tile and at or above the clearing row
      rw [if_pos hr]
      have hempty : Finset.univ.filter (fun e : Fin 300000 =>
          e.val < 3000 * (n + 1) ∧ (150000 * ((n + 1) / 50) ≤ e.val ∧ seg e = w)) = ∅ := by
        apply Finset.filter_eq_empty_iff.mpr
        intro e _ he
        have h1 := he.1
        have h2 := he.2.1
        omega
      rw [hempty, Finset.sum_empty]
    · -- any other tile: the clearing row is the previous tile's
      rw [if_neg hr, ih (Nat.lt_of_succ_lt h)]
      have hq : (n + 1) / 50 = n / 50 := by omega
      rw [hq]

/-- The two halves together are the whole sum. -/
theorem accum_halves (seg : Fin 300000 → BitVec 32) (feat : Fin 300000 → EReal) (w : BitVec 32) :
    accum seg feat w 49 (by decide) + accum seg feat w 99 (by decide)
      = ∑ e : Fin 300000, if seg e = w then feat e else 0 := by
  have h49 := accum_eq seg feat w 49 (by decide)
  have h99 := accum_eq seg feat w 99 (by decide)
  -- the whole sum, over the rows with word `w`, split at row 150000
  have hR : (∑ e : Fin 300000, if seg e = w then feat e else 0)
      = ∑ e ∈ Finset.univ.filter (fun e : Fin 300000 => seg e = w), feat e :=
    (Finset.sum_filter (fun e : Fin 300000 => seg e = w) feat).symm
  have hsplit := Finset.sum_filter_add_sum_filter_not
    (Finset.univ.filter (fun e : Fin 300000 => seg e = w)) (fun e : Fin 300000 => e.val < 150000) feat
  rw [Finset.filter_filter, Finset.filter_filter] at hsplit
  rw [h49, h99]
  refine Eq.trans (congrArg₂ (· + ·) ?_ ?_) (hsplit.trans hR.symm)
  · refine Finset.sum_congr (Finset.filter_congr fun e _ => ?_) fun _ _ => rfl
    constructor
    · rintro ⟨hlt, _, hw⟩
      exact ⟨hw, by omega⟩
    · rintro ⟨hw, hlt⟩
      exact ⟨by omega, by omega, hw⟩
  · refine Finset.sum_congr (Finset.filter_congr fun e _ => ?_) fun _ _ => rfl
    have := e.isLt
    constructor
    · rintro ⟨_, hge, hw⟩
      exact ⟨hw, by omega⟩
    · rintro ⟨hw, hge⟩
      exact ⟨by omega, by omega, hw⟩

end SegSum

end
-- ==== Proof.KernelIdealR0Value.lean ====
/-
  The first segment-sum launch, read as numbers. At the ideal instance one accumulation step adds, to entry (b, h) of
  the accumulator, the sum of the tile's feature entries in column h over the tile's rows whose segment word is b
  (the features being finite: the kernel's second pass multiplies by x - x). So the accumulator after point n is
  `SegSum.accum` of the launch's segment column and features, the block written back at the last tile of half p is
  row p of the array of partial sums, the two blocks cover that array, and the host's sum over its two rows is the
  sum over all 300000 rows.
-/
import proofs.«418325_j38482906972422_2_alg».proof.Proof.KernelIdealR0Pieces
import proofs.«418325_j38482906972422_2_alg».proof.Proof.PayValue
import proofs.«418325_j38482906972422_2_alg».proof.Proof.Halves
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.R0

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The launch's two input arrays, by row -/

abbrev segArr (c : Dev nD) : Vec Ideal S300000x1 .i32 := V c (Pipeline.arrRef spec0 0)
abbrev featArr (c : Dev nD) : Vec Ideal S300000x768 .f32 := V c (Pipeline.arrRef spec0 1)
/-- Row `e`'s segment word. -/
def segOf (c : Dev nD) : Fin 300000 → BitVec 32 := fun e => segArr V c (ix2 e (0 : Fin 1))
/-- Row `e`'s feature in column `col`. -/
def featOf (c : Dev nD) (col : Fin 768) : Fin 300000 → EReal := fun e => featArr V c (ix2 e col)
/-- The two input blocks at a point, at their literal types. -/
abbrev segBlk (c : Dev nD) (t : Fin cfg0.N) : Vec Ideal S3000x1 .i32 := blockAt V c 0 t
abbrev featBlk (c : Dev nD) (t : Fin cfg0.N) : Vec Ideal S3000x768 .f32 := blockAt V c 1 t

theorem pt_lt (t : Fin cfg0.N) : t.val < 100 := lt_of_lt_of_eq t.isLt (show cfg0.N = 100 from N_0)

/-- The block indices, decided over the grid: the inputs' block is the point's number, the output's its half. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 50 ∧ win0_2.index t (1 : Fin 3) = 0 ∧ win0_2.index t (2 : Fin 3) = 0 :=
  (by decide +kernel : ∀ t : Fin grid0.N, _)

/-- Row `r` of the segment block at point `t` is row `3000 t + r` of the column. -/
theorem seg_read (c : Dev nD) (t : Fin cfg0.N) (r : Fin 3000) :
    segBlk V c t (ix2 r (0 : Fin 1)) = segOf V c (SegSum.row t.val (pt_lt t) r) := by
  obtain ⟨e0, e1, -⟩ := idx_facts t
  show segArr V c (((cfg0.win 0).blk t).view.emb (ix2 r (0 : Fin 1))) = segArr V c (ix2 (SegSum.row t.val (pt_lt t) r) (0 : Fin 1))
  refine congrArg _ ?_
  funext a; apply Fin.ext
  match a with
  | ⟨0, _⟩ => show win0_0.index t (0 : Fin 2) * 3000 + 1 * r.val = 3000 * t.val + r.val; omega
  | ⟨1, _⟩ => show win0_0.index t (1 : Fin 2) * 1 + 1 * 0 = 0; omega

/-- The same for the feature block, column by column. -/
theorem feat_read (c : Dev nD) (t : Fin cfg0.N) (r : Fin 3000) (col : Fin 768) :
    featBlk V c t (ix2 r col) = featOf V c col (SegSum.row t.val (pt_lt t) r) := by
  obtain ⟨-, -, e2, e3, -⟩ := idx_facts t
  show featArr V c (((cfg0.win 1).blk t).view.emb (ix2 r col)) = featArr V c (ix2 (SegSum.row t.val (pt_lt t) r) col)
  refine congrArg _ ?_
  funext a; apply Fin.ext
  match a with
  | ⟨0, _⟩ => show win0_1.index t (0 : Fin 2) * 3000 + 1 * r.val = 3000 * t.val + r.val; omega
  | ⟨1, _⟩ => show win0_1.index t (1 : Fin 2) * 768 + 1 * col.val = col.val; omega

/-! ## One accumulation step, and the chain -/

/-- One step at point `t` adds the tile's contribution, the features being real numbers. -/
theorem step_apply (hfin : ∀ c i, ∃ x : ℝ, featArr V c i = (x : EReal)) (c : Dev nD) (t : Fin cfg0.N) (b : Fin 256) (col : Fin 768)
    (acc : Vec Ideal S256x768 .f32) :
    k0_pay2 (F := Ideal) (segBlk V c t) (featBlk V c t) acc (ix2 b col)
      = acc (ix2 b col) + SegSum.tile (segOf V c) (featOf V c col) (BitVec.ofNat 32 b.val) t.val (pt_lt t) := by
  refine (PayValue.pay2_apply (segBlk V c t) (featBlk V c t) acc (fun i => hfin c (((cfg0.win 1).blk t).view.emb i)) b col).trans ?_
  refine congrArg (fun z => acc (ix2 b col) + z) ?_
  unfold SegSum.tile
  refine Finset.sum_congr rfl fun r _ => ?_
  rw [seg_read V c t r, feat_read V c t r col]

theorem accChain_zero (c : Dev nD) (h : 0 < cfg0.N) :
    accChain V c 0 h = k0_pay2 (segBlk V c ⟨0, h⟩) (featBlk V c ⟨0, h⟩) (k0_pay1 (F := Ideal)) := rfl
theorem accChain_reset (c : Dev nD) (n : ℕ) (h : n + 1 < cfg0.N) (h0 : (n + 1) % 50 = 0) :
    accChain V c (n + 1) h = k0_pay2 (segBlk V c ⟨n + 1, h⟩) (featBlk V c ⟨n + 1, h⟩) (k0_pay1 (F := Ideal)) := by
  conv_lhs => unfold accChain
  exact if_pos h0
theorem accChain_step (c : Dev nD) (n : ℕ) (h : n + 1 < cfg0.N) (h0 : ¬(n + 1) % 50 = 0) :
    accChain V c (n + 1) h = k0_pay2 (segBlk V c ⟨n + 1, h⟩) (featBlk V c ⟨n + 1, h⟩) (accChain V c n (Nat.lt_of_succ_lt h)) := by
  conv_lhs => unfold accChain
  exact if_neg h0

theorem accum_zero (seg : Fin 300000 → BitVec 32) (feat : Fin 300000 → EReal) (w : BitVec 32) (h : 0 < 100) :
    SegSum.accum seg feat w 0 h = 0 + SegSum.tile seg feat w 0 h := rfl
theorem accum_reset (seg : Fin 300000 → BitVec 32) (feat : Fin 300000 → EReal) (w : BitVec 32) (n : ℕ) (h : n + 1 < 100)
    (h0 : (n + 1) % 50 = 0) : SegSum.accum seg feat w (n + 1) h = 0 + SegSum.tile seg feat w (n + 1) h := by
  conv_lhs => unfold SegSum.accum
  exact if_pos h0
theorem accum_step (seg : Fin 300000 → BitVec 32) (feat : Fin 300000 → EReal) (w : BitVec 32) (n : ℕ) (h : n + 1 < 100)
    (h0 : ¬(n + 1) % 50 = 0) :
    SegSum.accum seg feat w (n + 1) h = SegSum.accum seg feat w n (Nat.lt_of_succ_lt h) + SegSum.tile seg feat w (n + 1) h := by
  conv_lhs => unfold SegSum.accum
  exact if_neg h0
theorem accum_congr (seg : Fin 300000 → BitVec 32) (feat : Fin 300000 → EReal) (w : BitVec 32) {n n' : ℕ} (h : n < 100) (h' : n' < 100)
    (e : n = n') : SegSum.accum seg feat w n h = SegSum.accum seg feat w n' h' := by
  subst e; rfl

/-- The accumulator after point `n`, entry by entry: the tiled accumulation of the launch's two arrays. -/
theorem accChain_apply (hfin : ∀ c i, ∃ x : ℝ, featArr V c i = (x : EReal)) (c : Dev nD) (b : Fin 256) (col : Fin 768) :
    ∀ (n : ℕ) (h : n < cfg0.N), accChain V c n h (ix2 b col)
      = SegSum.accum (segOf V c) (featOf V c col) (BitVec.ofNat 32 b.val) n (lt_of_lt_of_eq h (show cfg0.N = 100 from N_0))
  | 0, h =>
    (congrFun (accChain_zero V c h) (ix2 b col)).trans
      ((step_apply V hfin c ⟨0, h⟩ b col _).trans (by rw [PayValue.pay1_apply]; exact (accum_zero _ _ _ _).symm))
  | n + 1, h => by
    by_cases h0 : (n + 1) % 50 = 0
    · exact (congrFun (accChain_reset V c n h h0) (ix2 b col)).trans
        ((step_apply V hfin c ⟨n + 1, h⟩ b col _).trans (by rw [PayValue.pay1_apply]; exact (accum_reset _ _ _ n _ h0).symm))
    · exact (congrFun (accChain_step V c n h h0) (ix2 b col)).trans
        ((step_apply V hfin c ⟨n + 1, h⟩ b col _).trans
          (by rw [accChain_apply hfin c b col n (Nat.lt_of_succ_lt h)]; exact (accum_step _ _ _ n _ h0).symm))

/-! ## The array of partial sums -/

/-- Half `p`'s sum for segment `b`, column `col`: the accumulator after the half's last tile. -/
def partialAt (c : Dev nD) (p : Fin 2) (b : Fin 256) (col : Fin 768) : EReal :=
  SegSum.accum (segOf V c) (featOf V c col) (BitVec.ofNat 32 b.val) (50 * p.val + 49) (by have := p.isLt; omega)
def partials (c : Dev nD) : Vec Ideal S2x256x768 .f32 := fun i => partialAt V c (i 0) (i 1) (i 2)
theorem partials_apply (c : Dev nD) (p : Fin 2) (b : Fin 256) (col : Fin 768) :
    partials V c (ix3 p b col) = partialAt V c p b col := rfl

/-- Entry (0, b, col) of the output block at point `t` is entry (t / 50, b, col) of the array. -/
theorem out_emb (t : Fin cfg0.N) (b : Fin 256) (col : Fin 768) :
    ((cfg0.win 2).blk t).view.emb (ix3 (0 : Fin 1) b col) = ix3 (⟨t.val / 50, by have := pt_lt t; omega⟩ : Fin 2) b col := by
  obtain ⟨-, -, -, -, e4, e5, e6⟩ := idx_facts t
  funext a; apply Fin.ext
  match a with
  | ⟨0, _⟩ => show win0_2.index t (0 : Fin 3) * 1 + 1 * 0 = t.val / 50; omega
  | ⟨1, _⟩ => show win0_2.index t (1 : Fin 3) * 256 + 1 * b.val = b.val; omega
  | ⟨2, _⟩ => show win0_2.index t (2 : Fin 3) * 768 + 1 * col.val = col.val; omega

/-- What a last tile writes back is its half's row of the partial sums. -/
theorem flushed_eq (hfin : ∀ c i, ∃ x : ℝ, featArr V c i = (x : EReal)) (c : Dev nD) (t : Fin cfg0.N) (hf : (cfg0.win 2).flush t = true) :
    (dat V c).flushed 2 t = ((cfg0.win 2).blk t).view.read (Elt Ideal) (partials V c) := by
  have h49 : t.val % 50 = 49 := (flush0_2 t).mp hf
  have hN := pt_lt t
  show (cfg0.win 2).cut (grid0.coords t) ((dat V c).after 2 t) = _
  rw [after_out, stateAt_out V c t.val t.isLt h49]
  funext j
  obtain ⟨p, b, col, rfl⟩ : ∃ (p : Fin 1) (b : Fin 256) (col : Fin 768), j = ix3 p b col := ⟨j 0, j 1, j 2, eq_ix3 j⟩
  obtain rfl : p = 0 := Subsingleton.elim _ _
  show k0_pay3 (F := Ideal) (accChain V c t.val t.isLt) (ix3 (0 : Fin 1) b col) = partials V c (((cfg0.win 2).blk t).view.emb (ix3 (0 : Fin 1) b col))
  rw [out_emb t b col, partials_apply, PayValue.pay3_apply, accChain_apply V hfin c b col t.val t.isLt]
  exact accum_congr _ _ _ _ _ (by show t.val = 50 * (t.val / 50) + 49; omega)

/-- An index of the array is in point `t`'s block iff each coordinate is in the block's range. -/
theorem mem_blk (t : Fin cfg0.N) (i : S2x256x768.Idx) :
    i ∈ ((cfg0.win 2).blk t).view.set ↔ ∀ a : Fin 3, win0_2.index t a * S1x256x768.size a ≤ (i a).val ∧ (i a).val < win0_2.index t a * S1x256x768.size a + S1x256x768.size a := by
  show i ∈ ((View.whole (Pipeline.arrRef spec0 2)).slice (win0_2.rect t)).set ↔ _
  rw [View.set_slice_whole, Rect.mem_set_unit]
  exact Iff.rfl

/-- The two halves' last tiles cover the array. -/
theorem covered (i : S2x256x768.Idx) : ∃ t : Fin cfg0.N, (cfg0.win 2).flush t = true ∧ i ∈ ((cfg0.win 2).blk t).view.set := by
  have h0 : (i 0).val < 2 := (i 0).isLt
  have h1 : (i 1).val < 256 := (i 1).isLt
  have h2 : (i 2).val < 768 := (i 2).isLt
  have hlt : 50 * (i 0).val + 49 < cfg0.N := by rw [show cfg0.N = 100 from N_0]; omega
  refine ⟨⟨50 * (i 0).val + 49, hlt⟩, (flush0_2 _).mpr (by show (50 * (i 0).val + 49) % 50 = 49; omega), ?_⟩
  rw [mem_blk]
  obtain ⟨-, -, -, -, e4, e5, e6⟩ := idx_facts ⟨50 * (i 0).val + 49, hlt⟩
  have e4' : win0_2.index ⟨50 * (i 0).val + 49, hlt⟩ (0 : Fin 3) = (i 0).val := by
    rw [e4]; show (50 * (i 0).val + 49) / 50 = (i 0).val; omega
  intro a
  match a with
  | ⟨0, _⟩ => show win0_2.index ⟨50 * (i 0).val + 49, hlt⟩ (0 : Fin 3) * 1 ≤ (i 0).val ∧ (i 0).val < win0_2.index ⟨50 * (i 0).val + 49, hlt⟩ (0 : Fin 3) * 1 + 1; omega
  | ⟨1, _⟩ => show win0_2.index ⟨50 * (i 0).val + 49, hlt⟩ (1 : Fin 3) * 256 ≤ (i 1).val ∧ (i 1).val < win0_2.index ⟨50 * (i 0).val + 49, hlt⟩ (1 : Fin 3) * 256 + 256; omega
  | ⟨2, _⟩ => show win0_2.index ⟨50 * (i 0).val + 49, hlt⟩ (2 : Fin 3) * 768 ≤ (i 2).val ∧ (i 2).val < win0_2.index ⟨50 * (i 0).val + 49, hlt⟩ (2 : Fin 3) * 768 + 768; omega

/-- The launch leaves the partial sums in its output array. -/
theorem arr_out (hfin : ∀ c i, ∃ x : ℝ, featArr V c i = (x : EReal)) (c : Dev nD) :
    (dat V c).arrAt 2 cfg0.N = partials V c :=
  (dat V c).arrAt_eq_of_cover 2 (partials V c) (flushed_eq V hfin c) (covered)

/-! ## The host's sum over the two halves -/

theorem red : S2x256x768.Reduces [0] S256x768 := by decide

/-- Summed over its first axis from zero, the launch's output is, at (b, col), the sum of column `col` over ALL rows
    whose segment word is `b`. -/
theorem pooled (hfin : ∀ c i, ∃ x : ℝ, featArr V c i = (x : EReal)) (c : Dev nD) (b : Fin 256) (col : Fin 768) :
    Host.reduceAdd (F := Ideal) ((dat V c).arrAt 2 cfg0.N) (constant (F := Ideal) S_ .f32 0x00000000#32) reducesTo_S2x256x768_S256x768_d0 h_S_ (ix2 b col)
      = ∑ e : Fin 300000, if segOf V c e = BitVec.ofNat 32 b.val then featOf V c col e else 0 := by
  rw [arr_out V hfin c]
  unfold Host.reduceAdd
  rw [Ideal.hostReduceAdd_def, Ideal.hostReduceAdd_single reducesTo_S2x256x768_S256x768_d0 red]
  refine (congrArg (fun z => constant (F := Ideal) S_ .f32 0x00000000#32 (Shape.Idx.first h_S_) + z)
    (Fin.sum_univ_two (fun k : Fin 2 => partials V c (red.lift (ix2 b col) k)))).trans ?_
  show constant (F := Ideal) S_ .f32 0x00000000#32 (Shape.Idx.first h_S_)
      + (partials V c (red.lift (ix2 b col) (0 : Fin 2)) + partials V c (red.lift (ix2 b col) (1 : Fin 2))) = _
  have e0 : red.lift (ix2 b col) (0 : Fin 2) = ix3 (0 : Fin 2) b col :=
    funext fun a => by match a with | ⟨0, _⟩ => rfl | ⟨1, _⟩ => rfl | ⟨2, _⟩ => rfl
  have e1 : red.lift (ix2 b col) (1 : Fin 2) = ix3 (1 : Fin 2) b col :=
    funext fun a => by match a with | ⟨0, _⟩ => rfl | ⟨1, _⟩ => rfl | ⟨2, _⟩ => rfl
  rw [e0, e1, partials_apply, partials_apply, constant_apply, Ideal.ofBits_zero_f32, zero_add]
  exact SegSum.accum_halves (segOf V c) (featOf V c col) (BitVec.ofNat 32 b.val)

end Cert.KernelIdeal.R0

end
-- ==== Proof.KernelIdealR1Pieces.lean ====
/-
  The second segment-sum launch: what the three cases of the body leave, in terms of the body's own arithmetic, and
  the accumulator after each point as a chain of accumulation steps. `k1_pay1` is the cleared accumulator, `k1_pay2 s x a`
  the accumulator `a` after the tile with segment column `s` and features `x`, `k1_pay3` the accumulator laid out as
  an output block.
-/
import proofs.«418325_j38482906972422_2_alg».proof.Proof.KernelIdealR1Dat
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off2 : (![0, 0] : Fin 2 → Nat) = fun _ => 0 := funext fun a => by fin_cases a <;> rfl
theorem off3 : (![0, 0, 0] : Fin 3 → Nat) = fun _ => 0 := funext fun a => by fin_cases a <;> rfl

/-- A first tile: the cleared accumulator, stepped once. -/
theorem accAtFirst_eq (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : isFirst i) (hc1 : ¬isLast i)
    (x0 : Vec F S3000x1 .i32) (x1 : Vec F S3000x768 .f32) :
    accAtFirst c i arg2 harg2 arg3 harg3 arg4 harg4 arg5 harg5 hc0 hc1 x0 x1 = k1_pay2 x0 x1 (k1_pay1 (F := F)) := by
  unfold accAtFirst
  rw [View.read_writes_eq_canon _ _ _ (accFirst_cover c i arg2 harg2 arg3 harg3 arg4 harg4 arg5 harg5 hc0 hc1 x0 x1)]
  unfold runFirst
  dsimp only
  sl_unfold_words
  rw [View.canon_cons_unit_zero (S := S256x768) off2, View.readCov_unit_zero (S := S256x768) _ off2]
  simp only [View.readAt_eq_ld, harg2.read_unread, harg3.read_unread, View.ld_unit_zero (S := S3000x1) off2,
    View.ld_unit_zero (S := S3000x768) off2, View.ld_unit_zero (S := S256x768) off2]

/-- A middle tile: what the point before left, stepped once. -/
theorem accAtMid_eq (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : ¬isLast i)
    (x0 : Vec F S3000x1 .i32) (x1 : Vec F S3000x768 .f32) (xs : Vec F S256x768 .f32) :
    accAtMid c i arg2 harg2 arg3 harg3 arg4 harg4 arg5 harg5 hc0 hc1 x0 x1 xs = k1_pay2 x0 x1 xs := by
  unfold accAtMid
  rw [View.read_writes_eq_canon _ _ _ (accMid_cover c i arg2 harg2 arg3 harg3 arg4 harg4 arg5 harg5 hc0 hc1 x0 x1 xs)]
  unfold runMid
  dsimp only
  sl_unfold_words
  rw [View.canon_unit_zero off2]
  simp only [View.readAt_eq_ld, harg2.read_unread, harg3.read_unread, harg5.read_unread, View.ld_unit_zero (S := S3000x1) off2,
    View.ld_unit_zero (S := S3000x768) off2, View.ld_unit_zero (S := S256x768) off2]

/-- A last tile leaves the same in the accumulator, -/
theorem accAtLast_eq (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) :
    accAtLast c i arg2 harg2 arg3 harg3 arg4 harg4 arg5 harg5 hc0 hc1 x0 x1 xs = k1_pay2 x0 x1 xs := by
  unfold accAtLast
  rw [View.read_writes_eq_canon _ _ _ (accLast_cover c i arg2 harg2 arg3 harg3 arg4 harg4 arg5 harg5 hc0 hc1 x0 x1 xs)]
  unfold runLast
  dsimp only
  sl_unfold_words
  rw [View.canon_unit_zero off2]
  simp only [View.readAt_eq_ld, harg2.read_unread, harg3.read_unread, harg5.read_unread, View.ld_unit_zero (S := S3000x1) off2,
    View.ld_unit_zero (S := S3000x768) off2, View.ld_unit_zero (S := S256x768) off2]

/-- and that, laid out as a block, in the output. -/
theorem outAtLast_eq (c : Dev nD) (i : grid1.Coords) (arg2 : Memref sig .tc .vmem S3000x1 .i32) (harg2 : arg2.IsWhole) (arg3 : Memref sig .tc .vmem S3000x768 .f32) (harg3 : arg3.IsWhole) (arg4 : Memref sig .tc .vmem S1x256x768 .f32) (harg4 : arg4.IsWhole) (arg5 : Memref sig .tc .vmem S256x768 .f32) (harg5 : arg5.IsWhole) (hc0 : ¬isFirst i) (hc1 : isLast i)
    (x0 : Vec F S3000x1 .i32) (x1 : Vec F S3000x768 .f32) (xs : Vec F S256x768 .f32) :
    outAtLast c i arg2 harg2 arg3 harg3 arg4 harg4 arg5 harg5 hc0 hc1 x0 x1 xs = k1_pay3 (k1_pay2 x0 x1 xs) := by
  unfold outAtLast
  rw [View.read_writes_eq_canon _ _ _ (outLast_cover c i arg2 harg2 arg3 harg3 arg4 harg4 arg5 harg5 hc0 hc1 x0 x1 xs)]
  unfold runLast
  dsimp only
  sl_unfold_words
  rw [View.canon_unit_zero off3]
  simp only [View.readAt_eq_ld, harg2.read_unread, harg3.read_unread, harg5.read_unread, View.ld_unit_zero (S := S3000x1) off2,
    View.ld_unit_zero (S := S3000x768) off2, View.ld_unit_zero (S := S256x768) off2, View.readCov_unit_zero (S := S256x768) _ off2]

/-! ## The accumulator after each point -/

/-- The accumulator after point `n`, as accumulation steps from the last clearing. -/
def accChain (c : Dev nD) : (n : ℕ) → n < cfg1.N → Vec F S256x768 .f32
  | 0, h => k1_pay2 (blockAt V c 0 ⟨0, h⟩) (blockAt V c 1 ⟨0, h⟩) (k1_pay1 (F := F))
  | n + 1, h =>
    if (n + 1) % 50 = 0 then k1_pay2 (blockAt V c 0 ⟨n + 1, h⟩) (blockAt V c 1 ⟨n + 1, h⟩) (k1_pay1 (F := F))
    else k1_pay2 (blockAt V c 0 ⟨n + 1, h⟩) (blockAt V c 1 ⟨n + 1, h⟩) (accChain c n (Nat.lt_of_succ_lt h))

/-- It is what the proof data's recursion holds in the accumulator. -/
theorem stateAt_acc (c : Dev nD) : ∀ (n : ℕ) (h : n < cfg1.N), (stateAt V c n h).2 = accChain V c n h
  | 0, h => by
    rw [stateAt_first V c ⟨0, h⟩ rfl (by show ¬ (0 % 50 = 49); decide)]
    dsimp only
    rw [accAtFirst_eq]
    rfl
  | n + 1, h => by
    have hN : cfg1.N = 100 := N_1
    have ih := stateAt_acc c n (Nat.lt_of_succ_lt h)
    by_cases h0 : (n + 1) % 50 = 0
    · have h1 : ¬(n + 1) % 50 = 49 := by omega
      rw [stateAt_first V c ⟨n + 1, h⟩ h0 h1]
      dsimp only
      rw [accAtFirst_eq]
      conv_rhs => unfold accChain
      rw [if_pos h0]
    · by_cases h1 : (n + 1) % 50 = 49
      · rw [stateAt_last V c ⟨n + 1, h⟩ h0 h1]
        dsimp only
        rw [accAtLast_eq]
        show k1_pay2 _ _ (stateAt V c n _).2 = _
        rw [ih]
        conv_rhs => unfold accChain
        rw [if_neg h0]
      · rw [stateAt_mid V c ⟨n + 1, h⟩ h0 h1]
        dsimp only
        rw [accAtMid_eq]
        show k1_pay2 _ _ (stateAt V c n _).2 = _
        rw [ih]
        conv_rhs => unfold accChain
        rw [if_neg h0]

/-- At the last tile of a half the output block's buffer holds the accumulator, laid out as a block. -/
theorem stateAt_out (c : Dev nD) : ∀ (n : ℕ) (h : n < cfg1.N), n % 50 = 49 →
    (stateAt V c n h).1 = k1_pay3 (accChain V c n h)
  | 0, h, h1 => absurd h1 (by decide)
  | n + 1, h, h1 => by
    have h0 : ¬(n + 1) % 50 = 0 := by omega
    rw [stateAt_last V c ⟨n + 1, h⟩ h0 h1]
    dsimp only
    rw [outAtLast_eq]
    show k1_pay3 (k1_pay2 _ _ (stateAt V c n _).2) = _
    rw [stateAt_acc V c n]
    conv_rhs => unfold accChain
    rw [if_neg h0]

end Cert.KernelIdeal.R1

end
-- ==== Proof.KernelIdealR1Value.lean ====
/-
  The second segment-sum launch, read as numbers. At the ideal instance one accumulation step adds, to entry (b, h) of
  the accumulator, the sum of the tile's feature entries in column h over the tile's rows whose segment word is b
  (the features being finite: the kernel's second pass multiplies by x - x). So the accumulator after point n is
  `SegSum.accum` of the launch's segment column and features, the block written back at the last tile of half p is
  row p of the array of partial sums, the two blocks cover that array, and the host's sum over its two rows is the
  sum over all 300000 rows.
-/
import proofs.«418325_j38482906972422_2_alg».proof.Proof.KernelIdealR1Pieces
import proofs.«418325_j38482906972422_2_alg».proof.Proof.PayValue
import proofs.«418325_j38482906972422_2_alg».proof.Proof.Halves
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.R1

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The launch's two input arrays, by row -/

abbrev segArr (c : Dev nD) : Vec Ideal S300000x1 .i32 := V c (Pipeline.arrRef spec1 0)
abbrev featArr (c : Dev nD) : Vec Ideal S300000x768 .f32 := V c (Pipeline.arrRef spec1 1)
/-- Row `e`'s segment word. -/
def segOf (c : Dev nD) : Fin 300000 → BitVec 32 := fun e => segArr V c (ix2 e (0 : Fin 1))
/-- Row `e`'s feature in column `col`. -/
def featOf (c : Dev nD) (col : Fin 768) : Fin 300000 → EReal := fun e => featArr V c (ix2 e col)
/-- The two input blocks at a point, at their literal types. -/
abbrev segBlk (c : Dev nD) (t : Fin cfg1.N) : Vec Ideal S3000x1 .i32 := blockAt V c 0 t
abbrev featBlk (c : Dev nD) (t : Fin cfg1.N) : Vec Ideal S3000x768 .f32 := blockAt V c 1 t

theorem pt_lt (t : Fin cfg1.N) : t.val < 100 := lt_of_lt_of_eq t.isLt (show cfg1.N = 100 from N_1)

/-- The block indices, decided over the grid: the inputs' block is the point's number, the output's its half. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 50 ∧ win1_2.index t (1 : Fin 3) = 0 ∧ win1_2.index t (2 : Fin 3) = 0 :=
  (by decide +kernel : ∀ t : Fin grid1.N, _)

/-- Row `r` of the segment block at point `t` is row `3000 t + r` of the column. -/
theorem seg_read (c : Dev nD) (t : Fin cfg1.N) (r : Fin 3000) :
    segBlk V c t (ix2 r (0 : Fin 1)) = segOf V c (SegSum.row t.val (pt_lt t) r) := by
  obtain ⟨e0, e1, -⟩ := idx_facts t
  show segArr V c (((cfg1.win 0).blk t).view.emb (ix2 r (0 : Fin 1))) = segArr V c (ix2 (SegSum.row t.val (pt_lt t) r) (0 : Fin 1))
  refine congrArg _ ?_
  funext a; apply Fin.ext
  match a with
  | ⟨0, _⟩ => show win1_0.index t (0 : Fin 2) * 3000 + 1 * r.val = 3000 * t.val + r.val; omega
  | ⟨1, _⟩ => show win1_0.index t (1 : Fin 2) * 1 + 1 * 0 = 0; omega

/-- The same for the feature block, column by column. -/
theorem feat_read (c : Dev nD) (t : Fin cfg1.N) (r : Fin 3000) (col : Fin 768) :
    featBlk V c t (ix2 r col) = featOf V c col (SegSum.row t.val (pt_lt t) r) := by
  obtain ⟨-, -, e2, e3, -⟩ := idx_facts t
  show featArr V c (((cfg1.win 1).blk t).view.emb (ix2 r col)) = featArr V c (ix2 (SegSum.row t.val (pt_lt t) r) col)
  refine congrArg _ ?_
  funext a; apply Fin.ext
  match a with
  | ⟨0, _⟩ => show win1_1.index t (0 : Fin 2) * 3000 + 1 * r.val = 3000 * t.val + r.val; omega
  | ⟨1, _⟩ => show win1_1.index t (1 : Fin 2) * 768 + 1 * col.val = col.val; omega

/-! ## One accumulation step, and the chain -/

/-- One step at point `t` adds the tile's contribution, the features being real numbers. -/
theorem step_apply (hfin : ∀ c i, ∃ x : ℝ, featArr V c i = (x : EReal)) (c : Dev nD) (t : Fin cfg1.N) (b : Fin 256) (col : Fin 768)
    (acc : Vec Ideal S256x768 .f32) :
    k1_pay2 (F := Ideal) (segBlk V c t) (featBlk V c t) acc (ix2 b col)
      = acc (ix2 b col) + SegSum.tile (segOf V c) (featOf V c col) (BitVec.ofNat 32 b.val) t.val (pt_lt t) := by
  refine (PayValue.pay2'_apply (segBlk V c t) (featBlk V c t) acc (fun i => hfin c (((cfg1.win 1).blk t).view.emb i)) b col).trans ?_
  refine congrArg (fun z => acc (ix2 b col) + z) ?_
  unfold SegSum.tile
  refine Finset.sum_congr rfl fun r _ => ?_
  rw [seg_read V c t r, feat_read V c t r col]

theorem accChain_zero (c : Dev nD) (h : 0 < cfg1.N) :
    accChain V c 0 h = k1_pay2 (segBlk V c ⟨0, h⟩) (featBlk V c ⟨0, h⟩) (k1_pay1 (F := Ideal)) := rfl
theorem accChain_reset (c : Dev nD) (n : ℕ) (h : n + 1 < cfg1.N) (h0 : (n + 1) % 50 = 0) :
    accChain V c (n + 1) h = k1_pay2 (segBlk V c ⟨n + 1, h⟩) (featBlk V c ⟨n + 1, h⟩) (k1_pay1 (F := Ideal)) := by
  conv_lhs => unfold accChain
  exact if_pos h0
theorem accChain_step (c : Dev nD) (n : ℕ) (h : n + 1 < cfg1.N) (h0 : ¬(n + 1) % 50 = 0) :
    accChain V c (n + 1) h = k1_pay2 (segBlk V c ⟨n + 1, h⟩) (featBlk V c ⟨n + 1, h⟩) (accChain V c n (Nat.lt_of_succ_lt h)) := by
  conv_lhs => unfold accChain
  exact if_neg h0

theorem accum_zero (seg : Fin 300000 → BitVec 32) (feat : Fin 300000 → EReal) (w : BitVec 32) (h : 0 < 100) :
    SegSum.accum seg feat w 0 h = 0 + SegSum.tile seg feat w 0 h := rfl
theorem accum_reset (seg : Fin 300000 → BitVec 32) (feat : Fin 300000 → EReal) (w : BitVec 32) (n : ℕ) (h : n + 1 < 100)
    (h0 : (n + 1) % 50 = 0) : SegSum.accum seg feat w (n + 1) h = 0 + SegSum.tile seg feat w (n + 1) h := by
  conv_lhs => unfold SegSum.accum
  exact if_pos h0
theorem accum_step (seg : Fin 300000 → BitVec 32) (feat : Fin 300000 → EReal) (w : BitVec 32) (n : ℕ) (h : n + 1 < 100)
    (h0 : ¬(n + 1) % 50 = 0) :
    SegSum.accum seg feat w (n + 1) h = SegSum.accum seg feat w n (Nat.lt_of_succ_lt h) + SegSum.tile seg feat w (n + 1) h := by
  conv_lhs => unfold SegSum.accum
  exact if_neg h0
theorem accum_congr (seg : Fin 300000 → BitVec 32) (feat : Fin 300000 → EReal) (w : BitVec 32) {n n' : ℕ} (h : n < 100) (h' : n' < 100)
    (e : n = n') : SegSum.accum seg feat w n h = SegSum.accum seg feat w n' h' := by
  subst e; rfl

/-- The accumulator after point `n`, entry by entry: the tiled accumulation of the launch's two arrays. -/
theorem accChain_apply (hfin : ∀ c i, ∃ x : ℝ, featArr V c i = (x : EReal)) (c : Dev nD) (b : Fin 256) (col : Fin 768) :
    ∀ (n : ℕ) (h : n < cfg1.N), accChain V c n h (ix2 b col)
      = SegSum.accum (segOf V c) (featOf V c col) (BitVec.ofNat 32 b.val) n (lt_of_lt_of_eq h (show cfg1.N = 100 from N_1))
  | 0, h =>
    (congrFun (accChain_zero V c h) (ix2 b col)).trans
      ((step_apply V hfin c ⟨0, h⟩ b col _).trans (by rw [PayValue.pay1'_apply]; exact (accum_zero _ _ _ _).symm))
  | n + 1, h => by
    by_cases h0 : (n + 1) % 50 = 0
    · exact (congrFun (accChain_reset V c n h h0) (ix2 b col)).trans
        ((step_apply V hfin c ⟨n + 1, h⟩ b col _).trans (by rw [PayValue.pay1'_apply]; exact (accum_reset _ _ _ n _ h0).symm))
    · exact (congrFun (accChain_step V c n h h0) (ix2 b col)).trans
        ((step_apply V hfin c ⟨n + 1, h⟩ b col _).trans
          (by rw [accChain_apply hfin c b col n (Nat.lt_of_succ_lt h)]; exact (accum_step _ _ _ n _ h0).symm))

/-! ## The array of partial sums -/

/-- Half `p`'s sum for segment `b`, column `col`: the accumulator after the half's last tile. -/
def partialAt (c : Dev nD) (p : Fin 2) (b : Fin 256) (col : Fin 768) : EReal :=
  SegSum.accum (segOf V c) (featOf V c col) (BitVec.ofNat 32 b.val) (50 * p.val + 49) (by have := p.isLt; omega)
def partials (c : Dev nD) : Vec Ideal S2x256x768 .f32 := fun i => partialAt V c (i 0) (i 1) (i 2)
theorem partials_apply (c : Dev nD) (p : Fin 2) (b : Fin 256) (col : Fin 768) :
    partials V c (ix3 p b col) = partialAt V c p b col := rfl

/-- Entry (0, b, col) of the output block at point `t` is entry (t / 50, b, col) of the array. -/
theorem out_emb (t : Fin cfg1.N) (b : Fin 256) (col : Fin 768) :
    ((cfg1.win 2).blk t).view.emb (ix3 (0 : Fin 1) b col) = ix3 (⟨t.val / 50, by have := pt_lt t; omega⟩ : Fin 2) b col := by
  obtain ⟨-, -, -, -, e4, e5, e6⟩ := idx_facts t
  funext a; apply Fin.ext
  match a with
  | ⟨0, _⟩ => show win1_2.index t (0 : Fin 3) * 1 + 1 * 0 = t.val / 50; omega
  | ⟨1, _⟩ => show win1_2.index t (1 : Fin 3) * 256 + 1 * b.val = b.val; omega
  | ⟨2, _⟩ => show win1_2.index t (2 : Fin 3) * 768 + 1 * col.val = col.val; omega

/-- What a last tile writes back is its half's row of the partial sums. -/
theorem flushed_eq (hfin : ∀ c i, ∃ x : ℝ, featArr V c i = (x : EReal)) (c : Dev nD) (t : Fin cfg1.N) (hf : (cfg1.win 2).flush t = true) :
    (dat V c).flushed 2 t = ((cfg1.win 2).blk t).view.read (Elt Ideal) (partials V c) := by
  have h49 : t.val % 50 = 49 := (flush1_2 t).mp hf
  have hN := pt_lt t
  show (cfg1.win 2).cut (grid1.coords t) ((dat V c).after 2 t) = _
  rw [after_out, stateAt_out V c t.val t.isLt h49]
  funext j
  obtain ⟨p, b, col, rfl⟩ : ∃ (p : Fin 1) (b : Fin 256) (col : Fin 768), j = ix3 p b col := ⟨j 0, j 1, j 2, eq_ix3 j⟩
  obtain rfl : p = 0 := Subsingleton.elim _ _
  show k1_pay3 (F := Ideal) (accChain V c t.val t.isLt) (ix3 (0 : Fin 1) b col) = partials V c (((cfg1.win 2).blk t).view.emb (ix3 (0 : Fin 1) b col))
  rw [out_emb t b col, partials_apply, PayValue.pay3'_apply, accChain_apply V hfin c b col t.val t.isLt]
  exact accum_congr _ _ _ _ _ (by show t.val = 50 * (t.val / 50) + 49; omega)

/-- An index of the array is in point `t`'s block iff each coordinate is in the block's range. -/
theorem mem_blk (t : Fin cfg1.N) (i : S2x256x768.Idx) :
    i ∈ ((cfg1.win 2).blk t).view.set ↔ ∀ a : Fin 3, win1_2.index t a * S1x256x768.size a ≤ (i a).val ∧ (i a).val < win1_2.index t a * S1x256x768.size a + S1x256x768.size a := by
  show i ∈ ((View.whole (Pipeline.arrRef spec1 2)).slice (win1_2.rect t)).set ↔ _
  rw [View.set_slice_whole, Rect.mem_set_unit]
  exact Iff.rfl

/-- The two halves' last tiles cover the array. -/
theorem covered (i : S2x256x768.Idx) : ∃ t : Fin cfg1.N, (cfg1.win 2).flush t = true ∧ i ∈ ((cfg1.win 2).blk t).view.set := by
  have h0 : (i 0).val < 2 := (i 0).isLt
  have h1 : (i 1).val < 256 := (i 1).isLt
  have h2 : (i 2).val < 768 := (i 2).isLt
  have hlt : 50 * (i 0).val + 49 < cfg1.N := by rw [show cfg1.N = 100 from N_1]; omega
  refine ⟨⟨50 * (i 0).val + 49, hlt⟩, (flush1_2 _).mpr (by show (50 * (i 0).val + 49) % 50 = 49; omega), ?_⟩
  rw [mem_blk]
  obtain ⟨-, -, -, -, e4, e5, e6⟩ := idx_facts ⟨50 * (i 0).val + 49, hlt⟩
  have e4' : win1_2.index ⟨50 * (i 0).val + 49, hlt⟩ (0 : Fin 3) = (i 0).val := by
    rw [e4]; show (50 * (i 0).val + 49) / 50 = (i 0).val; omega
  intro a
  match a with
  | ⟨0, _⟩ => show win1_2.index ⟨50 * (i 0).val + 49, hlt⟩ (0 : Fin 3) * 1 ≤ (i 0).val ∧ (i 0).val < win1_2.index ⟨50 * (i 0).val + 49, hlt⟩ (0 : Fin 3) * 1 + 1; omega
  | ⟨1, _⟩ => show win1_2.index ⟨50 * (i 0).val + 49, hlt⟩ (1 : Fin 3) * 256 ≤ (i 1).val ∧ (i 1).val < win1_2.index ⟨50 * (i 0).val + 49, hlt⟩ (1 : Fin 3) * 256 + 256; omega
  | ⟨2, _⟩ => show win1_2.index ⟨50 * (i 0).val + 49, hlt⟩ (2 : Fin 3) * 768 ≤ (i 2).val ∧ (i 2).val < win1_2.index ⟨50 * (i 0).val + 49, hlt⟩ (2 : Fin 3) * 768 + 768; omega

/-- The launch leaves the partial sums in its output array. -/
theorem arr_out (hfin : ∀ c i, ∃ x : ℝ, featArr V c i = (x : EReal)) (c : Dev nD) :
    (dat V c).arrAt 2 cfg1.N = partials V c :=
  (dat V c).arrAt_eq_of_cover 2 (partials V c) (flushed_eq V hfin c) (covered)

/-! ## The host's sum over the two halves -/

theorem red : S2x256x768.Reduces [0] S256x768 := by decide

/-- Summed over its first axis from zero, the launch's output is, at (b, col), the sum of column `col` over ALL rows
    whose segment word is `b`. -/
theorem pooled (hfin : ∀ c i, ∃ x : ℝ, featArr V c i = (x : EReal)) (c : Dev nD) (b : Fin 256) (col : Fin 768) :
    Host.reduceAdd (F := Ideal) ((dat V c).arrAt 2 cfg1.N) (constant (F := Ideal) S_ .f32 0x00000000#32) reducesTo_S2x256x768_S256x768_d0 h_S_ (ix2 b col)
      = ∑ e : Fin 300000, if segOf V c e = BitVec.ofNat 32 b.val then featOf V c col e else 0 := by
  rw [arr_out V hfin c]
  unfold Host.reduceAdd
  rw [Ideal.hostReduceAdd_def, Ideal.hostReduceAdd_single reducesTo_S2x256x768_S256x768_d0 red]
  refine (congrArg (fun z => constant (F := Ideal) S_ .f32 0x00000000#32 (Shape.Idx.first h_S_) + z)
    (Fin.sum_univ_two (fun k : Fin 2 => partials V c (red.lift (ix2 b col) k)))).trans ?_
  show constant (F := Ideal) S_ .f32 0x00000000#32 (Shape.Idx.first h_S_)
      + (partials V c (red.lift (ix2 b col) (0 : Fin 2)) + partials V c (red.lift (ix2 b col) (1 : Fin 2))) = _
  have e0 : red.lift (ix2 b col) (0 : Fin 2) = ix3 (0 : Fin 2) b col :=
    funext fun a => by match a with | ⟨0, _⟩ => rfl | ⟨1, _⟩ => rfl | ⟨2, _⟩ => rfl
  have e1 : red.lift (ix2 b col) (1 : Fin 2) = ix3 (1 : Fin 2) b col :=
    funext fun a => by match a with | ⟨0, _⟩ => rfl | ⟨1, _⟩ => rfl | ⟨2, _⟩ => rfl
  rw [e0, e1, partials_apply, partials_apply, constant_apply, Ideal.ofBits_zero_f32, zero_add]
  exact SegSum.accum_halves (segOf V c) (featOf V c col) (BitVec.ofNat 32 b.val)

end Cert.KernelIdeal.R1

end
-- ==== Proof.KernelIdealEntry.lean ====
/- What the two kernel regions of the idealized program find in their input arrays, in terms of the launch memory:
   the segment-id columns are the launch's id vectors read row by row (a reshape [300000] -> [300000, 1] keeps the
   row-major order), and the feature arrays are the launch's own, no item before the region having written them. -/
import proofs.«418325_j38482906972422_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Entry

open Idealize.ShloMosaic Idealize.ShloMosaic.ValueIdx Idealize.ShloMosaic.TcCoe
open Cert.KernelIdeal Cert.KernelIdeal.Gen

variable {F : FTy → Type} [FloatOps F]

/-- A vector of `a` entries cast to a column `[a, 1]` reads, at row `i`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt F) ℓ) (outs : Outs (F := F))

/-- Region 0's feature array is the launch's. -/
theorem feat0_eq (c : Dev nD) : V1 m c (Proc.devRef .tc main_arg0) = m ((c : Thread nD τ).loc main_arg0) :=
  V1_of m c main_arg0 (by decide)

/-- Region 1's feature array is the launch's. -/
theorem feat1_eq (c : Dev nD) : V3 m outs c (Proc.devRef .tc main_arg1) = m ((c : Thread nD τ).loc main_arg1) :=
  (V3_of m outs c main_arg1 (by decide)).trans <| (V2_of m outs c main_arg1 (by decide)).trans <|
    V1_of m c main_arg1 (by decide)

/-- The nodes' id column, as a whole: the launch's id vector cast to a column. -/
theorem seg0_cast (c : Dev nD) :
    (V1 m c (Proc.devRef .tc main_v0) : Vec F S300000x1 .i32)
      = shapeCast S300000x1 (m ((c : Thread nD τ).loc main_arg3) : Vec F S300000 .i32) shapeCasts_S300000_S300000x1 := by
  dsimp only [V1, V0, hostOps0]
  after_results
  rfl

/-- The nodes' id column at row `e` is the launch's id of node `e`. -/
theorem seg0_row (c : Dev nD) (e : Fin 300000) :
    (V1 m c (Proc.devRef .tc main_v0) : Vec F S300000x1 .i32) (ix2 e (0 : Fin 1))
      = (m ((c : Thread nD τ).loc main_arg3) : Vec F S300000 .i32) (ix1 e) := by
  rw [seg0_cast]
  exact shapeCast_a_a1_apply _ _ e 0

/-- The edges' id column, as a whole: the launch's id vector cast to a column. -/
theorem seg1_cast (c : Dev nD) :
    (V3 m outs c (Proc.devRef .tc main_v3) : Vec F S300000x1 .i32)
      = shapeCast S300000x1 (m ((c : Thread nD τ).loc main_arg4) : Vec F S300000 .i32) shapeCasts_S300000_S300000x1 := by
  have h4 : V2 m outs c (Proc.devRef .tc main_arg4) = m ((c : Thread nD τ).loc main_arg4) :=
    (V2_of m outs c main_arg4 (by decide)).trans (V1_of m c main_arg4 (by decide))
  dsimp only [V3, hostOps1]
  after_results
  rw [h4]
  rfl

/-- The edges' id column at row `e` is the launch's id of edge `e`. -/
theorem seg1_row (c : Dev nD) (e : Fin 300000) :
    (V3 m outs c (Proc.devRef .tc main_v3) : Vec F S300000x1 .i32) (ix2 e (0 : Fin 1))
      = (m ((c : Thread nD τ).loc main_arg4) : Vec F S300000 .i32) (ix1 e) := by
  rw [seg1_cast]
  exact shapeCast_a_a1_apply _ _ e 0

end Cert.KernelIdeal.Entry
-- ==== Proof.FiniteInputs.lean ====
import proofs.«418325_j38482906972422_2_alg».proof.Pre_finite_inputs
import proofs.«418325_j38482906972422_2_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Finite

open Idealize.ShloMosaic Idealize.ShloMosaic.ValueIdx Cert.Pre_finite_inputs

/-- The rank-0 shape has one index. -/
instance subsingleton_S_ : Subsingleton S_.Idx := ⟨fun a b => funext fun d => d.elim0⟩

/-- The f32 word `0x7F800000` denotes `+∞`. -/
theorem ofBits_inf : Ideal.ofBits .f32 0x7F800000#32 = (⊤ : EReal) := by
  simp [Ideal.ofBits, Ideal.ieee]

/-- An extended real whose absolute value `max x (-x)` is strictly below `+∞` is a real number:
    at `⊤` the maximum is `⊤`, at `⊥` it is `-⊥ = ⊤`, and `⊤ < ⊤` is false. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct of the precondition, over any shape: if the conjunction over all entries of
    `|x| < +∞` is 1, every entry of `x` is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) :=
  real_of_abs_lt_inf (x i) (Host.reduce_andi_all _ _ hr hu ix0 e i)

theorem feats_real (x0 x1 : FVec Ideal S300000x768 .f32) (x2 : FVec Ideal S256x768 .f32) (x3 x4 : IVec S300000 32)
    (x5 : FVec Ideal S768x768 .f32) (x6 : FVec Ideal S768 .f32) (x7 : FVec Ideal S2304x768 .f32) (x8 : FVec Ideal S768 .f32)
    (x9 : FVec Ideal S768x768 .f32) (x10 : FVec Ideal S768 .f32) (x11 : FVec Ideal S768x3129 .f32) (x12 : FVec Ideal S3129 .f32)
    (h : Cert.Pre_finite_inputs.fn (F := Ideal) x0 x1 x2 x3 x4 x5 x6 x7 x8 x9 x10 x11 x12 = fun _ => 1#1) :
    (∀ i, ∃ r : ℝ, x0 i = (r : EReal)) ∧ (∀ i, ∃ r : ℝ, x1 i = (r : EReal)) := by
  have h0 := congrFun h ix0
  dsimp only [fn, fn_part1, fn_part2, fn_part3, andi] at h0
  -- peel the nine outer conjunctions, keeping the left component, down to the conjunction of the first two
  have h8 := (IntOp.andi_eq_one.1 (IntOp.andi_eq_one.1 (IntOp.andi_eq_one.1 (IntOp.andi_eq_one.1
    (IntOp.andi_eq_one.1 (IntOp.andi_eq_one.1 (IntOp.andi_eq_one.1 (IntOp.andi_eq_one.1
    (IntOp.andi_eq_one.1 h0).1).1).1).1).1).1).1).1).1
  obtain ⟨e0, e1⟩ := IntOp.andi_eq_one.1 h8
  exact ⟨all_real x0 _ _ _ e0, all_real x1 _ _ _ e1⟩

end Cert.Pre_finite_inputs.Finite

end
-- ==== Proof.Spec.lean ====
/-
  The common value of the two programs' pooled features: for each segment number `b < 256` and column `h < 768`,
  the sum of `feat r h` over the rows `r < 300000` whose segment word equals `b`. A row whose word is negative or
  at least 256 belongs to no segment and contributes to no sum.
-/
import Idealize.ShloMosaic.PureOps.Ideal
import Idealize.ShloMosaic.Lib.ValueIdx

noncomputable section

open scoped BigOperators

namespace SegSum

open Idealize.ShloMosaic Idealize.ShloMosaic.ValueIdx

/-- Column `h` of segment `b`: the rows whose segment word is the 32-bit word `b`, summed. -/
def rowsum (seg : (⟨1, ![300000]⟩ : Shape).Idx → BitVec 32) (feat : (⟨2, ![300000, 768]⟩ : Shape).Idx → EReal)
    (b : Fin 256) (h : Fin 768) : EReal :=
  ∑ r : Fin 300000, if seg (ix1 r) = BitVec.ofNat 32 b.val then feat (ix2 r h) else 0

/-- The pooled array: entry `(b, h)` is `rowsum seg feat b h`. -/
def segsum (seg : (⟨1, ![300000]⟩ : Shape).Idx → BitVec 32) (feat : (⟨2, ![300000, 768]⟩ : Shape).Idx → EReal) :
    (⟨2, ![256, 768]⟩ : Shape).Idx → EReal :=
  fun j => rowsum seg feat (j 0) (j 1)

theorem segsum_apply (seg : (⟨1, ![300000]⟩ : Shape).Idx → BitVec 32) (feat : (⟨2, ![300000, 768]⟩ : Shape).Idx → EReal)
    (b : Fin 256) (h : Fin 768) : segsum seg feat (ix2 b h) = rowsum seg feat b h := rfl

end SegSum

end
-- ==== Proof.Pooled.lean ====
/-
  The two pooled arrays of the idealized kernel program, in terms of the launch memory: the host's sum over the two
  rows of what a segment-sum launch leaves is, entry (b, h), the sum of column h of that launch's feature array over
  the rows whose segment word is b. The launches find the feature arrays as launched and the segment ids reshaped
  into a column; the precondition makes every feature a real number.
-/
import proofs.«418325_j38482906972422_2_alg».proof.Defs
import proofs.«418325_j38482906972422_2_alg».proof.Proof.KernelIdealRun
import proofs.«418325_j38482906972422_2_alg».proof.Proof.KernelIdealR0Value
import proofs.«418325_j38482906972422_2_alg».proof.Proof.KernelIdealR1Value
import proofs.«418325_j38482906972422_2_alg».proof.Proof.KernelIdealEntry
import proofs.«418325_j38482906972422_2_alg».proof.Proof.FiniteInputs
import proofs.«418325_j38482906972422_2_alg».proof.Proof.Spec
import proofs.«418325_j38482906972422_2_alg».proof.Proof.Gen.Pre_finite_inputs
import Idealize.ShloMosaic.Lib.ValueIdx

set_option maxRecDepth 16384

noncomputable section

open scoped BigOperators

namespace Cert.KernelIdeal.Pooled

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Under the precondition every node feature and every edge feature is a real number. -/
theorem feats (hpre : Cert.Pre_KernelIdeal m) (c : Dev nD) :
    (∀ i, ∃ r : ℝ, (m ((c.tc : Thread nD τ).loc main_arg0) : Vec Ideal S300000x768 .f32) i = (r : EReal))
      ∧ (∀ i, ∃ r : ℝ, (m ((c.tc : Thread nD τ).loc main_arg1) : Vec Ideal S300000x768 .f32) i = (r : EReal)) :=
  Cert.Pre_finite_inputs.Finite.feats_real _ _ _ _ _ _ _ _ _ _ _ _ _ (hpre c)

/-- The nodes' pooled array. -/
theorem nodes (hpre : Cert.Pre_KernelIdeal m) (c : Dev nD) :
    Host.reduceAdd (F := Ideal) (Run.outs m 2 main_v1 c) (constant (F := Ideal) S_ .f32 0x00000000#32) reducesTo_S2x256x768_S256x768_d0 h_S_
      = SegSum.segsum (m ((c.tc : Thread nD τ).loc main_arg3)) (m ((c.tc : Thread nD τ).loc main_arg0)) := by
  funext j
  obtain ⟨b, col, rfl⟩ : ∃ (b : Fin 256) (col : Fin 768), j = ix2 b col := ⟨j 0, j 1, eq_ix2 j⟩
  rw [Run.outs_main_v1 m c]
  have hfin : ∀ c i, ∃ x : ℝ, R0.featArr (Run.Vtc1 m) c i = (x : EReal) := fun c i => by
    show ∃ x : ℝ, (V1 m c (Proc.devRef .tc main_arg0) : Vec Ideal S300000x768 .f32) i = (x : EReal)
    rw [Entry.feat0_eq m c]
    exact (feats m hpre c).1 i
  refine (R0.pooled (Run.Vtc1 m) hfin c b col).trans ?_
  rw [SegSum.segsum_apply]
  unfold SegSum.rowsum
  refine Finset.sum_congr rfl fun e _ => ?_
  have hs : R0.segOf (Run.Vtc1 m) c e = (m ((c.tc : Thread nD τ).loc main_arg3) : Vec Ideal S300000 .i32) (ix1 e) :=
    Entry.seg0_row m c e
  have hf : R0.featOf (Run.Vtc1 m) c col e = (m ((c.tc : Thread nD τ).loc main_arg0) : Vec Ideal S300000x768 .f32) (ix2 e col) :=
    congrFun (Entry.feat0_eq m c) (ix2 e col)
  rw [hs, hf]

/-- The edges' pooled array. -/
theorem edges (hpre : Cert.Pre_KernelIdeal m) (c : Dev nD) :
    Host.reduceAdd (F := Ideal) (Run.outs m 4 main_v4 c) (constant (F := Ideal) S_ .f32 0x00000000#32) reducesTo_S2x256x768_S256x768_d0 h_S_
      = SegSum.segsum (m ((c.tc : Thread nD τ).loc main_arg4)) (m ((c.tc : Thread nD τ).loc main_arg1)) := by
  funext j
  obtain ⟨b, col, rfl⟩ : ∃ (b : Fin 256) (col : Fin 768), j = ix2 b col := ⟨j 0, j 1, eq_ix2 j⟩
  rw [Run.outs_main_v4 m c]
  have hfin : ∀ c i, ∃ x : ℝ, R1.featArr (Run.Vtc3 m) c i = (x : EReal) := fun c i => by
    show ∃ x : ℝ, (V3 m (Run.outs m) c (Proc.devRef .tc main_arg1) : Vec Ideal S300000x768 .f32) i = (x : EReal)
    rw [Entry.feat1_eq m (Run.outs m) c]
    exact (feats m hpre c).2 i
  refine (R1.pooled (Run.Vtc3 m) hfin c b col).trans ?_
  rw [SegSum.segsum_apply]
  unfold SegSum.rowsum
  refine Finset.sum_congr rfl fun e _ => ?_
  have hs : R1.segOf (Run.Vtc3 m) c e = (m ((c.tc : Thread nD τ).loc main_arg4) : Vec Ideal S300000 .i32) (ix1 e) :=
    Entry.seg1_row m (Run.outs m) c e
  have hf : R1.featOf (Run.Vtc3 m) c col e = (m ((c.tc : Thread nD τ).loc main_arg1) : Vec Ideal S300000x768 .f32) (ix2 e col) :=
    congrFun (Entry.feat1_eq m (Run.outs m) c) (ix2 e col)
  rw [hs, hf]

end Cert.KernelIdeal.Pooled

end
-- ==== Proof.LibRowIndex.lean ====
import Idealize.ShloMosaic.Lib.StableHlo.Predicate

/-!
# Row gathers and row scatters read at an index

A table of `N` rows of `C` columns, indexed along its rows by a column of `n` positions:

* the row gather (the row axis collapsed and named by the one start-index component, the column axis kept
  whole) reads, at `(e, j)`, row `idx[e]` — read signed and clamped into the table — at column `j`;
* the row scatter (the row axis inserted and named by the one scatter-index component, the column axis the
  update's window) sends update `(e, j)` to row `idx[e]`, read signed and NOT clamped: an update that is kept
  lands on exactly the row its index names.
-/

namespace Idealize.ShloMosaic.RowIndex

open Idealize.ShloMosaic Idealize.ShloMosaic.StableHlo.Predicate

/-! ## The row scatter -/

/-- The start of update `y`'s window on the row axis is its scatter index, read signed. -/
theorem scatter_rows_start {N C n w : Nat} (d : ScatterDims ⟨2, ![N, C]⟩ ⟨2, ![n, 1]⟩ ⟨2, ![n, C]⟩)
    (hu : d.updateWindowDims = [1]) (hs : d.scatterDimsToOperandDims = [0]) (hv : d.indexVectorDim = 1)
    (idx : IVec ⟨2, ![n, 1]⟩ w) (y : (⟨2, ![n, C]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 2, q = 0 → (y q).val = (y 0).val := fun q hq => by subst hq; rfl
    exact e _ (by rfl)
  | ⟨1, _⟩ =>
    unfold ScatterDims.siIdx
    rw [dif_pos (by simp)]
    apply Fin.ext
    show List.idxOf (0 : Fin 2) [0] = 0
    simp

/-- The row axis is inserted: an update has no window coordinate on it. -/
theorem scatter_rows_window0 {N C n : Nat} (d : ScatterDims ⟨2, ![N, C]⟩ ⟨2, ![n, 1]⟩ ⟨2, ![n, C]⟩)
    (hi : d.insertedWindowDims = [0]) (y : (⟨2, ![n, C]⟩ : Shape).Idx) : d.window y 0 = 0 := by
  unfold ScatterDims.window
  rw [dif_neg (by rw [ScatterDims.sKept, hi]; simp [Shape.kept])]

/-- An update of a row scatter that is kept lands on the row its index names. -/
theorem scatter_rows_lands {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (y : (⟨2, ![n, C]⟩ : Shape).Idx)
    (i : (⟨2, ![N, C]⟩ : Shape).Idx) (h : d.resultIdx? y idx = some i) :
    (idx (ixP (n := n) (y 0))).toInt = ((i 0).val : Int) := by
  have hst := scatter_rows_start d hu hs hv idx y
  have hw := scatter_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-! ## The row gather -/

/-- The start of result `y`'s slice on the row axis is its start index, read signed and clamped into the table. -/
theorem gather_rows_start {N C n w : Nat} (d : GatherDims ⟨2, ![N, C]⟩ ⟨2, ![n, 1]⟩ ⟨2, ![n, C]⟩)
    (hoff : d.offsetDims = [1]) (hcoll : d.collapsedSliceDims = [0])
    (hsim : d.startIndexMap = [0]) (hivd : d.indexVectorDim = 1)
    (idx : IVec ⟨2, ![n, 1]⟩ w) (y : (⟨2, ![n, C]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 2) [0] = 0
    simp

/-- The column axis is the one kept axis: result `y`'s offset on it is its own column. -/
theorem gather_rows_off1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (y : (⟨2, ![n, C]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- A row gather read at `(e, j)`: row `idx[e]`, read signed and clamped into the table, at column `j`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ij e j) = x (ij ⟨min (idx (ixP e)).toInt.toNat (N - 1), by omega⟩ j) := by
  unfold Host.gather
  congr 1
  funext a
  have hnb : ∀ a : Fin 2, a ∉ d.operandBatchingDims := fun a => by rw [hob]; exact List.not_mem_nil
  match a with
  | ⟨0, _⟩ =>
    apply Fin.ext
    have hb := d.batchCoord_eq_zero (ij e j) 0 (hnb 0)
    have ho := d.offCoord_eq_zero (ij e j) 0 (by rw [GatherDims.mem_sKept, hcoll]; simp)
    have hst : d.start (ij e j) idx 0 = min (idx (ixP e)).toInt.toNat (N - 1) :=
      gather_rows_start d hoff hcoll hsim hivd idx (ij e j)
    show d.start (ij e j) idx 0 + d.batchCoord (ij e j) 0 + d.offCoord (ij e j) 0 = min (idx (ixP e)).toInt.toNat (N - 1)
    omega
  | ⟨1, _⟩ =>
    apply Fin.ext
    have hb := d.batchCoord_eq_zero (ij e j) 1 (hnb 1)
    have ho : d.offCoord (ij e j) 1 = j.val := gather_rows_off1 d hoff hcoll hob (ij e j)
    have hst : d.start (ij e j) idx 1 = 0 := by
      unfold GatherDims.start
      rw [dif_neg (by rw [hsim]; simp)]
    show d.start (ij e j) idx 1 + d.batchCoord (ij e j) 1 + d.offCoord (ij e j) 1 = j.val
    omega

end Idealize.ShloMosaic.RowIndex
-- ==== Proof.LibRowSum.lean ====
import proofs.«418325_j38482906972422_2_alg».proof.Proof.LibRowIndex
import Idealize.ShloMosaic.PureOps.Ideal
import Idealize.ShloMosaic.Lib.ValueIdx

/-!
# Row scatters summed, and rows of rank-3 tables

For a table of `N` rows indexed along its rows by a column of `n` index words:

* the updates of a row scatter that land on element `(r, col)` are exactly those in column `col` whose index word,
  read signed, is `r`; so a sum over the landing updates is a sum over those positions;
* the same for a table whose rows are `A × B` rectangles (the row axis inserted, both rectangle axes the window);
* a row gather from such a table reads, at `(e, a, b)`, row `idx[e]` (read signed, clamped into the table) at `(a, b)`.
-/

open scoped BigOperators

namespace Idealize.ShloMosaic.RowIndex

open Idealize.ShloMosaic Idealize.ShloMosaic.StableHlo.Predicate Idealize.ShloMosaic.ValueIdx

/-! ## The row scatter into an `[N, C]` table -/

/-- The column axis is the window: an update's window coordinate on it is its own column. -/
theorem scatter_rows_window1 {N C n : Nat} (d : ScatterDims ⟨2, ![N, C]⟩ ⟨2, ![n, 1]⟩ ⟨2, ![n, C]⟩)
    (hu : d.updateWindowDims = [1]) (hi : d.insertedWindowDims = [0]) (y : (⟨2, ![n, C]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 2, q = 1 → (y q).val = (y 1).val := fun q hq => by subst hq; rfl
  exact e _ (by rfl)

/-- The column axis is not named by the scatter index: the window starts at column `0`. -/
theorem scatter_rows_start1 {N C n w : Nat} (d : ScatterDims ⟨2, ![N, C]⟩ ⟨2, ![n, 1]⟩ ⟨2, ![n, C]⟩)
    (hs : d.scatterDimsToOperandDims = [0]) (idx : IVec ⟨2, ![n, 1]⟩ w) (y : (⟨2, ![n, C]⟩ : Shape).Idx) :
    d.start y idx 1 = 0 := by
  unfold ScatterDims.start
  rw [dif_neg (by rw [hs]; simp)]

/-- Update `j` lands on `i` exactly when its index word reads row `i 0` and its column is `i 1`. -/
theorem scatter_rows_iff {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (j : (⟨2, ![n, C]⟩ : Shape).Idx)
    (i : (⟨2, ![N, C]⟩ : Shape).Idx) :
    d.resultIdx? j idx = some i ↔
      (idx (ixP (n := n) (j 0))).toInt = ((i 0).val : Int) ∧ (j 1).val = (i 1).val := by
  have hst0 := scatter_rows_start d hu hs hv idx j
  have hw0 := scatter_rows_window0 d hi j
  have hst1 := scatter_rows_start1 d hs idx j
  have hw1 := scatter_rows_window1 d hu hi j
  have hiN : (i 0).val < N := (i 0).isLt
  have hjC : (j 1).val < C := (j 1).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      simp only [] at hi0 hi1
      constructor <;> omega
    · exact absurd h (by simp)
  · rintro ⟨h0, h1⟩
    have hall : ∀ a, 0 ≤ d.start j idx a + d.window j a ∧ d.start j idx a + d.window j a < (⟨2, ![N, C]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (C : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega

/-- A sum over the updates of a row scatter that land on `i = (r, col)` is the sum, over the positions whose index
    word reads `r`, of the update at `(position, col)`. -/
theorem scatter_rows_sum {M : Type} [AddCommMonoid M] {N C n w : Nat}
    (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (upd : (⟨2, ![n, C]⟩ : Shape).Idx → M)
    (i : (⟨2, ![N, C]⟩ : Shape).Idx) :
    ∑ j ∈ Finset.univ.filter (fun j => d.resultIdx? j idx = some i), upd j
      = ∑ e ∈ Finset.univ.filter (fun e : Fin n => (idx (ixP e)).toInt = ((i 0).val : Int)), upd (ij e (i 1)) := by
  have key := scatter_rows_iff d hu hi hs hv idx
  have back : ∀ j : (⟨2, ![n, C]⟩ : Shape).Idx, (j 1).val = (i 1).val → ij (n := n) (m := C) (j 0) (i 1) = j := by
    intro j h1
    funext b
    match b with
    | ⟨0, _⟩ => rfl
    | ⟨1, _⟩ => exact Fin.ext h1.symm
  refine Finset.sum_nbij' (fun j => (j 0 : Fin n)) (fun e => ij e (i 1)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ij e (i 1)) i).2 ⟨(Finset.mem_filter.mp he).2, rfl⟩⟩
  · intro j hj
    rw [Finset.mem_filter] at hj
    exact back j ((key j i).1 hj.2).2
  · intro e _
    rfl
  · intro j hj
    rw [Finset.mem_filter] at hj
    show upd j = upd (ij (j 0) (i 1))
    rw [back j ((key j i).1 hj.2).2]

/-! ## The row scatter into an `[N, A, B]` table -/

/-- The start of update `y`'s window on the row axis is its scatter index, read signed. -/
theorem scatter_rows3_start {N A B n w : Nat} (d : ScatterDims ⟨3, ![N, A, B]⟩ ⟨2, ![n, 1]⟩ ⟨3, ![n, A, B]⟩)
    (hu : d.updateWindowDims = [1, 2]) (hs : d.scatterDimsToOperandDims = [0]) (hv : d.indexVectorDim = 1)
    (idx : IVec ⟨2, ![n, 1]⟩ w) (y : (⟨3, ![n, A, B]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 3, q = 0 → (y q).val = (y 0).val := fun q hq => by subst hq; rfl
    exact e _ (by rfl)
  | ⟨1, _⟩ =>
    unfold ScatterDims.siIdx
    rw [dif_pos (by simp)]
    apply Fin.ext
    show List.idxOf (0 : Fin 3) [0] = 0
    simp

/-- The two rectangle axes are not named by the scatter index: the window starts at `0` on them. -/
theorem scatter_rows3_start_ne {N A B n w : Nat} (d : ScatterDims ⟨3, ![N, A, B]⟩ ⟨2, ![n, 1]⟩ ⟨3, ![n, A, B]⟩)
    (hs : d.scatterDimsToOperandDims = [0]) (idx : IVec ⟨2, ![n, 1]⟩ w) (y : (⟨3, ![n, A, B]⟩ : Shape).Idx)
    (a : Fin 3) (ha : a ≠ 0) : d.start y idx a = 0 := by
  unfold ScatterDims.start
  rw [dif_neg (by rw [hs]; simpa using ha)]

/-- The row axis is inserted: an update has no window coordinate on it. -/
theorem scatter_rows3_window0 {N A B n : Nat} (d : ScatterDims ⟨3, ![N, A, B]⟩ ⟨2, ![n, 1]⟩ ⟨3, ![n, A, B]⟩)
    (hi : d.insertedWindowDims = [0]) (y : (⟨3, ![n, A, B]⟩ : Shape).Idx) : d.window y 0 = 0 := by
  unfold ScatterDims.window
  rw [dif_neg (by rw [ScatterDims.sKept, hi]; simp [Shape.kept])]

/-- The first rectangle axis is a window axis: an update's window coordinate on it is its own. -/
theorem scatter_rows3_window1 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 3, q = 1 → (y q).val = (y 1).val := fun q hq => by subst hq; rfl
  exact e _ (by rfl)

/-- The second rectangle axis is a window axis: an update's window coordinate on it is its own. -/
theorem scatter_rows3_window2 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 2 = (y 2).val := by
  obtain ⟨uw, iw, sd, iv, wf⟩ := d
  dsimp only at hu hi
  subst hu hi
  unfold ScatterDims.window
  rw [dif_pos (by simp [ScatterDims.sKept, Shape.kept])]
  have e : ∀ q : Fin 3, q = 2 → (y q).val = (y 2).val := fun q hq => by subst hq; rfl
  exact e _ (by rfl)

/-- Update `j` lands on `i` exactly when its index word reads row `i 0` and its rectangle coordinates are `i`'s. -/
theorem scatter_rows3_iff {N A B n w : Nat} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (j : (⟨3, ![n, A, B]⟩ : Shape).Idx)
    (i : (⟨3, ![N, A, B]⟩ : Shape).Idx) :
    d.resultIdx? j idx = some i ↔
      (idx (ixP (n := n) (j 0))).toInt = ((i 0).val : Int) ∧ (j 1).val = (i 1).val ∧ (j 2).val = (i 2).val := by
  have hst0 := scatter_rows3_start d hu hs hv idx j
  have hw0 := scatter_rows3_window0 d hi j
  have hst1 := scatter_rows3_start_ne d hs idx j 1 (by decide)
  have hst2 := scatter_rows3_start_ne d hs idx j 2 (by decide)
  have hw1 := scatter_rows3_window1 d hu hi j
  have hw2 := scatter_rows3_window2 d hu hi j
  have hiN : (i 0).val < N := (i 0).isLt
  have hjA : (j 1).val < A := (j 1).isLt
  have hjB : (j 2).val < B := (j 2).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      have hi2 := congrArg Fin.val (congrFun (Option.some.inj h) 2)
      simp only [] at hi0 hi1 hi2
      refine ⟨?_, ?_, ?_⟩ <;> omega
    · exact absurd h (by simp)
  · rintro ⟨h0, h1, h2⟩
    have hall : ∀ a, 0 ≤ d.start j idx a + d.window j a ∧ d.start j idx a + d.window j a < (⟨3, ![N, A, B]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (A : Int)
        omega
      | ⟨2, _⟩ =>
        show 0 ≤ d.start j idx 2 + d.window j 2 ∧ d.start j idx 2 + d.window j 2 < (B : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega
    | ⟨2, _⟩ =>
      apply Fin.ext
      show (d.start j idx 2 + d.window j 2).toNat = (i 2).val
      omega

/-- The same for rows that are `A × B` rectangles. -/
theorem scatter_rows3_sum {M : Type} [AddCommMonoid M] {N A B n w : Nat}
    (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (upd : (⟨3, ![n, A, B]⟩ : Shape).Idx → M)
    (i : (⟨3, ![N, A, B]⟩ : Shape).Idx) :
    ∑ j ∈ Finset.univ.filter (fun j => d.resultIdx? j idx = some i), upd j
      = ∑ e ∈ Finset.univ.filter (fun e : Fin n => (idx (ixP e)).toInt = ((i 0).val : Int)), upd (ix3 e (i 1) (i 2)) := by
  have key := scatter_rows3_iff d hu hi hs hv idx
  have back : ∀ j : (⟨3, ![n, A, B]⟩ : Shape).Idx, (j 1).val = (i 1).val → (j 2).val = (i 2).val →
      ix3 (n0 := n) (n1 := A) (n2 := B) (j 0) (i 1) (i 2) = j := by
    intro j h1 h2
    funext b
    match b with
    | ⟨0, _⟩ => rfl
    | ⟨1, _⟩ => exact Fin.ext h1.symm
    | ⟨2, _⟩ => exact Fin.ext h2.symm
  refine Finset.sum_nbij' (fun j => (j 0 : Fin n)) (fun e => ix3 e (i 1) (i 2)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ix3 e (i 1) (i 2)) i).2 ⟨(Finset.mem_filter.mp he).2, rfl, rfl⟩⟩
  · intro j hj
    rw [Finset.mem_filter] at hj
    have hk := (key j i).1 hj.2
    exact back j hk.2.1 hk.2.2
  · intro e _
    rfl
  · intro j hj
    rw [Finset.mem_filter] at hj
    have hk := (key j i).1 hj.2
    show upd j = upd (ix3 (j 0) (i 1) (i 2))
    rw [back j hk.2.1 hk.2.2]

/-! ## The row gather from an `[N, A, B]` table -/

/-- The start of result `y`'s slice on the row axis is its start index, read signed and clamped into the table. -/
theorem gather_rows3_start {N A B n w : Nat} (d : GatherDims ⟨3, ![N, A, B]⟩ ⟨2, ![n, 1]⟩ ⟨3, ![n, A, B]⟩)
    (hoff : d.offsetDims = [1, 2]) (hcoll : d.collapsedSliceDims = [0])
    (hsim : d.startIndexMap = [0]) (hivd : d.indexVectorDim = 1)
    (idx : IVec ⟨2, ![n, 1]⟩ w) (y : (⟨3, ![n, A, B]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 3, q = 0 → (y q).val = (y 0).val := fun q hq => by subst hq; rfl
    exact e _ (by rfl)
  | ⟨1, _⟩ =>
    unfold GatherDims.siIdx
    rw [dif_pos (by simp)]
    apply Fin.ext
    show List.idxOf (0 : Fin 3) [0] = 0
    simp

/-- The first rectangle axis is kept: result `y`'s offset on it is its own coordinate. -/
theorem gather_rows3_off1 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 1 → (y q).val = (y 1).val := fun q hq => by subst hq; rfl
  exact e _ (by rfl)

/-- The second rectangle axis is kept: result `y`'s offset on it is its own coordinate. -/
theorem gather_rows3_off2 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 2 = (y 2).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 2 → (y q).val = (y 2).val := fun q hq => by subst hq; rfl
  exact e _ (by rfl)

/-- A row gather from a table of `A × B` rows read at `(e, a, b)`: row `idx[e]`, read signed and clamped into the
    table, at `(a, b)`. -/
theorem gather_rows3 {α : Type} {N A B n w : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (e : Fin n) (a : Fin A) (b : Fin B) (hN : 0 < N) :
    Host.gather d x idx (ix3 e a b) = x (ix3 ⟨min (idx (ixP e)).toInt.toNat (N - 1), by omega⟩ a b) := by
  unfold Host.gather
  congr 1
  funext c
  have hnb : ∀ c : Fin 3, c ∉ d.operandBatchingDims := fun c => by rw [hob]; exact List.not_mem_nil
  have hst0 : ∀ c : Fin 3, c ≠ 0 → d.start (ix3 e a b) idx c = 0 := fun c hc => by
    unfold GatherDims.start
    rw [dif_neg (by rw [hsim]; simpa using hc)]
  match c with
  | ⟨0, _⟩ =>
    apply Fin.ext
    have hb := d.batchCoord_eq_zero (ix3 e a b) 0 (hnb 0)
    have ho := d.offCoord_eq_zero (ix3 e a b) 0 (by rw [GatherDims.mem_sKept, hcoll]; simp)
    have hst : d.start (ix3 e a b) idx 0 = min (idx (ixP e)).toInt.toNat (N - 1) :=
      gather_rows3_start d hoff hcoll hsim hivd idx (ix3 e a b)
    show d.start (ix3 e a b) idx 0 + d.batchCoord (ix3 e a b) 0 + d.offCoord (ix3 e a b) 0 = min (idx (ixP e)).toInt.toNat (N - 1)
    omega
  | ⟨1, _⟩ =>
    apply Fin.ext
    have hb := d.batchCoord_eq_zero (ix3 e a b) 1 (hnb 1)
    have ho : d.offCoord (ix3 e a b) 1 = a.val := gather_rows3_off1 d hoff hcoll hob (ix3 e a b)
    have hst := hst0 1 (by decide)
    show d.start (ix3 e a b) idx 1 + d.batchCoord (ix3 e a b) 1 + d.offCoord (ix3 e a b) 1 = a.val
    omega
  | ⟨2, _⟩ =>
    apply Fin.ext
    have hb := d.batchCoord_eq_zero (ix3 e a b) 2 (hnb 2)
    have ho : d.offCoord (ix3 e a b) 2 = b.val := gather_rows3_off2 d hoff hcoll hob (ix3 e a b)
    have hst := hst0 2 (by decide)
    show d.start (ix3 e a b) idx 2 + d.batchCoord (ix3 e a b) 2 + d.offCoord (ix3 e a b) 2 = b.val
    omega

end Idealize.ShloMosaic.RowIndex
-- ==== Proof.RefSegSum.lean ====
import proofs.«418325_j38482906972422_2_alg».proof.ReferenceIdeal
import proofs.«418325_j38482906972422_2_alg».proof.Proof.Gen.ReferenceIdeal
import proofs.«418325_j38482906972422_2_alg».proof.Proof.Spec
import proofs.«418325_j38482906972422_2_alg».proof.Proof.LibRowSum
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.ReferenceIdeal.RefValue

open Idealize.ShloMosaic Idealize.ShloMosaic.ValueIdx Cert.ReferenceIdeal Cert.ReferenceIdeal.Facts₀

/-- A 32-bit word read signed is the natural number `b < 256` exactly when it is the word `b`. -/
private theorem toInt_eq_iff (w : BitVec 32) (b : Nat) (hb : b < 256) :
    w.toInt = (b : Int) ↔ w = BitVec.ofNat 32 b := by
  constructor
  · intro h
    apply BitVec.eq_of_toNat_eq
    rw [BitVec.toNat_ofNat]
    have hw := w.isLt
    rw [BitVec.toInt_eq_toNat_cond] at h
    split at h <;> omega
  · intro h
    subst h
    rw [BitVec.toInt_eq_toNat_cond, BitVec.toNat_ofNat]
    have : b % 2 ^ 32 = b := Nat.mod_eq_of_lt (by omega)
    rw [this]
    split <;> omega

/-- Two guarded terms agree when their guards are equivalent and their values equal. -/
private theorem ite_zero_congr {c d : Prop} [Decidable c] [Decidable d] (h : c ↔ d) {a b : EReal} (hab : a = b) :
    (if c then a else 0) = if d then b else 0 := by
  subst hab
  by_cases hc : c
  · rw [if_pos hc, if_pos (h.1 hc)]
  · rw [if_neg hc, if_neg (fun hd => hc (h.2 hd))]

/-- The segment column read at row `e` is the segment vector at `e`. -/
private theorem segcol_apply (seg : IVec S300000 32) (e : Fin 300000) :
    broadcastInDim S300000x1 ![0] bcast_S300000_S300000x1_0 seg (StableHlo.Predicate.ixP e) = seg (ix1 e) := by
  rw [StableHlo.Predicate.bcast_col1]
  congr 1
  funext a
  match a with
  | ⟨0, _⟩ => rfl

theorem scatter_eq_segsum (seg : IVec S300000 32) (feat : FVec Ideal S300000x768 .f32) :
    Host.scatterAdd (F := Ideal) scatter_S256x768_S300000x1_S300000x768_1_0_0_1
      (broadcastInDim S256x768 ![] bcast_S_S256x768 (constant S_ .f32 0x00000000#32))
      (broadcastInDim S300000x1 ![0] bcast_S300000_S300000x1_0 seg) feat
    = SegSum.segsum seg feat := by
  funext i
  show Ideal.hostScatterAdd scatter_S256x768_S300000x1_S300000x768_1_0_0_1 _ _ _ i = _
  unfold Ideal.hostScatterAdd
  rw [RowIndex.scatter_rows_sum scatter_S256x768_S300000x1_S300000x768_1_0_0_1 rfl rfl rfl rfl]
  rw [broadcastInDim_scalar_apply, constant_apply, Ideal.ofBits_zero_f32, zero_add]
  show _ = SegSum.rowsum seg feat (i 0) (i 1)
  unfold SegSum.rowsum
  rw [Finset.sum_filter]
  refine Finset.sum_congr rfl (fun e _ => ?_)
  rw [segcol_apply]
  have hij : StableHlo.Predicate.ij (n := 300000) (m := 768) e (i 1) = ix2 e (i 1) := by
    funext a
    match a with
    | ⟨0, _⟩ => rfl
    | ⟨1, _⟩ => rfl
  have hi0 : (i 0).val < 256 := (i 0).isLt
  exact ite_zero_congr (toInt_eq_iff _ _ hi0) (congrArg feat hij)

end Cert.ReferenceIdeal.RefValue

end
-- ==== Proof.lean ====
/-
  The proof of `Cert.Claim`: a prediction head that pools node and edge features per graph and feeds them to a
  three-layer perceptron. The kernel program pools by two launches of one Pallas kernel: each turns a tile of segment
  ids into a one-hot [3000, 256] matrix and multiplies its transpose with the tile of features (and, for accuracy,
  with the features' bf16 residual, which at exact arithmetic is x - x = 0 for finite x), accumulating over the 50
  tiles of each half of the rows; the two halves' sums are then added on the host. The reference pools by a
  scatter-add, which drops a row whose id is outside 0..255 exactly as the one-hot does. So both pooled arrays are
  `SegSum.segsum`: entry (b, h) is the sum of column h over the rows whose id word is b. Everything after the
  pooling is the same host computation in both programs (`Tail.mlp`), so the results agree entry by entry.
  The frames: every launch terminates and writes only its own output array and scratch, so the thirteen arguments end
  as launched; the reference has no launch and its run is read back operation by operation.
-/
import proofs.«418325_j38482906972422_2_alg».proof.Defs
import proofs.«418325_j38482906972422_2_alg».proof.Proof.Gen.Kernel
import proofs.«418325_j38482906972422_2_alg».proof.Proof.Gen.KernelIdeal
import proofs.«418325_j38482906972422_2_alg».proof.Proof.Gen.ReferenceIdeal
import proofs.«418325_j38482906972422_2_alg».proof.Proof.Gen.Pre_finite_inputs
import proofs.«418325_j38482906972422_2_alg».proof.Proof.Gen.ReferenceIdeal.Run
import proofs.«418325_j38482906972422_2_alg».proof.Proof.KernelRun
import proofs.«418325_j38482906972422_2_alg».proof.Proof.KernelIdealRun
import proofs.«418325_j38482906972422_2_alg».proof.Proof.KernelIdealTail
import proofs.«418325_j38482906972422_2_alg».proof.Proof.Pooled
import proofs.«418325_j38482906972422_2_alg».proof.Proof.RefSegSum
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Run.frame m ρ

/-- So does its idealization. -/
theorem frame_kernel_ideal : Cert.frame_KernelIdeal := fun m ρ _ => Cert.KernelIdeal.Run.frame m ρ

/-- The reference is host operations only: its run, read back, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization replaced, in each launch, the features rounded to bf16 and widened back by the features:
    at exact arithmetic a change of format is the identity. -/
theorem preserves : Cert.preserves_Kernel_KernelIdeal :=
  ⟨IdealRules.truncf_extf.statement _ .f32 .bf16, IdealRules.truncf_extf.statement _ .f32 .bf16⟩

/-- The two idealized programs end with the same result: the perceptron of the two pooled arrays and the question
    embedding, the pooled arrays being the per-segment sums of the node and of the edge features. -/
theorem algebraic : Cert.algebraic_KernelIdeal_ReferenceIdeal := by
  intro m ρ m' ρ' hpre hagree
  refine ⟨fun c => Cert.KernelIdeal.Tail.mlp (F := Ideal)
      (SegSum.segsum (m ((c.tc : Thread Cert.KernelIdeal.nD Cert.KernelIdeal.τ).loc Cert.KernelIdeal.main_arg3)) (m ((c.tc : Thread Cert.KernelIdeal.nD Cert.KernelIdeal.τ).loc Cert.KernelIdeal.main_arg0)))
      (SegSum.segsum (m ((c.tc : Thread Cert.KernelIdeal.nD Cert.KernelIdeal.τ).loc Cert.KernelIdeal.main_arg4)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩) (Cert.KernelIdeal.Run.run_result (F := Ideal) m ρ)
    refine (Cert.KernelIdeal.Tail.V9_main_v24 m (Cert.KernelIdeal.Run.outs m) c).trans ?_
    rw [Cert.KernelIdeal.Pooled.nodes m hpre c, Cert.KernelIdeal.Pooled.edges m hpre c]
  · refine (θ_run Cert.ReferenceIdeal.defs _ _).mono (fun r h c => ⟨(h c).1.trans ?_, (h c).2⟩) (Cert.ReferenceIdeal.Value.run (F := Ideal) m' ρ')
    obtain ⟨a0, a1, a2, a3, a4, a5, a6, a7, a8, a9, a10, a11, a12⟩ := hagree c
    rw [a0, a1, a2, a3, a4, a5, a6, a7, a8, a9, a10, a11, a12]
    refine (Cert.KernelIdeal.Tail.ref_eq_mlp _ _ _ _ _ _ _ _ _ _ _ _ _).trans ?_
    rw [Cert.ReferenceIdeal.RefValue.scatter_eq_segsum, Cert.ReferenceIdeal.RefValue.scatter_eq_segsum]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
